-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S10x1024 : Shape := ⟨2, ![10, 1024]⟩
abbrev S10 : Shape := ⟨1, ![10]⟩
abbrev S2048 : Shape := ⟨1, ![2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S10x1024 : S_.BroadcastsInDim S10x1024 (![] : Fin 0 → Fin S10x1024.rank)
  reducesTo_S10x1024_S_d0_1 : S10x1024.ReducesTo [0, 1] S_
  bcast_S_S10 : S_.BroadcastsInDim S10 (![] : Fin 0 → Fin S10.rank)
  reducesTo_S10_S_d0 : S10.ReducesTo [0] S_
  bcast_S_S2048 : S_.BroadcastsInDim S2048 (![] : Fin 0 → Fin S2048.rank)
  reducesTo_S2048_S_d0 : S2048.ReducesTo [0] S_

variable [Facts]

def fn_part2 {F : FTy → Type} [FloatOps F] (main_v28 : IVec S_ 1) (main_v33 : IVec S2048 1) : IVec S_ 1 :=
  let main_c_12 : IVec S_ 1 := constantI S_ 1 1#1
  let main_v34 : IVec S_ 1 := (fun x v => Host.reduce IntOp.andi x v reducesTo_S2048_S_d0 h_S_) main_v33 main_c_12
  let main_v35 : IVec S_ 1 := andi main_v28 main_v34
  main_v35

def fn_part1 {F : FTy → Type} [FloatOps F] (main_arg4 : FVec F S10x1024 .f32) (main_arg5 : FVec F S10 .f32) (main_arg6 : IVec S2048 32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x1024 .f32 := Host.absf main_arg4
  let main_cst_6 : FVec F S_ .f32 := constant S_ .f32 0x7F800000#32
  let main_v20 : FVec F S10x1024 .f32 := broadcastInDim S10x1024 ![] bcast_S_S10x1024 main_cst_6
  let main_v21 : IVec S10x1024 1 := cmpf .olt main_v19 main_v20
  let main_c_7 : IVec S_ 1 := constantI S_ 1 1#1
  let main_v22 : IVec S_ 1 := (fun x v => Host.reduce IntOp.andi x v reducesTo_S10x1024_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_c_10 : IVec S_ 32 := constantI S_ 32 0#32
  let main_v29 : IVec S2048 32 := broadcastInDim S2048 ![] bcast_S_S2048 main_c_10
  let main_v30 : IVec S2048 1 := cmpi .sge main_arg6 main_v29
  let main_c_11 : IVec S_ 32 := constantI S_ 32 10#32
  let main_v31 : IVec S2048 32 := broadcastInDim S2048 ![] bcast_S_S2048 main_c_11
  let main_v32 : IVec S2048 1 := cmpi .slt main_arg6 main_v31
  let main_v33 : IVec S2048 1 := andi main_v30 main_v32
  fn_part2 (F := F) main_v28 main_v33

def fn {F : FTy → Type} [FloatOps F] (main_arg0 : FVec F S2048x1024 .f32) (main_arg1 : FVec F S2048x1024 .f32) (main_arg2 : FVec F S10x1024 .f32) (main_arg3 : FVec F S10 .f32) (main_arg4 : FVec F S10x1024 .f32) (main_arg5 : FVec F S10 .f32) (main_arg6 : IVec S2048 32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S10x1024 .f32 := Host.absf main_arg2
  let main_cst_2 : FVec F S_ .f32 := constant S_ .f32 0x7F800000#32
  let main_v10 : FVec F S10x1024 .f32 := broadcastInDim S10x1024 ![] bcast_S_S10x1024 main_cst_2
  let main_v11 : IVec S10x1024 1 := cmpf .olt main_v9 main_v10
  let main_c_3 : IVec S_ 1 := constantI S_ 1 1#1
  let main_v12 : IVec S_ 1 := (fun x v => Host.reduce IntOp.andi x v reducesTo_S10x1024_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_arg6 main_v13 main_v16
-- ==== Kernel.lean ====
abbrev S2048x1024 : Shape := ⟨2, ![2048, 1024]⟩
abbrev S10x1024 : Shape := ⟨2, ![10, 1024]⟩
abbrev S10 : Shape := ⟨1, ![10]⟩
abbrev S2048 : Shape := ⟨1, ![2048]⟩
abbrev S20x1024 : Shape := ⟨2, ![20, 1024]⟩
abbrev S20 : Shape := ⟨1, ![20]⟩
abbrev S2048x10 : Shape := ⟨2, ![2048, 10]⟩
abbrev S10x2048 : Shape := ⟨2, ![10, 2048]⟩
abbrev S512x1024 : Shape := ⟨2, ![512, 1024]⟩
abbrev S512x10 : Shape := ⟨2, ![512, 10]⟩
abbrev S10x512 : Shape := ⟨2, ![10, 512]⟩
abbrev S512x20 : Shape := ⟨2, ![512, 20]⟩
abbrev S1x20 : Shape := ⟨2, ![1, 20]⟩
abbrev S20x512 : Shape := ⟨2, ![20, 512]⟩
abbrev S2048x1 : Shape := ⟨2, ![2048, 1]⟩
abbrev S1x2048 : Shape := ⟨2, ![1, 2048]⟩
abbrev S2048x2048 : Shape := ⟨2, ![2048, 2048]⟩
abbrev S256x10 : Shape := ⟨2, ![256, 10]⟩
abbrev S10x256 : Shape := ⟨2, ![10, 256]⟩
abbrev S256x1 : Shape := ⟨2, ![256, 1]⟩
abbrev S1x256 : Shape := ⟨2, ![1, 256]⟩
abbrev S256x256 : Shape := ⟨2, ![256, 256]⟩

abbrev nBuf : Space → Nat
  | .hbm => 16
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S10x1024, .f32⟩
  | .hbm, ⟨3, _⟩ => ⟨S10, .f32⟩
  | .hbm, ⟨4, _⟩ => ⟨S10x1024, .f32⟩
  | .hbm, ⟨5, _⟩ => ⟨S10, .f32⟩
  | .hbm, ⟨6, _⟩ => ⟨S2048, .i32⟩
  | .hbm, ⟨7, _⟩ => ⟨S20x1024, .f32⟩
  | .hbm, ⟨8, _⟩ => ⟨S20, .f32⟩
  | .hbm, ⟨9, _⟩ => ⟨S2048x10, .f32⟩
  | .hbm, ⟨10, _⟩ => ⟨S2048x10, .f32⟩
  | .hbm, ⟨11, _⟩ => ⟨S10x2048, .f32⟩
  | .hbm, ⟨12, _⟩ => ⟨S10x2048, .f32⟩
  | .hbm, ⟨13, _⟩ => ⟨S2048x1, .i32⟩
  | .hbm, ⟨14, _⟩ => ⟨S1x2048, .i32⟩
  | .hbm, ⟨15, _⟩ => ⟨S2048x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S20x1024, .f32⟩
  | .local _ .vmem, ⟨5, _⟩ => ⟨S20, .f32⟩
  | .local _ .vmem, ⟨6, _⟩ => ⟨S512x10, .f32⟩
  | .local _ .vmem, ⟨7, _⟩ => ⟨S512x10, .f32⟩
  | .local _ .vmem, ⟨8, _⟩ => ⟨S512x10, .f32⟩
  | .local _ .vmem, ⟨9, _⟩ => ⟨S512x10, .f32⟩
  | .local _ .vmem, ⟨10, _⟩ => ⟨S10x512, .f32⟩
  | .local _ .vmem, ⟨11, _⟩ => ⟨S10x512, .f32⟩
  | .local _ .vmem, ⟨12, _⟩ => ⟨S10x512, .f32⟩
  | .local _ .vmem, ⟨13, _⟩ => ⟨S10x512, .f32⟩
  | .local _ .vmem, ⟨14, _⟩ => ⟨S256x10, .f32⟩
  | .local _ .vmem, ⟨15, _⟩ => ⟨S256x10, .f32⟩
  | .local _ .vmem, ⟨16, _⟩ => ⟨S256x10, .f32⟩
  | .local _ .vmem, ⟨17, _⟩ => ⟨S256x10, .f32⟩
  | .local _ .vmem, ⟨18, _⟩ => ⟨S10x256, .f32⟩
  | .local _ .vmem, ⟨19, _⟩ => ⟨S10x256, .f32⟩
  | .local _ .vmem, ⟨20, _⟩ => ⟨S10x256, .f32⟩
  | .local _ .vmem, ⟨21, _⟩ => ⟨S10x256, .f32⟩
  | .local _ .vmem, ⟨22, _⟩ => ⟨S256x1, .i32⟩
  | .local _ .vmem, ⟨23, _⟩ => ⟨S256x1, .i32⟩
  | .local _ .vmem, ⟨24, _⟩ => ⟨S1x256, .i32⟩
  | .local _ .vmem, ⟨25, _⟩ => ⟨S1x256, .i32⟩
  | .local _ .vmem, ⟨26, _⟩ => ⟨S256x256, .f32⟩
  | .local _ .vmem, ⟨27, _⟩ => ⟨S256x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x10 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S10x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S10x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S256x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  concatenates_S10x1024_S10x1024_S20x1024_d0 : Shape.Concatenates [S10x1024, S10x1024] S20x1024 0
  concatenates_S10_S10_S20_d0 : Shape.Concatenates [S10, S10] S20 0
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S20x1024_S20x1024_0_0 : ∀ a, (![0, 0] : Fin 2 → Nat) a + S20x1024.size a ≤ S20x1024.size a
  h_S20x1024 : 0 < S20x1024.numel
  shapeCasts_S20x1024_S20x1024 : S20x1024.ShapeCasts S20x1024
  inb_S20_S20_0 : ∀ a, (![0] : Fin 1 → Nat) a + S20.size a ≤ S20.size a
  h_S20 : 0 < S20.numel
  shapeCasts_S20_S20 : S20.ShapeCasts S20
  shapeCasts_S20_S1x20 : S20.ShapeCasts S1x20
  broadcasts_S1x20_S512x20 : S1x20.Broadcasts S512x20
  slices_S512x20_o0_0_S512x10 : S512x20.Slices ![0, 0] S512x10
  inb_S512x10_S512x10_0_0 : ∀ a, (![0, 0] : Fin 2 → Nat) a + S512x10.size a ≤ S512x10.size a
  h_S512x10 : 0 < S512x10.numel
  slices_S512x20_o0_10_S512x10 : S512x20.Slices ![0, 10] S512x10
  slices_S20x512_o0_0_S10x512 : S20x512.Slices ![0, 0] S10x512
  inb_S10x512_S10x512_0_0 : ∀ a, (![0, 0] : Fin 2 → Nat) a + S10x512.size a ≤ S10x512.size a
  h_S10x512 : 0 < S10x512.numel
  slices_S20x512_o10_0_S10x512 : S20x512.Slices ![10, 0] S10x512
  shapeCasts_S2048_S2048x1 : S2048.ShapeCasts S2048x1
  shapeCasts_S2048_S1x2048 : S2048.ShapeCasts S1x2048
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S10x256_S10x256_0_0 : ∀ a, (![0, 0] : Fin 2 → Nat) a + S10x256.size a ≤ S10x256.size a
  h_S10x256 : 0 < S10x256.numel
  shapeCasts_S10x256_S10x256 : S10x256.ShapeCasts S10x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  slices_S256x10_o0_0_S256x1 : S256x10.Slices ![0, 0] S256x1
  slices_S10x256_o0_0_S1x256 : S10x256.Slices ![0, 0] S1x256
  broadcasts_S256x1_S256x256 : S256x1.Broadcasts S256x256
  broadcasts_S1x256_S256x256 : S1x256.Broadcasts S256x256
  natLt_1_32 : 1 < 32
  slices_S256x10_o0_1_S256x1 : S256x10.Slices ![0, 1] S256x1
  slices_S10x256_o1_0_S1x256 : S10x256.Slices ![1, 0] S1x256
  slices_S256x10_o0_2_S256x1 : S256x10.Slices ![0, 2] S256x1
  slices_S10x256_o2_0_S1x256 : S10x256.Slices ![2, 0] S1x256
  slices_S256x10_o0_3_S256x1 : S256x10.Slices ![0, 3] S256x1
  slices_S10x256_o3_0_S1x256 : S10x256.Slices ![3, 0] S1x256
  slices_S256x10_o0_4_S256x1 : S256x10.Slices ![0, 4] S256x1
  slices_S10x256_o4_0_S1x256 : S10x256.Slices ![4, 0] S1x256
  slices_S256x10_o0_5_S256x1 : S256x10.Slices ![0, 5] S256x1
  slices_S10x256_o5_0_S1x256 : S10x256.Slices ![5, 0] S1x256
  slices_S256x10_o0_6_S256x1 : S256x10.Slices ![0, 6] S256x1
  slices_S10x256_o6_0_S1x256 : S10x256.Slices ![6, 0] S1x256
  slices_S256x10_o0_7_S256x1 : S256x10.Slices ![0, 7] S256x1
  slices_S10x256_o7_0_S1x256 : S10x256.Slices ![7, 0] S1x256
  slices_S256x10_o0_8_S256x1 : S256x10.Slices ![0, 8] S256x1
  slices_S10x256_o8_0_S1x256 : S10x256.Slices ![8, 0] S1x256
  slices_S256x10_o0_9_S256x1 : S256x10.Slices ![0, 9] S256x1
  slices_S10x256_o9_0_S1x256 : S10x256.Slices ![9, 0] S1x256
  inb_S256x256_S256x256_0_0 : ∀ a, (![0, 0] : Fin 2 → Nat) a + S256x256.size a ≤ S256x256.size a
  h_S256x256 : 0 < S256x256.numel
  dot_S512x1024_S20x1024_S512x20_1_1_0_0_n_n_wf : DotDims.WF S512x1024 S20x1024 S512x20 [1] [1] [0] [0] [] []
  dot_S20x1024_S512x1024_S20x512_1_1_0_0_n_n_wf : DotDims.WF S20x1024 S512x1024 S20x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .f32 = 32 ∨ (Rect.block (s := S2048x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x1024.size a ≤ S20x1024.size a
  hwx0_2 : ∀ i : grid0.Coords, EltTy.bits .f32 = 32 ∨ (Rect.block (s := S20x1024) S20x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20.size a ≤ S20.size a
  hwx0_3 : ∀ i : grid0.Coords, EltTy.bits .f32 = 32 ∨ (Rect.block (s := S20) S20.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x10.size a ≤ S2048x10.size a
  hwx0_4 : ∀ i : grid0.Coords, EltTy.bits .f32 = 32 ∨ (Rect.block (s := S2048x10) S512x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x10.size a ≤ S2048x10.size a
  hwx0_5 : ∀ i : grid0.Coords, EltTy.bits .f32 = 32 ∨ (Rect.block (s := S2048x10) S512x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10x512.size a ≤ S10x2048.size a
  hwx0_6 : ∀ i : grid0.Coords, EltTy.bits .f32 = 32 ∨ (Rect.block (s := S10x2048) S10x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10x512.size a ≤ S10x2048.size a
  hwx0_7 : ∀ i : grid0.Coords, EltTy.bits .f32 = 32 ∨ (Rect.block (s := S10x2048) S10x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x10.size a ≤ S2048x10.size a
  hwx1_0 : ∀ i : grid1.Coords, EltTy.bits .f32 = 32 ∨ (Rect.block (s := S2048x10) S256x10.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x10.size a ≤ S2048x10.size a
  hwx1_1 : ∀ i : grid1.Coords, EltTy.bits .f32 = 32 ∨ (Rect.block (s := S2048x10) S256x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10x256.size a ≤ S10x2048.size a
  hwx1_2 : ∀ i : grid1.Coords, EltTy.bits .f32 = 32 ∨ (Rect.block (s := S10x2048) S10x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10x256.size a ≤ S10x2048.size a
  hwx1_3 : ∀ i : grid1.Coords, EltTy.bits .f32 = 32 ∨ (Rect.block (s := S10x2048) S10x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S2048x1.size a
  hwx1_4 : ∀ i : grid1.Coords, EltTy.bits .i32 = 32 ∨ (Rect.block (s := S2048x1) S256x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x2048.size a
  hwx1_5 : ∀ i : grid1.Coords, EltTy.bits .i32 = 32 ∨ (Rect.block (s := S1x2048) S1x256.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S2048x2048.size a
  hwx1_6 : ∀ i : grid1.Coords, EltTy.bits .f32 = 32 ∨ (Rect.block (s := S2048x2048) S256x256.size (cc1_transform_6 i) (hinb1_6 i)).WholeWords (EltTy.packing .f32)

variable [Facts₀]

def dot_S512x1024_S20x1024_S512x20_1_1_0_0_n_n : DotDims S512x1024 S20x1024 S512x20 where
  lhsContracting := [1]
  rhsContracting := [1]
  lhsNonContracting := [0]
  rhsNonContracting := [0]
  lhsBatch := []
  rhsBatch := []
  wf := dot_S512x1024_S20x1024_S512x20_1_1_0_0_n_n_wf
def dot_S20x1024_S512x1024_S20x512_1_1_0_0_n_n : DotDims S20x1024 S512x1024 S20x512 where
  lhsContracting := [1]
  rhsContracting := [1]
  lhsNonContracting := [0]
  rhsNonContracting := [0]
  lhsBatch := []
  rhsBatch := []
  wf := dot_S20x1024_S512x1024_S20x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S20x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S512x10.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S512x10.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S10x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S10x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_0) S256x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S256x10.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S10x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_3) S10x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5) S256x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2048x1024 : Shape := ⟨2, ![2048, 1024]⟩
abbrev S10x1024 : Shape := ⟨2, ![10, 1024]⟩
abbrev S10 : Shape := ⟨1, ![10]⟩
abbrev S2048 : Shape := ⟨1, ![2048]⟩
abbrev S2048x1x1 : Shape := ⟨3, ![2048, 1, 1]⟩
abbrev S2048x2048x1 : Shape := ⟨3, ![2048, 2048, 1]⟩
abbrev S1x2048x1 : Shape := ⟨3, ![1, 2048, 1]⟩
abbrev S1024x10 : Shape := ⟨2, ![1024, 10]⟩
abbrev S2048x10 : Shape := ⟨2, ![2048, 10]⟩
abbrev S2048x1x10 : Shape := ⟨3, ![2048, 1, 10]⟩
abbrev S1x2048x10 : Shape := ⟨3, ![1, 2048, 10]⟩
abbrev S2048x2048x10 : Shape := ⟨3, ![2048, 2048, 10]⟩
abbrev S1x1x10 : Shape := ⟨3, ![1, 1, 10]⟩
abbrev S_ : Shape := ⟨0, ![]⟩
abbrev S2048x2048 : Shape := ⟨2, ![2048, 2048]⟩
abbrev S2048x2048x1x1 : Shape := ⟨4, ![2048, 2048, 1, 1]⟩
abbrev S1 : Shape := ⟨1, ![1]⟩
abbrev S1x1x1x1 : Shape := ⟨4, ![1, 1, 1, 1]⟩

abbrev nBuf : Space → Nat
  | .hbm => 153
  | .vmem => 0
  | .smem => 0
  | _ => 0

abbrev hbmTy0_0 (i : Nat) : BufTy := match i % 128 with
  | 0 => ⟨S2048x1024, .f32⟩
  | 1 => ⟨S2048x1024, .f32⟩
  | 2 => ⟨S10x1024, .f32⟩
  | 3 => ⟨S10, .f32⟩
  | 4 => ⟨S10x1024, .f32⟩
  | 5 => ⟨S10, .f32⟩
  | 6 => ⟨S2048, .i32⟩
  | 7 => ⟨S2048x1x1, .i32⟩
  | 8 => ⟨S2048x2048x1, .i32⟩
  | 9 => ⟨S1x2048x1, .i32⟩
  | 10 => ⟨S2048x2048x1, .i32⟩
  | 11 => ⟨S1024x10, .f32⟩
  | 12 => ⟨S2048x10, .f32⟩
  | 13 => ⟨S2048x1x10, .f32⟩
  | 14 => ⟨S1024x10, .f32⟩
  | 15 => ⟨S2048x10, .f32⟩
  | 16 => ⟨S1x2048x10, .f32⟩
  | 17 => ⟨S2048x2048x10, .f32⟩
  | 18 => ⟨S2048x2048x10, .f32⟩
  | 19 => ⟨S2048x2048x10, .f32⟩
  | 20 => ⟨S1x1x10, .f32⟩
  | 21 => ⟨S2048x2048x10, .f32⟩
  | 22 => ⟨S2048x2048x10, .f32⟩
  | 23 => ⟨S_, .f32⟩
  | 24 => ⟨S2048x2048, .f32⟩
  | 25 => ⟨S_, .f32⟩
  | 26 => ⟨S2048x2048, .f32⟩
  | 27 => ⟨S2048x2048, .f32⟩
  | 28 => ⟨S2048x2048x1, .f32⟩
  | 29 => ⟨S2048x2048x10, .f32⟩
  | 30 => ⟨S2048x2048x10, .f32⟩
  | 31 => ⟨S2048x2048x10, .f32⟩
  | 32 => ⟨S_, .f32⟩
  | 33 => ⟨S2048x2048, .f32⟩
  | 34 => ⟨S2048x2048x1, .f32⟩
  | 35 => ⟨S2048x2048x1, .f32⟩
  | 36 => ⟨S2048x2048x10, .f32⟩
  | 37 => ⟨S2048x2048x10, .f32⟩
  | 38 => ⟨S_, .i32⟩
  | 39 => ⟨S2048x2048x1, .i32⟩
  | 40 => ⟨S2048x2048x1, .i1⟩
  | 41 => ⟨S_, .i32⟩
  | 42 => ⟨S2048x2048x1, .i32⟩
  | 43 => ⟨S2048x2048x1, .i32⟩
  | 44 => ⟨S2048x2048x1, .i32⟩
  | 45 => ⟨S2048x2048x1x1, .i32⟩
  | 46 => ⟨S1, .i32⟩
  | 47 => ⟨S_, .i32⟩
  | 48 => ⟨S2048x2048x1x1, .i32⟩
  | 49 => ⟨S2048x2048x1x1, .i1⟩
  | 50 => ⟨S1x1x1x1, .i32⟩
  | 51 => ⟨S2048x2048x1x1, .i32⟩
  | 52 => ⟨S2048x2048x1x1, .i1⟩
  | 53 => ⟨S2048x2048x1x1, .i1⟩
  | 54 => ⟨S_, .i1⟩
  | 55 => ⟨S2048x2048x1, .i1⟩
  | 56 => ⟨S2048x2048x1, .f32⟩
  | 57 => ⟨S_, .f32⟩
  | 58 => ⟨S2048x2048x1, .f32⟩
  | 59 => ⟨S2048x2048x1, .f32⟩
  | 60 => ⟨S2048x2048, .f32⟩
  | 61 => ⟨S2048x2048, .f32⟩
  | 62 => ⟨S1024x10, .f32⟩
  | 63 => ⟨S2048x10, .f32⟩
  | 64 => ⟨S2048x1x10, .f32⟩
  | 65 => ⟨S1024x10, .f32⟩
  | 66 => ⟨S2048x10, .f32⟩
  | 67 => ⟨S1x2048x10, .f32⟩
  | 68 => ⟨S2048x2048x10, .f32⟩
  | 69 => ⟨S2048x2048x10, .f32⟩
  | 70 => ⟨S2048x2048x10, .f32⟩
  | 71 => ⟨S1x1x10, .f32⟩
  | 72 => ⟨S2048x2048x10, .f32⟩
  | 73 => ⟨S2048x2048x10, .f32⟩
  | 74 => ⟨S_, .f32⟩
  | 75 => ⟨S2048x2048, .f32⟩
  | 76 => ⟨S_, .f32⟩
  | 77 => ⟨S2048x2048, .f32⟩
  | 78 => ⟨S2048x2048, .f32⟩
  | 79 => ⟨S2048x2048x1, .f32⟩
  | 80 => ⟨S2048x2048x10, .f32⟩
  | 81 => ⟨S2048x2048x10, .f32⟩
  | 82 => ⟨S2048x2048x10, .f32⟩
  | 83 => ⟨S_, .f32⟩
  | 84 => ⟨S2048x2048, .f32⟩
  | 85 => ⟨S2048x2048x1, .f32⟩
  | 86 => ⟨S2048x2048x1, .f32⟩
  | 87 => ⟨S2048x2048x10, .f32⟩
  | 88 => ⟨S2048x2048x10, .f32⟩
  | 89 => ⟨S_, .i32⟩
  | 90 => ⟨S2048x2048x1, .i32⟩
  | 91 => ⟨S2048x2048x1, .i1⟩
  | 92 => ⟨S_, .i32⟩
  | 93 => ⟨S2048x2048x1, .i32⟩
  | 94 => ⟨S2048x2048x1, .i32⟩
  | 95 => ⟨S2048x2048x1, .i32⟩
  | 96 => ⟨S2048x2048x1x1, .i32⟩
  | 97 => ⟨S1, .i32⟩
  | 98 => ⟨S_, .i32⟩
  | 99 => ⟨S2048x2048x1x1, .i32⟩
  | 100 => ⟨S2048x2048x1x1, .i1⟩
  | 101 => ⟨S1x1x1x1, .i32⟩
  | 102 => ⟨S2048x2048x1x1, .i32⟩
  | 103 => ⟨S2048x2048x1x1, .i1⟩
  | 104 => ⟨S2048x2048x1x1, .i1⟩
  | 105 => ⟨S_, .i1⟩
  | 106 => ⟨S2048x2048x1, .i1⟩
  | 107 => ⟨S2048x2048x1, .f32⟩
  | 108 => ⟨S_, .f32⟩
  | 109 => ⟨S2048x2048x1, .f32⟩
  | 110 => ⟨S2048x2048x1, .f32⟩
  | 111 => ⟨S2048x2048, .f32⟩
  | 112 => ⟨S2048x2048, .f32⟩
  | 113 => ⟨S_, .i32⟩
  | 114 => ⟨S2048x2048x1, .i32⟩
  | 115 => ⟨S2048x2048x1, .i1⟩
  | 116 => ⟨S_, .i32⟩
  | 117 => ⟨S2048x2048x1, .i32⟩
  | 118 => ⟨S2048x2048x1, .i32⟩
  | 119 => ⟨S2048x2048x1, .i32⟩
  | 120 => ⟨S2048x2048x1x1, .i32⟩
  | 121 => ⟨S1, .i32⟩
  | 122 => ⟨S_, .i32⟩
  | 123 => ⟨S2048x2048x1x1, .i32⟩
  | 124 => ⟨S2048x2048x1x1, .i1⟩
  | 125 => ⟨S1x1x1x1, .i32⟩
  | 126 => ⟨S2048x2048x1x1, .i32⟩
  | 127 => ⟨S2048x2048x1x1, .i1⟩
  | _ => ⟨S2048x1024, .f32⟩

abbrev hbmTy0_1 (i : Nat) : BufTy := match i % 128 with
  | 0 => ⟨S2048x2048x1x1, .i1⟩
  | 1 => ⟨S_, .i1⟩
  | 2 => ⟨S2048x2048x1, .i1⟩
  | 3 => ⟨S2048x2048x1, .f32⟩
  | 4 => ⟨S_, .f32⟩
  | 5 => ⟨S2048x2048x1, .f32⟩
  | 6 => ⟨S2048x2048x1, .f32⟩
  | 7 => ⟨S2048x2048, .f32⟩
  | 8 => ⟨S2048x2048, .f32⟩
  | 9 => ⟨S2048x2048, .f32⟩
  | 10 => ⟨S_, .f32⟩
  | 11 => ⟨S2048x2048, .f32⟩
  | 12 => ⟨S2048x2048, .f32⟩
  | 13 => ⟨S2048x2048, .f32⟩
  | 14 => ⟨S2048x2048, .f32⟩
  | 15 => ⟨S_, .f32⟩
  | 16 => ⟨S2048x2048, .f32⟩
  | 17 => ⟨S2048x2048, .f32⟩
  | 18 => ⟨S2048x2048, .f32⟩
  | 19 => ⟨S2048x2048, .f32⟩
  | 20 => ⟨S_, .f32⟩
  | 21 => ⟨S2048x2048, .f32⟩
  | 22 => ⟨S2048x2048, .f32⟩
  | 23 => ⟨S2048x2048, .f32⟩
  | 24 => ⟨S2048x2048, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_cst_1 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v16 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_cst : Ref sig .tc := ⟨.hbm, 57, rfl⟩
abbrev main_call1_v14 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_call2_cst : Ref sig .tc := ⟨.hbm, 74, rfl⟩
abbrev main_call2_v0 : Ref sig .tc := ⟨.hbm, 75, rfl⟩
abbrev main_call2_cst_0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_cst_1 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_v32 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_cst : Ref sig .tc := ⟨.hbm, 108, rfl⟩
abbrev main_call3_v14 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_call4_c : Ref sig .tc := ⟨.hbm, 113, rfl⟩
abbrev main_call4_v0 : Ref sig .tc := ⟨.hbm, 114, rfl⟩
abbrev main_call4_v1 : Ref sig .tc := ⟨.hbm, 115, rfl⟩
abbrev main_call4_c_0 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_c_1 : Ref sig .tc := ⟨.hbm, 121, rfl⟩
abbrev main_call4_c_2 : Ref sig .tc := ⟨.hbm, 122, rfl⟩
abbrev main_call4_v6 : Ref sig .tc := ⟨.hbm, 123, rfl⟩
abbrev main_call4_v7 : Ref sig .tc := ⟨.hbm, 124, rfl⟩
abbrev main_call4_v8 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_c_3 : Ref sig .tc := ⟨.hbm, 129, rfl⟩
abbrev main_call4_v12 : Ref sig .tc := ⟨.hbm, 130, rfl⟩
abbrev main_call4_v13 : Ref sig .tc := ⟨.hbm, 131, rfl⟩
abbrev main_call4_cst : Ref sig .tc := ⟨.hbm, 132, rfl⟩
abbrev main_call4_v14 : Ref sig .tc := ⟨.hbm, 133, rfl⟩
abbrev main_v36 : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_cst : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_v43 : Ref sig .tc := ⟨.hbm, 142, rfl⟩
abbrev main_cst_0 : Ref sig .tc := ⟨.hbm, 143, rfl⟩
abbrev main_v44 : Ref sig .tc := ⟨.hbm, 144, rfl⟩
abbrev main_v45 : Ref sig .tc := ⟨.hbm, 145, rfl⟩
abbrev main_v46 : Ref sig .tc := ⟨.hbm, 146, rfl⟩
abbrev main_v47 : Ref sig .tc := ⟨.hbm, 147, rfl⟩
abbrev main_cst_1 : Ref sig .tc := ⟨.hbm, 148, rfl⟩
abbrev main_v48 : Ref sig .tc := ⟨.hbm, 149, rfl⟩
abbrev main_v49 : Ref sig .tc := ⟨.hbm, 150, rfl⟩
abbrev main_v50 : Ref sig .tc := ⟨.hbm, 151, rfl⟩
abbrev main_v51 : Ref sig .tc := ⟨.hbm, 152, rfl⟩

abbrev nD : Nat := 1
abbrev τ : Topo := Topo.v7x

variable {F : FTy → Type} [FloatOps F]

class Facts₀ : Prop where
  bcast_S2048_S2048x1x1_0 : S2048.BroadcastsInDim S2048x1x1 (![0] : Fin 1 → Fin S2048x1x1.rank)
  bcast_S2048x1x1_S2048x2048x1_0_1_2 : S2048x1x1.BroadcastsInDim S2048x2048x1 (![0, 1, 2] : Fin 3 → Fin S2048x2048x1.rank)
  bcast_S2048_S1x2048x1_1 : S2048.BroadcastsInDim S1x2048x1 (![1] : Fin 1 → Fin S1x2048x1.rank)
  bcast_S1x2048x1_S2048x2048x1_0_1_2 : S1x2048x1.BroadcastsInDim S2048x2048x1 (![0, 1, 2] : Fin 3 → Fin S2048x2048x1.rank)
  transposes_S10x1024_S1024x10_1_0 : S10x1024.Transposes [1, 0] S1024x10
  bcast_S2048x10_S2048x1x10_0_2 : S2048x10.BroadcastsInDim S2048x1x10 (![0, 2] : Fin 2 → Fin S2048x1x10.rank)
  bcast_S2048x10_S1x2048x10_1_2 : S2048x10.BroadcastsInDim S1x2048x10 (![1, 2] : Fin 2 → Fin S1x2048x10.rank)
  bcast_S2048x1x10_S2048x2048x10_0_1_2 : S2048x1x10.BroadcastsInDim S2048x2048x10 (![0, 1, 2] : Fin 3 → Fin S2048x2048x10.rank)
  bcast_S1x2048x10_S2048x2048x10_0_1_2 : S1x2048x10.BroadcastsInDim S2048x2048x10 (![0, 1, 2] : Fin 3 → Fin S2048x2048x10.rank)
  bcast_S10_S1x1x10_2 : S10.BroadcastsInDim S1x1x10 (![2] : Fin 1 → Fin S1x1x10.rank)
  bcast_S1x1x10_S2048x2048x10_0_1_2 : S1x1x10.BroadcastsInDim S2048x2048x10 (![0, 1, 2] : Fin 3 → Fin S2048x2048x10.rank)
  reducesTo_S2048x2048x10_S2048x2048_d2 : S2048x2048x10.ReducesTo [2] S2048x2048
  h_S_ : 0 < S_.numel
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S2048x2048x1_S2048x2048x10_0_1_2 : S2048x2048x1.BroadcastsInDim S2048x2048x10 (![0, 1, 2] : Fin 3 → Fin S2048x2048x10.rank)
  bcast_S_S2048x2048x1 : S_.BroadcastsInDim S2048x2048x1 (![] : Fin 0 → Fin S2048x2048x1.rank)
  shapeCasts_S2048x2048x1_S2048x2048x1x1 : S2048x2048x1.ShapeCasts S2048x2048x1x1
  bcast_S_S2048x2048x1x1 : S_.BroadcastsInDim S2048x2048x1x1 (![] : Fin 0 → Fin S2048x2048x1x1.rank)
  bcast_S1_S1x1x1x1_3 : S1.BroadcastsInDim S1x1x1x1 (![3] : Fin 1 → Fin S1x1x1x1.rank)
  bcast_S1x1x1x1_S2048x2048x1x1_0_1_2_3 : S1x1x1x1.BroadcastsInDim S2048x2048x1x1 (![0, 1, 2, 3] : Fin 4 → Fin S2048x2048x1x1.rank)
  reducesTo_S2048x2048x1x1_S2048x2048x1_d3 : S2048x2048x1x1.ReducesTo [3] S2048x2048x1
  shapeCasts_S2048x2048x1_S2048x2048 : S2048x2048x1.ShapeCasts S2048x2048
  dot_S2048x1024_S1024x10_S2048x10_1_0_0_1_n_n_wf : DotDims.WF S2048x1024 S1024x10 S2048x10 [1] [0] [0] [1] [] []
  gather_S2048x2048x10_S2048x2048x1x1_S2048x2048x1_n_2_01_01_2_3_111_wf : GatherDims.WF S2048x2048x10 S2048x2048x1x1 S2048x2048x1 [] [2] [0, 1] [2] [0, 1] 3 ![1, 1, 1]

variable [Facts₀]

def dot_S2048x1024_S1024x10_S2048x10_1_0_0_1_n_n : DotDims S2048x1024 S1024x10 S2048x10 where
  lhsContracting := [1]
  rhsContracting := [0]
  lhsNonContracting := [0]
  rhsNonContracting := [1]
  lhsBatch := []
  rhsBatch := []
  wf := dot_S2048x1024_S1024x10_S2048x10_1_0_0_1_n_n_wf
def gather_S2048x2048x10_S2048x2048x1x1_S2048x2048x1_n_2_01_01_2_3_111 : GatherDims S2048x2048x10 S2048x2048x1x1 S2048x2048x1 where
  offsetDims := []
  collapsedSliceDims := [2]
  operandBatchingDims := [0, 1]
  startIndicesBatchingDims := [0, 1]
  startIndexMap := [2]
  indexVectorDim := 3
  sliceSizes := ![1, 1, 1]
  wf := gather_S2048x2048x10_S2048x2048x1x1_S2048x2048x1_n_2_01_01_2_3_111_wf

class Facts : Prop extends Facts₀ where

variable [Facts]
-- ==== Proof.Spec.lean ====
/-
  The pairwise loss at one pair (i, j), written twice over the extended reals.

  Both programs form, for each of two heads, ten logits  l k = (z_c W^T)[i,k] + (z_b W^T)[j,k] + b[k],
  take a log-softmax over the ten classes, pick the entries at the labels y[i] and y[j], and combine
      w = ce_b / (ce_c + ce_b + eps),   loss = w * ce_c + (1 - w) * gce,   gce = (-lp) * exp(lp)^q .
  `lossRefAt` spells this the way the reference does (shifted log-softmax  (l k - M) - log (sum exp (l - M)),
  the entry picked by index, exp(lp) raised to the power q); `lossKerAt` the way the kernel does (a running
  maximum from the bottom element, the entry picked by a sum of 0/1 masks, M + log(sum exp(l - M)) minus the
  picked logit, exp(lp * q), and the logits associated as (a + b) + c instead of (a + c) + b).
-/
import Idealize.ShloMosaic.PureOps.Ideal
import Idealize.ShloMosaic.Lib.ValueIdx

noncomputable section

open scoped BigOperators
open Idealize.ShloMosaic Idealize.ShloMosaic.ValueIdx

namespace PairLoss

/-- The exponent q of the generalized cross entropy, as both programs carry it (the same f32 word). -/
abbrev gceQ : EReal := Ideal.ofBits .f32 0x3F333333#32
/-- The epsilon of the ratio weight's denominator, as both programs carry it. -/
abbrev ratioEps : EReal := Ideal.ofBits .f32 0x322BCC77#32
/-- The literal one of `1 - w`. -/
abbrev oneE : EReal := Ideal.ofBits .f32 0x3F800000#32

/-- The ten classes in the order the kernel's unrolled loops visit them. -/
def classes : List (Fin 10) := [0, 1, 2, 3, 4, 5, 6, 7, 8, 9]

/-- A label word read as a class (only words below ten are labels; the others never occur under the precondition). -/
def label (w : BitVec 32) : Fin 10 := ⟨w.toNat % 10, Nat.mod_lt _ (by decide)⟩

/-- Every entry of an array is a real number (neither infinity). -/
def AllReal {ι : Type} (x : ι → EReal) : Prop := ∀ p, ∃ r : ℝ, x p = (r : EReal)

/-! ## The reference's spelling -/

/-- The largest of ten logits: the fold of `max` from the bottom element. -/
def rowMax (l : Fin 10 → EReal) : EReal := (Finset.univ : Finset (Fin 10)).fold max ⊥ l

/-- The shifted log-softmax entry  (l k - M) - log (sum_j exp (l j - M)). -/
def logSoftmax (l : Fin 10 → EReal) (k : Fin 10) : EReal :=
  (l k - rowMax l) - Ideal.log (∑ j : Fin 10, Ideal.exp (l j - rowMax l))

/-- The ratio-weighted combination of the causal cross entropy, the bias cross entropy and the bias head's
    log-probability at the other label. -/
def amplified (cepc cepb lp : EReal) : EReal :=
  Ideal.div cepb ((cepc + cepb) + ratioEps) * cepc
    + (oneE - Ideal.div cepb ((cepc + cepb) + ratioEps)) * ((-lp) * Ideal.pow (Ideal.exp lp) gceQ)

section Arrays
variable (zc zb : (⟨2, ![2048, 1024]⟩ : Shape).Idx → EReal) (W : (⟨2, ![10, 1024]⟩ : Shape).Idx → EReal)
  (b : (⟨1, ![10]⟩ : Shape).Idx → EReal)

/-- One head's logits at the pair (i, j), associated as the reference does: (z_c·W_k + z_b·W_k) + b_k. -/
def logitsRef (i j : Fin 2048) : Fin 10 → EReal := fun k =>
  ((∑ d : Fin 1024, zc (ix2 i d) * W (ix2 k d)) + (∑ d : Fin 1024, zb (ix2 j d) * W (ix2 k d))) + b (ix1 k)

/-- One head's logits at the pair (i, j), associated as the kernel does: (z_c·W_k + b_k) + W_k·z_b. -/
def logitsKer (i j : Fin 2048) : Fin 10 → EReal := fun k =>
  ((∑ d : Fin 1024, zc (ix2 i d) * W (ix2 k d)) + b (ix1 k)) + (∑ d : Fin 1024, W (ix2 k d) * zb (ix2 j d))

end Arrays

/-- The reference's loss at the pair (i, j). -/
def lossRefAt (zc zb : (⟨2, ![2048, 1024]⟩ : Shape).Idx → EReal) (Wc : (⟨2, ![10, 1024]⟩ : Shape).Idx → EReal)
    (bc : (⟨1, ![10]⟩ : Shape).Idx → EReal) (Wb : (⟨2, ![10, 1024]⟩ : Shape).Idx → EReal) (bb : (⟨1, ![10]⟩ : Shape).Idx → EReal)
    (y : (⟨1, ![2048]⟩ : Shape).Idx → BitVec 32) (i j : Fin 2048) : EReal :=
  amplified (-(logSoftmax (logitsRef zc zb Wc bc i j) (label (y (ix1 i)))))
    (-(logSoftmax (logitsRef zc zb Wb bb i j) (label (y (ix1 i)))))
    (logSoftmax (logitsRef zc zb Wb bb i j) (label (y (ix1 j))))

/-! ## The kernel's spelling -/

/-- The 0/1 mask "the label word is class k", as a float: the compare's bit, widened, converted. -/
def mask (w : BitVec 32) (k : Fin 10) : EReal :=
  FloatOps.sitofp (F := Ideal) .f32 ((IntOp.cmpi .eq w (BitVec.ofNat 32 k.val)).setWidth 32)

/-- The running maximum over the classes, from the bottom element. -/
def runMax (l : Fin 10 → EReal) : EReal := classes.foldl (fun a k => max a (l k)) ⊥

/-- The logit at the label, as the sum over the classes of mask times logit, from zero. -/
def picked (l : Fin 10 → EReal) (w : BitVec 32) : EReal := classes.foldl (fun a k => a + mask w k * l k) 0

/-- The sum over the classes of exp (l k - M), from zero, M the running maximum. -/
def sumExp (l : Fin 10 → EReal) : EReal := classes.foldl (fun a k => a + Ideal.exp (l k - runMax l)) 0

/-- M + log (sum exp (l - M)). -/
def lseKer (l : Fin 10 → EReal) : EReal := runMax l + Ideal.log (sumExp l)

/-- The kernel's combination: the same ratio weight; the amplification as exp (lp * q), the negation as 0 - lp. -/
def amplifiedKer (cepc cepb lp : EReal) : EReal :=
  Ideal.div cepb ((cepc + cepb) + ratioEps) * cepc
    + (oneE - Ideal.div cepb ((cepc + cepb) + ratioEps)) * ((0 - lp) * Ideal.exp (lp * gceQ))

/-- The kernel's loss at one point of a tile from the two heads' logits there and the two label words. -/
def lossKerOf (lc lb : Fin 10 → EReal) (yi yj : BitVec 32) : EReal :=
  amplifiedKer (lseKer lc - picked lc yi) (lseKer lb - picked lb yi) (picked lb yj - lseKer lb)

/-- The kernel's loss at the pair (i, j). -/
def lossKerAt (zc zb : (⟨2, ![2048, 1024]⟩ : Shape).Idx → EReal) (Wc : (⟨2, ![10, 1024]⟩ : Shape).Idx → EReal)
    (bc : (⟨1, ![10]⟩ : Shape).Idx → EReal) (Wb : (⟨2, ![10, 1024]⟩ : Shape).Idx → EReal) (bb : (⟨1, ![10]⟩ : Shape).Idx → EReal)
    (y : (⟨1, ![2048]⟩ : Shape).Idx → BitVec 32) (i j : Fin 2048) : EReal :=
  lossKerOf (logitsKer zc zb Wc bc i j) (logitsKer zc zb Wb bb i j) (y (ix1 i)) (y (ix1 j))

end PairLoss

end
-- ==== Proof.LossAlgebra.lean ====
/-
  The kernel's spelling of the pairwise loss equals the reference's at every pair (i, j), once every input entry
  is a real number.

  The two logit vectors agree for any inputs (sums and products of extended reals commute).  For any vector of ten
  logits the running maximum is the fold of max, the masked sum picks the entry at the label (the mask is 1 at the
  label's class and 0 elsewhere, and 0 * x = 0, 1 * x = x hold for every extended real), and the running sum of
  exponentials is the finite sum.  For a vector of ten real logits the maximum M is real and the sum S of
  exp (l k - M) is a positive real, so log S is the real logarithm and
      (M + log S) - l k = -((l k - M) - log S),   l k - (M + log S) = (l k - M) - log S
  are identities between reals.  Finally, for a real log-probability lp, 0 - lp = -lp and
  exp (lp * q) = (exp lp) ^ q, q being the real number the exponent's word denotes.
-/
import proofs.«430662_j81965155877006_3_alg».proof.Proof.Spec
import Mathlib.Analysis.SpecialFunctions.Pow.Real
import Mathlib.Analysis.SpecialFunctions.Log.Basic

noncomputable section

open scoped BigOperators
open Idealize.ShloMosaic Idealize.ShloMosaic.ValueIdx

namespace PairLoss

/-! ## Coercion of finite sums and of maxima -/

/-- A finite sum of coerced reals is the coercion of the real sum. -/
private theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The coercion commutes with max. -/
private theorem coe_max (a b : ℝ) : ((max a b : ℝ) : EReal) = max (a : EReal) (b : EReal) :=
  EReal.coe_strictMono.monotone.map_max

/-! ## The logits -/

section Arrays
variable (zc zb : (⟨2, ![2048, 1024]⟩ : Shape).Idx → EReal) (W : (⟨2, ![10, 1024]⟩ : Shape).Idx → EReal)
  (b : (⟨1, ![10]⟩ : Shape).Idx → EReal)

/-- The two associations of the logits agree: products commute under the sum and (a + c) + b' = (a + b') + c. -/
theorem logitsKer_eq_logitsRef (i j : Fin 2048) : logitsKer zc zb W b i j = logitsRef zc zb W b i j := by
  funext k
  have h : (∑ d : Fin 1024, W (ix2 k d) * zb (ix2 j d)) = ∑ d : Fin 1024, zb (ix2 j d) * W (ix2 k d) :=
    Finset.sum_congr rfl (fun d _ => mul_comm _ _)
  show ((∑ d : Fin 1024, zc (ix2 i d) * W (ix2 k d)) + b (ix1 k)) + (∑ d : Fin 1024, W (ix2 k d) * zb (ix2 j d))
    = ((∑ d : Fin 1024, zc (ix2 i d) * W (ix2 k d)) + (∑ d : Fin 1024, zb (ix2 j d) * W (ix2 k d))) + b (ix1 k)
  rw [h, add_right_comm]

/-- With real inputs every logit is real. -/
theorem logitsRef_allReal (hzc : AllReal zc) (hzb : AllReal zb) (hW : AllReal W) (hb : AllReal b) (i j : Fin 2048) :
    AllReal (logitsRef zc zb W b i j) := by
  intro k
  choose rzc hrzc using hzc
  choose rzb hrzb using hzb
  choose rW hrW using hW
  choose rb hrb using hb
  refine ⟨((∑ d : Fin 1024, rzc (ix2 i d) * rW (ix2 k d)) + (∑ d : Fin 1024, rzb (ix2 j d) * rW (ix2 k d)))
    + rb (ix1 k), ?_⟩
  simp only [logitsRef, hrzc, hrzb, hrW, hrb, ← EReal.coe_mul, coe_finset_sum, ← EReal.coe_add]

end Arrays

/-! ## The ten-class folds, spelled out -/

private theorem rowMax_explicit (l : Fin 10 → EReal) :
    rowMax l = max (l 0) (max (l 1) (max (l 2) (max (l 3) (max (l 4) (max (l 5) (max (l 6) (max (l 7)
      (max (l 8) (max (l 9) ⊥))))))))) := rfl

private theorem sum_explicit (f : Fin 10 → EReal) :
    ∑ j : Fin 10, f j = f 0 + (f 1 + (f 2 + (f 3 + (f 4 + (f 5 + (f 6 + (f 7 + (f 8 + (f 9 + 0))))))))) := rfl

/-- The running maximum from the bottom element is the fold of max. -/
theorem runMax_eq_rowMax (l : Fin 10 → EReal) : runMax l = rowMax l := by
  rw [rowMax_explicit]
  simp only [runMax, classes, List.foldl_cons, List.foldl_nil, max_assoc, max_bot_left, max_bot_right]

/-- The running sum of exponentials from zero is the finite sum. -/
theorem sumExp_eq (l : Fin 10 → EReal) : sumExp l = ∑ j : Fin 10, Ideal.exp (l j - rowMax l) := by
  rw [sum_explicit]
  simp only [sumExp, classes, List.foldl_cons, List.foldl_nil, runMax_eq_rowMax, zero_add, add_zero, add_assoc]

/-! ## The mask and the picked logit -/

/-- A label word below ten names class k exactly when it is the word of k. -/
theorem label_eq_iff (w : BitVec 32) (hw : w.toNat < 10) (k : Fin 10) :
    label w = k ↔ w = BitVec.ofNat 32 k.val := by
  have hk : k.val < 2 ^ 32 := lt_trans k.isLt (by decide)
  constructor
  · intro h
    apply BitVec.eq_of_toNat_eq
    have h' : w.toNat % 10 = k.val := congrArg Fin.val h
    rw [Nat.mod_eq_of_lt hw] at h'
    rw [h', BitVec.toNat_ofNat, Nat.mod_eq_of_lt hk]
  · intro h
    apply Fin.ext
    show w.toNat % 10 = k.val
    rw [h, BitVec.toNat_ofNat, Nat.mod_eq_of_lt hk, Nat.mod_eq_of_lt k.isLt]

private theorem sitofp_widen_true : FloatOps.sitofp (F := Ideal) .f32 ((BitVec.ofBool true).setWidth 32) = 1 := by
  show (((((BitVec.ofBool true).setWidth 32).toInt : ℤ) : ℝ) : EReal) = 1
  have h : ((BitVec.ofBool true).setWidth 32).toInt = 1 := by decide
  rw [h]; simp

private theorem sitofp_widen_false : FloatOps.sitofp (F := Ideal) .f32 ((BitVec.ofBool false).setWidth 32) = 0 := by
  show (((((BitVec.ofBool false).setWidth 32).toInt : ℤ) : ℝ) : EReal) = 0
  have h : ((BitVec.ofBool false).setWidth 32).toInt = 0 := by decide
  rw [h]; simp

/-- The mask is one at the label's class and zero elsewhere. -/
theorem mask_eq (w : BitVec 32) (hw : w.toNat < 10) (k : Fin 10) :
    mask w k = if label w = k then 1 else 0 := by
  unfold mask IntOp.cmpi
  by_cases h : label w = k
  · have hb : (w == BitVec.ofNat 32 k.val) = true := beq_iff_eq.mpr ((label_eq_iff w hw k).mp h)
    simp only [hb, if_pos h]
    exact sitofp_widen_true
  · have hb : (w == BitVec.ofNat 32 k.val) = false :=
      beq_eq_false_iff_ne.mpr (fun e => h ((label_eq_iff w hw k).mpr e))
    simp only [hb, if_neg h]
    exact sitofp_widen_false

/-- The masked sum picks the logit at the label. -/
theorem picked_eq (l : Fin 10 → EReal) (w : BitVec 32) (hw : w.toNat < 10) : picked l w = l (label w) := by
  simp only [picked, classes, List.foldl_cons, List.foldl_nil, mask_eq w hw]
  generalize label w = c
  fin_cases c <;> simp

/-! ## Ten real logits -/

/-- The maximum of ten real logits is real. -/
theorem rowMax_real (l : Fin 10 → EReal) (hl : AllReal l) : ∃ M : ℝ, rowMax l = (M : EReal) := by
  choose r hr using hl
  refine ⟨max (r 0) (max (r 1) (max (r 2) (max (r 3) (max (r 4) (max (r 5) (max (r 6) (max (r 7)
      (max (r 8) (r 9))))))))), ?_⟩
  rw [rowMax_explicit]
  simp only [hr, max_bot_right, coe_max]

/-- The sum of the exponentials of ten real logits, each shifted by a real, is a positive real. -/
theorem sumShift_real (l : Fin 10 → EReal) (hl : AllReal l) (M : ℝ) :
    ∃ S : ℝ, 0 < S ∧ ∑ j : Fin 10, Ideal.exp (l j - (M : EReal)) = (S : EReal) := by
  choose r hr using hl
  refine ⟨∑ j : Fin 10, Real.exp (r j - M), Finset.sum_pos (fun j _ => Real.exp_pos _) Finset.univ_nonempty, ?_⟩
  rw [← coe_finset_sum]
  refine Finset.sum_congr rfl (fun j _ => ?_)
  rw [hr j, ← EReal.coe_sub, Ideal.exp_coe]

/-- For ten real logits the maximum and the logarithm of the shifted sum of exponentials are both real. -/
theorem softmax_parts_real (l : Fin 10 → EReal) (hl : AllReal l) :
    ∃ M L : ℝ, rowMax l = (M : EReal) ∧ Ideal.log (∑ j : Fin 10, Ideal.exp (l j - rowMax l)) = (L : EReal) := by
  obtain ⟨M, hM⟩ := rowMax_real l hl
  obtain ⟨S, hS, hSum⟩ := sumShift_real l hl M
  refine ⟨M, Real.log S, hM, ?_⟩
  rw [hM, hSum, Ideal.log_coe, if_neg (not_le.mpr hS)]

/-- The log-softmax entries of ten real logits are real. -/
theorem logSoftmax_real (l : Fin 10 → EReal) (hl : AllReal l) (k : Fin 10) :
    ∃ lp : ℝ, logSoftmax l k = (lp : EReal) := by
  obtain ⟨M, L, hM, hL⟩ := softmax_parts_real l hl
  obtain ⟨x, hx⟩ := hl k
  refine ⟨(x - M) - L, ?_⟩
  unfold logSoftmax
  rw [hL, hM, hx, EReal.coe_sub, EReal.coe_sub]

/-- (M + log S) - l k = -((l k - M) - log S) at the label. -/
theorem lseKer_sub_picked (l : Fin 10 → EReal) (hl : AllReal l) (w : BitVec 32) (hw : w.toNat < 10) :
    lseKer l - picked l w = -(logSoftmax l (label w)) := by
  obtain ⟨M, L, hM, hL⟩ := softmax_parts_real l hl
  obtain ⟨x, hx⟩ := hl (label w)
  rw [picked_eq l w hw]
  unfold lseKer logSoftmax
  rw [runMax_eq_rowMax, sumExp_eq, hL, hM, hx, ← EReal.coe_add, ← EReal.coe_sub, ← EReal.coe_sub, ← EReal.coe_sub,
    ← EReal.coe_neg]
  congr 1
  ring

/-- l k - (M + log S) = (l k - M) - log S at the label. -/
theorem picked_sub_lseKer (l : Fin 10 → EReal) (hl : AllReal l) (w : BitVec 32) (hw : w.toNat < 10) :
    picked l w - lseKer l = logSoftmax l (label w) := by
  obtain ⟨M, L, hM, hL⟩ := softmax_parts_real l hl
  obtain ⟨x, hx⟩ := hl (label w)
  rw [picked_eq l w hw]
  unfold lseKer logSoftmax
  rw [runMax_eq_rowMax, sumExp_eq, hL, hM, hx, ← EReal.coe_add, ← EReal.coe_sub, ← EReal.coe_sub, ← EReal.coe_sub]
  congr 1
  ring

/-! ## The amplification -/

/-- The exponent's word denotes a real number. -/
theorem gceQ_real : ∃ q : ℝ, gceQ = (q : EReal) := by
  refine ⟨11744051 * (2 ^ 24)⁻¹, ?_⟩
  simp [gceQ, Ideal.ofBits, Ideal.ieee]

/-- At a real log-probability the two spellings of the combination agree: 0 - lp = -lp and
    exp (lp * q) = (exp lp) ^ q. -/
theorem amplifiedKer_eq_amplified (a b : EReal) (lp : ℝ) : amplifiedKer a b lp = amplified a b lp := by
  obtain ⟨q, hq⟩ := gceQ_real
  have h1 : (0 : EReal) - (lp : EReal) = -(lp : EReal) := by rw [sub_eq_add_neg, zero_add]
  have h2 : Ideal.exp ((lp : EReal) * gceQ) = Ideal.pow (Ideal.exp (lp : EReal)) gceQ := by
    rw [hq, ← EReal.coe_mul, Ideal.exp_coe, Ideal.exp_coe, Ideal.pow_coe_coe]
    congr 1
    exact Real.exp_mul lp q
  unfold amplifiedKer amplified
  rw [h1, h2]

/-! ## The loss at a pair -/

theorem lossKerAt_eq_lossRefAt
    (zc zb : (⟨2, ![2048, 1024]⟩ : Shape).Idx → EReal) (Wc : (⟨2, ![10, 1024]⟩ : Shape).Idx → EReal) (bc : (⟨1, ![10]⟩ : Shape).Idx → EReal)
    (Wb : (⟨2, ![10, 1024]⟩ : Shape).Idx → EReal) (bb : (⟨1, ![10]⟩ : Shape).Idx → EReal) (y : (⟨1, ![2048]⟩ : Shape).Idx → BitVec 32)
    (hzc : AllReal zc) (hzb : AllReal zb) (hWc : AllReal Wc) (hbc : AllReal bc) (hWb : AllReal Wb) (hbb : AllReal bb)
    (hy : ∀ n : Fin 2048, (y (ix1 n)).toNat < 10) (i j : Fin 2048) :
    lossKerAt zc zb Wc bc Wb bb y i j = lossRefAt zc zb Wc bc Wb bb y i j := by
  have hlc := logitsRef_allReal zc zb Wc bc hzc hzb hWc hbc i j
  have hlb := logitsRef_allReal zc zb Wb bb hzc hzb hWb hbb i j
  obtain ⟨lp, hlp⟩ := logSoftmax_real _ hlb (label (y (ix1 j)))
  unfold lossKerAt lossRefAt lossKerOf
  rw [logitsKer_eq_logitsRef, logitsKer_eq_logitsRef,
    lseKer_sub_picked _ hlc _ (hy i), lseKer_sub_picked _ hlb _ (hy i), picked_sub_lseKer _ hlb _ (hy j), hlp]
  exact amplifiedKer_eq_amplified _ _ lp

end PairLoss

end
-- ==== Proof.PreDecode.lean ====
/-
  What the printed precondition says. The predicate is, for each of the six float arrays, "every entry's absolute
  value is below plus infinity", and for the label array "every word is at least 0 and below 10, signed", all joined by
  and. Over the extended reals an entry whose absolute value max x (-x) is below the top element is neither infinity,
  so it is a real; a word in [0, 10) signed is below 10 unsigned.
-/
import proofs.«430662_j81965155877006_3_alg».proof.Pre_finite_inputs
import proofs.«430662_j81965155877006_3_alg».proof.Proof.Gen.Pre_finite_inputs
import proofs.«430662_j81965155877006_3_alg».proof.Proof.Spec
import Idealize.ShloMosaic.Lib.ReduceAll
import Idealize.ShloMosaic.Lib.StableHlo.Predicate

noncomputable section

namespace Cert.Pre_finite_inputs.Decode

open Idealize.ShloMosaic Idealize.ShloMosaic.ValueIdx

/-- The rank-0 shape has one index. -/
instance : Subsingleton S_.Idx := ⟨fun a b => funext fun d => d.elim0⟩

/-- The word 0x7F800000 denotes plus infinity. -/
theorem inf_eq_top : Ideal.ofBits .f32 0x7F800000#32 = (⊤ : EReal) := by
  simp [Ideal.ofBits, Ideal.ieee]

/-- An extended real whose absolute value is below plus infinity is a real. -/
theorem real_of_abs_lt_top (x : EReal) (h : max x (-x) < ⊤) : ∃ r : ℝ, x = (r : EReal) := by
  induction x using EReal.rec with
  | bot => simp at h
  | coe r => exact ⟨r, rfl⟩
  | top => simp at h

/-- The and of two arrays of bits, read at an index. -/
theorem andi_apply {s : Shape} {w : Nat} (a b : IVec s w) (i : s.Idx) : andi a b i = IntOp.andi (a i) (b i) := rfl

/-- One "all entries have absolute value below plus infinity" that came out 1: every entry is a real. -/
theorem allReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) : PairLoss.AllReal x := by
  intro p
  have hp := Host.reduce_andi_all _ _ hr hu ix0 e p
  have hp' : Ideal.cmp .olt (max (x p) (-(x p))) (Ideal.ofBits .f32 0x7F800000#32) = 1#1 := hp
  rw [inf_eq_top] at hp'
  simp only [Ideal.cmp] at hp'
  exact real_of_abs_lt_top _ (of_decide_eq_true ((StableHlo.Predicate.ofBool_eq_one_iff _).1 hp'))

/-- A word that is at least 0 and below 10 as a signed number is below 10 as an unsigned one: a word with the sign
    bit set is negative. -/
theorem toNat_lt_ten (w : BitVec 32) (h0 : IntOp.cmpi .sge w 0#32 = 1#1) (h10 : IntOp.cmpi .slt w 10#32 = 1#1) :
    w.toNat < 10 := by
  unfold IntOp.cmpi at h0 h10
  rw [StableHlo.Predicate.ofBool_eq_one_iff] at h0 h10
  have z : (0#32 : BitVec 32).toInt = 0 := by decide
  have t : (10#32 : BitVec 32).toInt = 10 := by decide
  simp only [BitVec.slt, BitVec.sle, decide_eq_true_eq, z, t] at h0 h10
  have hw := w.isLt
  have hc := BitVec.toInt_eq_toNat_cond w
  split at hc <;> omega

/-- The "all labels in [0, 10)" that came out 1: every label word is below 10. -/
theorem label_lt_of_all (y : IVec S2048 32) (hb : S_.BroadcastsInDim S2048 (![] : Fin 0 → Fin S2048.rank))
    (hr : S2048.ReducesTo [0] S_) (hu : 0 < S_.numel)
    (e : Host.reduce IntOp.andi
          (andi (cmpi .sge y (broadcastInDim S2048 ![] hb (constantI S_ 32 0#32)))
            (cmpi .slt y (broadcastInDim S2048 ![] hb (constantI S_ 32 10#32))))
          (constantI S_ 1 1#1) hr hu ix0 = 1#1) (n : Fin 2048) : (y (ix1 n)).toNat < 10 := by
  have hp := Host.reduce_andi_all _ _ hr hu ix0 e (ix1 n)
  have hp' : IntOp.andi (IntOp.cmpi .sge (y (ix1 n)) 0#32) (IntOp.cmpi .slt (y (ix1 n)) 10#32) = 1#1 := hp
  obtain ⟨h0, h10⟩ := IntOp.andi_eq_one.1 hp'
  exact toNat_lt_ten _ h0 h10

/-- THE PRECONDITION DECODED: the six float arrays hold reals only, and every label word is below 10. -/
theorem of_pre [Cert.Pre_finite_inputs.Facts] (x0 x1 : FVec Ideal S2048x1024 .f32) (x2 : FVec Ideal S10x1024 .f32)
    (x3 : FVec Ideal S10 .f32) (x4 : FVec Ideal S10x1024 .f32) (x5 : FVec Ideal S10 .f32) (x6 : IVec S2048 32)
    (h : Cert.Pre_finite_inputs.fn (F := Ideal) x0 x1 x2 x3 x4 x5 x6 = fun _ => 1#1) :
    PairLoss.AllReal x0 ∧ PairLoss.AllReal x1 ∧ PairLoss.AllReal x2 ∧ PairLoss.AllReal x3 ∧ PairLoss.AllReal x4
      ∧ PairLoss.AllReal x5 ∧ ∀ n : Fin 2048, (x6 (ix1 n)).toNat < 10 := by
  have e := congrFun h ix0
  dsimp only [fn, fn_part1, fn_part2] at e
  simp only [andi_apply, IntOp.andi_eq_one] at e
  obtain ⟨⟨⟨⟨⟨⟨h0, h1⟩, h2⟩, h3⟩, h4⟩, h5⟩, h6⟩ := e
  exact ⟨allReal_of_all x0 _ _ _ h0, allReal_of_all x1 _ _ _ h1, allReal_of_all x2 _ _ _ h2, allReal_of_all x3 _ _ _ h3,
    allReal_of_all x4 _ _ _ h4, allReal_of_all x5 _ _ _ h5, label_lt_of_all x6 _ _ _ h6⟩

end Cert.Pre_finite_inputs.Decode

end
-- ==== Proof.ProjArrays.lean ====
/-
  REGION 0, the projections: what the body computes at an index, and the four output arrays after the region.

  Per block of 512 rows the body forms  a_cb = z_c_blk · Wcb^T + bcb  ([512,20])  and  b_cb = Wcb · z_b_blk^T  ([20,512]),
  contracting the 1024 axis of both operands into a zero accumulator (the bf16 casts are the identity on the extended
  reals), and stores the two column halves of a_cb and the two row halves of b_cb.  Each output array is therefore ONE
  function of the region's input arrays, index by index:
      a[i, k] = (sum_d z_c[i, d] * Wcb[k + off, d]) + bcb[k + off],        b[k, j] = sum_d Wcb[k + off, d] * z_b[j, d],
  off = 0 for the first head's ten classes and off = 10 for the second's.
-/
import proofs.«430662_j81965155877006_3_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.ProjArrays

open Cert.KernelIdeal Cert.KernelIdeal.Gen Idealize.ShloMosaic Idealize.ShloMosaic.TcCoe Idealize.SL.Sem
open Idealize.ShloMosaic.ValueIdx
open Idealize.ShloMosaic.Pipeline (Dat)

/-! ## The two projections as functions of whole arrays -/

/-- Ten classes' worth of  z_c · Wcb^T + bcb : row i of z_c against rows off … off + 9 of Wcb, plus the bias there. -/
def projA (off : Nat) (hoff : off + 10 ≤ 20) (zc : S2048x1024.Idx → EReal) (Wcb : S20x1024.Idx → EReal)
    (bcb : S20.Idx → EReal) : S2048x10.Idx → EReal := fun idx =>
  (∑ d : Fin 1024, zc (ix2 (⟨(idx 0).val, idx2_lt0 idx⟩ : Fin 2048) d)
      * Wcb (ix2 (⟨(idx 1).val + off, by have := idx2_lt1 idx; omega⟩ : Fin 20) d))
    + bcb (ix1 (⟨(idx 1).val + off, by have := idx2_lt1 idx; omega⟩ : Fin 20))

/-- Ten classes' worth of  Wcb · z_b^T : rows off … off + 9 of Wcb against row j of z_b. -/
def projB (off : Nat) (hoff : off + 10 ≤ 20) (zb : S2048x1024.Idx → EReal) (Wcb : S20x1024.Idx → EReal) :
    S10x2048.Idx → EReal := fun idx =>
  ∑ d : Fin 1024, Wcb (ix2 (⟨(idx 0).val + off, by have := idx2_lt0 idx; omega⟩ : Fin 20) d)
      * zb (ix2 (⟨(idx 1).val, idx2_lt1 idx⟩ : Fin 2048) d)

/-! ## The two contractions' operand indices, axis by axis

Both contract axis 1 of both operands; the left operand's row is the output's row, the right operand's row is the
output's column. -/

theorem lhs_acb_0 (i : S512x20.Idx) (k : dot_S512x1024_S20x1024_S512x20_1_1_0_0_n_n.contr.Idx) :
    (dot_S512x1024_S20x1024_S512x20_1_1_0_0_n_n.lhsIdx i k 0).val = (i 0).val := by
  unfold DotDims.lhsIdx
  rw [dif_neg (show ¬(0 : Fin S512x1024.rank) ∈ dot_S512x1024_S20x1024_S512x20_1_1_0_0_n_n.lhsBatch by decide), dif_pos (show (0 : Fin S512x1024.rank) ∈ dot_S512x1024_S20x1024_S512x20_1_1_0_0_n_n.lhsNonContracting by decide)]
  rfl
theorem lhs_acb_1 (i : S512x20.Idx) (k : dot_S512x1024_S20x1024_S512x20_1_1_0_0_n_n.contr.Idx) :
    (dot_S512x1024_S20x1024_S512x20_1_1_0_0_n_n.lhsIdx i k 1).val = (k ⟨0, by decide⟩).val :=
  dot_S512x1024_S20x1024_S512x20_1_1_0_0_n_n.lhsIdx_val_of_single rfl i k
theorem rhs_acb_0 (i : S512x20.Idx) (k : dot_S512x1024_S20x1024_S512x20_1_1_0_0_n_n.contr.Idx) :
    (dot_S512x1024_S20x1024_S512x20_1_1_0_0_n_n.rhsIdx i k 0).val = (i 1).val := by
  unfold DotDims.rhsIdx
  rw [dif_neg (show ¬(0 : Fin S20x1024.rank) ∈ dot_S512x1024_S20x1024_S512x20_1_1_0_0_n_n.rhsBatch by decide), dif_pos (show (0 : Fin S20x1024.rank) ∈ dot_S512x1024_S20x1024_S512x20_1_1_0_0_n_n.rhsNonContracting by decide)]
  rfl
theorem rhs_acb_1 (i : S512x20.Idx) (k : dot_S512x1024_S20x1024_S512x20_1_1_0_0_n_n.contr.Idx) :
    (dot_S512x1024_S20x1024_S512x20_1_1_0_0_n_n.rhsIdx i k 1).val = (k ⟨0, by decide⟩).val :=
  dot_S512x1024_S20x1024_S512x20_1_1_0_0_n_n.rhsIdx_val_of_single rfl i k

theorem lhs_bcb_0 (i : S20x512.Idx) (k : dot_S20x1024_S512x1024_S20x512_1_1_0_0_n_n.contr.Idx) :
    (dot_S20x1024_S512x1024_S20x512_1_1_0_0_n_n.lhsIdx i k 0).val = (i 0).val := by
  unfold DotDims.lhsIdx
  rw [dif_neg (show ¬(0 : Fin S20x1024.rank) ∈ dot_S20x1024_S512x1024_S20x512_1_1_0_0_n_n.lhsBatch by decide), dif_pos (show (0 : Fin S20x1024.rank) ∈ dot_S20x1024_S512x1024_S20x512_1_1_0_0_n_n.lhsNonContracting by decide)]
  rfl
theorem lhs_bcb_1 (i : S20x512.Idx) (k : dot_S20x1024_S512x1024_S20x512_1_1_0_0_n_n.contr.Idx) :
    (dot_S20x1024_S512x1024_S20x512_1_1_0_0_n_n.lhsIdx i k 1).val = (k ⟨0, by decide⟩).val :=
  dot_S20x1024_S512x1024_S20x512_1_1_0_0_n_n.lhsIdx_val_of_single rfl i k
theorem rhs_bcb_0 (i : S20x512.Idx) (k : dot_S20x1024_S512x1024_S20x512_1_1_0_0_n_n.contr.Idx) :
    (dot_S20x1024_S512x1024_S20x512_1_1_0_0_n_n.rhsIdx i k 0).val = (i 1).val := by
  unfold DotDims.rhsIdx
  rw [dif_neg (show ¬(0 : Fin S512x1024.rank) ∈ dot_S20x1024_S512x1024_S20x512_1_1_0_0_n_n.rhsBatch by decide), dif_pos (show (0 : Fin S512x1024.rank) ∈ dot_S20x1024_S512x1024_S20x512_1_1_0_0_n_n.rhsNonContracting by decide)]
  rfl
theorem rhs_bcb_1 (i : S20x512.Idx) (k : dot_S20x1024_S512x1024_S20x512_1_1_0_0_n_n.contr.Idx) :
    (dot_S20x1024_S512x1024_S20x512_1_1_0_0_n_n.rhsIdx i k 1).val = (k ⟨0, by decide⟩).val :=
  dot_S20x1024_S512x1024_S20x512_1_1_0_0_n_n.rhsIdx_val_of_single rfl i k

/-! ## The body's values at an index -/

/-- a_cb[p, q] = (sum_d x[p, d] * W[q, d]) + b[q]. -/
theorem acb_apply (x0 : S512x1024.Idx → EReal) (x2 : S20x1024.Idx → EReal) (x3 : S20.Idx → EReal) (p : Fin 512) (q : Fin 20) :
    k0_pay2 (F := Ideal) x0 x2 x3 (ix2 p q) = (∑ d : Fin 1024, x0 (ix2 p d) * x2 (ix2 q d)) + x3 (ix1 q) := by
  unfold k0_pay2 k0_pay1
  dsimp only
  rw [addf_apply]
  congr 1
  · simp only [matmul]
    refine (Ideal.matmul_constant_zero_apply dot_S512x1024_S20x1024_S512x20_1_1_0_0_n_n none _ _ (ix2 p q)).trans ?_
    rw [← Equiv.sum_comp (contrEquiv1 dot_S512x1024_S20x1024_S512x20_1_1_0_0_n_n 1024 rfl rfl).symm]
    refine Finset.sum_congr rfl fun k _ => ?_
    have hk := contrEquiv1_symm_val dot_S512x1024_S20x1024_S512x20_1_1_0_0_n_n 1024 rfl rfl k
    have el : dot_S512x1024_S20x1024_S512x20_1_1_0_0_n_n.lhsIdx (ix2 p q) ((contrEquiv1 dot_S512x1024_S20x1024_S512x20_1_1_0_0_n_n 1024 rfl rfl).symm k) = ix2 p k := funext fun a => Fin.ext (by
      match a with
      | ⟨0, _⟩ => exact lhs_acb_0 _ _
      | ⟨1, _⟩ => exact (lhs_acb_1 _ _).trans hk)
    have er : dot_S512x1024_S20x1024_S512x20_1_1_0_0_n_n.rhsIdx (ix2 p q) ((contrEquiv1 dot_S512x1024_S20x1024_S512x20_1_1_0_0_n_n 1024 rfl rfl).symm k) = ix2 q k := funext fun a => Fin.ext (by
      match a with
      | ⟨0, _⟩ => exact rhs_acb_0 _ _
      | ⟨1, _⟩ => exact (rhs_acb_1 _ _).trans hk)
    rw [el, er, truncf_apply, truncf_apply, shapeCast_self]
  · rw [shapeCast_self]
    refine (broadcastTo_apply _ _ (ix2 p q) (ix2 (0 : Fin 1) q) fun a => ?_).trans ?_
    · match a with
      | ⟨0, _⟩ => rfl
      | ⟨1, _⟩ => rfl
    · refine (shapeCast_addUnit_apply _ _ _ _).trans (congrArg x3 (funext fun a => ?_))
      match a with
      | ⟨0, _⟩ => rfl

/-- b_cb[q, p] = sum_d W[q, d] * x[p, d]. -/
theorem bcb_apply (x1 : S512x1024.Idx → EReal) (x2 : S20x1024.Idx → EReal) (q : Fin 20) (p : Fin 512) :
    k0_pay3 (F := Ideal) x1 x2 (ix2 q p) = ∑ d : Fin 1024, x2 (ix2 q d) * x1 (ix2 p d) := by
  unfold k0_pay3 k0_pay1
  dsimp only
  simp only [matmul]
  refine (Ideal.matmul_constant_zero_apply dot_S20x1024_S512x1024_S20x512_1_1_0_0_n_n none _ _ (ix2 q p)).trans ?_
  rw [← Equiv.sum_comp (contrEquiv1 dot_S20x1024_S512x1024_S20x512_1_1_0_0_n_n 1024 rfl rfl).symm]
  refine Finset.sum_congr rfl fun k _ => ?_
  have hk := contrEquiv1_symm_val dot_S20x1024_S512x1024_S20x512_1_1_0_0_n_n 1024 rfl rfl k
  have el : dot_S20x1024_S512x1024_S20x512_1_1_0_0_n_n.lhsIdx (ix2 q p) ((contrEquiv1 dot_S20x1024_S512x1024_S20x512_1_1_0_0_n_n 1024 rfl rfl).symm k) = ix2 q k := funext fun a => Fin.ext (by
    match a with
    | ⟨0, _⟩ => exact lhs_bcb_0 _ _
    | ⟨1, _⟩ => exact (lhs_bcb_1 _ _).trans hk)
  have er : dot_S20x1024_S512x1024_S20x512_1_1_0_0_n_n.rhsIdx (ix2 q p) ((contrEquiv1 dot_S20x1024_S512x1024_S20x512_1_1_0_0_n_n 1024 rfl rfl).symm k) = ix2 p k := funext fun a => Fin.ext (by
    match a with
    | ⟨0, _⟩ => exact rhs_bcb_0 _ _
    | ⟨1, _⟩ => exact (rhs_bcb_1 _ _).trans hk)
  rw [el, er, truncf_apply, truncf_apply, shapeCast_self]

/-- The first stored half of a_cb: columns 0 … 9. -/
theorem a_lo_apply (x0 : S512x1024.Idx → EReal) (x2 : S20x1024.Idx → EReal) (x3 : S20.Idx → EReal) (p : Fin 512) (q : Fin 10) :
    k0_pay4 (F := Ideal) x0 x2 x3 (ix2 p q)
      = (∑ d : Fin 1024, x0 (ix2 p d) * x2 (ix2 (⟨q.val + 0, by have := q.isLt; omega⟩ : Fin 20) d))
        + x3 (ix1 (⟨q.val + 0, by have := q.isLt; omega⟩ : Fin 20)) := by
  unfold k0_pay4
  refine (extractStridedSlice_apply _ _ _ (ix2 p q) (ix2 p (⟨q.val + 0, by have := q.isLt; omega⟩ : Fin 20)) fun a => ?_).trans (acb_apply x0 x2 x3 p _)
  match a with
  | ⟨0, _⟩ => show p.val = 0 + p.val; omega
  | ⟨1, _⟩ => show q.val + 0 = 0 + q.val; omega

/-- The second stored half of a_cb: columns 10 … 19. -/
theorem a_hi_apply (x0 : S512x1024.Idx → EReal) (x2 : S20x1024.Idx → EReal) (x3 : S20.Idx → EReal) (p : Fin 512) (q : Fin 10) :
    k0_pay5 (F := Ideal) x0 x2 x3 (ix2 p q)
      = (∑ d : Fin 1024, x0 (ix2 p d) * x2 (ix2 (⟨q.val + 10, by have := q.isLt; omega⟩ : Fin 20) d))
        + x3 (ix1 (⟨q.val + 10, by have := q.isLt; omega⟩ : Fin 20)) := by
  unfold k0_pay5
  refine (extractStridedSlice_apply _ _ _ (ix2 p q) (ix2 p (⟨q.val + 10, by have := q.isLt; omega⟩ : Fin 20)) fun a => ?_).trans (acb_apply x0 x2 x3 p _)
  match a with
  | ⟨0, _⟩ => show p.val = 0 + p.val; omega
  | ⟨1, _⟩ => show q.val + 10 = 10 + q.val; omega

/-- The first stored half of b_cb: rows 0 … 9. -/
theorem b_lo_apply (x1 : S512x1024.Idx → EReal) (x2 : S20x1024.Idx → EReal) (q : Fin 10) (p : Fin 512) :
    k0_pay6 (F := Ideal) x1 x2 (ix2 q p)
      = ∑ d : Fin 1024, x2 (ix2 (⟨q.val + 0, by have := q.isLt; omega⟩ : Fin 20) d) * x1 (ix2 p d) := by
  unfold k0_pay6
  refine (extractStridedSlice_apply _ _ _ (ix2 q p) (ix2 (⟨q.val + 0, by have := q.isLt; omega⟩ : Fin 20) p) fun a => ?_).trans (bcb_apply x1 x2 _ p)
  match a with
  | ⟨0, _⟩ => show q.val + 0 = 0 + q.val; omega
  | ⟨1, _⟩ => show p.val = 0 + p.val; omega

/-- The second stored half of b_cb: rows 10 … 19. -/
theorem b_hi_apply (x1 : S512x1024.Idx → EReal) (x2 : S20x1024.Idx → EReal) (q : Fin 10) (p : Fin 512) :
    k0_pay7 (F := Ideal) x1 x2 (ix2 q p)
      = ∑ d : Fin 1024, x2 (ix2 (⟨q.val + 10, by have := q.isLt; omega⟩ : Fin 20) d) * x1 (ix2 p d) := by
  unfold k0_pay7
  refine (extractStridedSlice_apply _ _ _ (ix2 q p) (ix2 (⟨q.val + 10, by have := q.isLt; omega⟩ : Fin 20) p) fun a => ?_).trans (bcb_apply x1 x2 _ p)
  match a with
  | ⟨0, _⟩ => show q.val + 10 = 10 + q.val; omega
  | ⟨1, _⟩ => show p.val = 0 + p.val; omega

/-! ## One block against the whole arrays

A block of 512 rows starting at row r of z_c (or z_b), the whole of Wcb and bcb: the stored value at the block's
(p, q) is the projection at row r + p (column r + p for the transposed product). -/

theorem a_lo_point (A0 : S2048x1024.Idx → EReal) (A2 : S20x1024.Idx → EReal) (A3 : S20.Idx → EReal)
    (x0 : S512x1024.Idx → EReal) (x2 : S20x1024.Idx → EReal) (x3 : S20.Idx → EReal) (r : Nat) (hr : r + 512 ≤ 2048)
    (h0 : ∀ (p : Fin 512) (d : Fin 1024), x0 (ix2 p d) = A0 (ix2 (⟨r + p.val, by have := p.isLt; omega⟩ : Fin 2048) d))
    (h2 : ∀ (q : Fin 20) (d : Fin 1024), x2 (ix2 q d) = A2 (ix2 q d)) (h3 : ∀ q : Fin 20, x3 (ix1 q) = A3 (ix1 q))
    (j : S512x10.Idx) (i : S2048x10.Idx) (hi0 : (i 0).val = r + (j 0).val) (hi1 : (i 1).val = (j 1).val) :
    k0_pay4 (F := Ideal) x0 x2 x3 j = projA 0 (by decide) A0 A2 A3 i := by
  obtain ⟨p, q, rfl⟩ : ∃ (p : Fin 512) (q : Fin 10), j = ix2 p q := ⟨j 0, j 1, eq_ix2 j⟩
  have hb : r + p.val < 2048 := Nat.lt_of_lt_of_le (Nat.add_lt_add_left p.isLt r) hr
  obtain ⟨i0, i1, rfl⟩ : ∃ (i0 : Fin 2048) (i1 : Fin 10), i = ix2 i0 i1 := ⟨i 0, i 1, eq_ix2 i⟩
  obtain rfl : i0 = ⟨r + p.val, hb⟩ := Fin.ext hi0
  obtain rfl : i1 = q := Fin.ext hi1
  rw [a_lo_apply]
  simp only [h0, h2, h3]
  rfl

theorem a_hi_point (A0 : S2048x1024.Idx → EReal) (A2 : S20x1024.Idx → EReal) (A3 : S20.Idx → EReal)
    (x0 : S512x1024.Idx → EReal) (x2 : S20x1024.Idx → EReal) (x3 : S20.Idx → EReal) (r : Nat) (hr : r + 512 ≤ 2048)
    (h0 : ∀ (p : Fin 512) (d : Fin 1024), x0 (ix2 p d) = A0 (ix2 (⟨r + p.val, by have := p.isLt; omega⟩ : Fin 2048) d))
    (h2 : ∀ (q : Fin 20) (d : Fin 1024), x2 (ix2 q d) = A2 (ix2 q d)) (h3 : ∀ q : Fin 20, x3 (ix1 q) = A3 (ix1 q))
    (j : S512x10.Idx) (i : S2048x10.Idx) (hi0 : (i 0).val = r + (j 0).val) (hi1 : (i 1).val = (j 1).val) :
    k0_pay5 (F := Ideal) x0 x2 x3 j = projA 10 (by decide) A0 A2 A3 i := by
  obtain ⟨p, q, rfl⟩ : ∃ (p : Fin 512) (q : Fin 10), j = ix2 p q := ⟨j 0, j 1, eq_ix2 j⟩
  have hb : r + p.val < 2048 := Nat.lt_of_lt_of_le (Nat.add_lt_add_left p.isLt r) hr
  obtain ⟨i0, i1, rfl⟩ : ∃ (i0 : Fin 2048) (i1 : Fin 10), i = ix2 i0 i1 := ⟨i 0, i 1, eq_ix2 i⟩
  obtain rfl : i0 = ⟨r + p.val, hb⟩ := Fin.ext hi0
  obtain rfl : i1 = q := Fin.ext hi1
  rw [a_hi_apply]
  simp only [h0, h2, h3]
  rfl

theorem b_lo_point (A1 : S2048x1024.Idx → EReal) (A2 : S20x1024.Idx → EReal)
    (x1 : S512x1024.Idx → EReal) (x2 : S20x1024.Idx → EReal) (r : Nat) (hr : r + 512 ≤ 2048)
    (h1 : ∀ (p : Fin 512) (d : Fin 1024), x1 (ix2 p d) = A1 (ix2 (⟨r + p.val, by have := p.isLt; omega⟩ : Fin 2048) d))
    (h2 : ∀ (q : Fin 20) (d : Fin 1024), x2 (ix2 q d) = A2 (ix2 q d))
    (j : S10x512.Idx) (i : S10x2048.Idx) (hi0 : (i 0).val = (j 0).val) (hi1 : (i 1).val = r + (j 1).val) :
    k0_pay6 (F := Ideal) x1 x2 j = projB 0 (by decide) A1 A2 i := by
  obtain ⟨q, p, rfl⟩ : ∃ (q : Fin 10) (p : Fin 512), j = ix2 q p := ⟨j 0, j 1, eq_ix2 j⟩
  have hb : r + p.val < 2048 := Nat.lt_of_lt_of_le (Nat.add_lt_add_left p.isLt r) hr
  obtain ⟨i0, i1, rfl⟩ : ∃ (i0 : Fin 10) (i1 : Fin 2048), i = ix2 i0 i1 := ⟨i 0, i 1, eq_ix2 i⟩
  obtain rfl : i0 = q := Fin.ext hi0
  obtain rfl : i1 = ⟨r + p.val, hb⟩ := Fin.ext hi1
  rw [b_lo_apply]
  simp only [h1, h2]
  rfl

theorem b_hi_point (A1 : S2048x1024.Idx → EReal) (A2 : S20x1024.Idx → EReal)
    (x1 : S512x1024.Idx → EReal) (x2 : S20x1024.Idx → EReal) (r : Nat) (hr : r + 512 ≤ 2048)
    (h1 : ∀ (p : Fin 512) (d : Fin 1024), x1 (ix2 p d) = A1 (ix2 (⟨r + p.val, by have := p.isLt; omega⟩ : Fin 2048) d))
    (h2 : ∀ (q : Fin 20) (d : Fin 1024), x2 (ix2 q d) = A2 (ix2 q d))
    (j : S10x512.Idx) (i : S10x2048.Idx) (hi0 : (i 0).val = (j 0).val) (hi1 : (i 1).val = r + (j 1).val) :
    k0_pay7 (F := Ideal) x1 x2 j = projB 10 (by decide) A1 A2 i := by
  obtain ⟨q, p, rfl⟩ : ∃ (q : Fin 10) (p : Fin 512), j = ix2 q p := ⟨j 0, j 1, eq_ix2 j⟩
  have hb : r + p.val < 2048 := Nat.lt_of_lt_of_le (Nat.add_lt_add_left p.isLt r) hr
  obtain ⟨i0, i1, rfl⟩ : ∃ (i0 : Fin 10) (i1 : Fin 2048), i = ix2 i0 i1 := ⟨i 0, i 1, eq_ix2 i⟩
  obtain rfl : i0 = q := Fin.ext hi0
  obtain rfl : i1 = ⟨r + p.val, hb⟩ := Fin.ext hi1
  rw [b_hi_apply]
  simp only [h1, h2]
  rfl

/-! ## The grid: where each window's block sits at a point

Point t is row block t: z_c's, z_b's and the two a outputs' blocks are at (t, 0), the two b outputs' at (0, t), the
weights and biases whole at the origin. -/

theorem hz1 : (![0] : Fin 1 → Nat) = fun _ => 0 := funext fun a => by fin_cases a; rfl
theorem hz2 : (![0, 0] : Fin 2 → Nat) = fun _ => 0 := funext fun a => by fin_cases a <;> rfl

theorem block_index : ∀ t : Fin cfg0.N, t.val < 4
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

section Region
variable (V : (c : Dev nD) → (b : Ref sig .tc) → Buf (Elt Ideal) ((c : Thread nD τ).loc b))

/-- The region's four input arrays as it finds them. -/
abbrev zcArr (c : Dev nD) : S2048x1024.Idx → EReal := V c (Pipeline.arrRef spec0 0)
abbrev zbArr (c : Dev nD) : S2048x1024.Idx → EReal := V c (Pipeline.arrRef spec0 1)
abbrev wArr (c : Dev nD) : S20x1024.Idx → EReal := V c (Pipeline.arrRef spec0 2)
abbrev bArr (c : Dev nD) : S20.Idx → EReal := V c (Pipeline.arrRef spec0 3)

/-- z_c's block at point t is rows 512 t … 512 t + 511. -/
theorem zc_block (c : Dev nD) (t : Fin cfg0.N) (p : Fin 512) (d : Fin 1024) (h : t.val * 512 + p.val < 2048) :
    (iblk0 (F := Ideal) V c 0 t : S512x1024.Idx → EReal) (ix2 p d) = zcArr V c (ix2 (⟨t.val * 512 + p.val, h⟩ : Fin 2048) d) := by
  obtain ⟨-, e0, e1, -⟩ := block_index t
  unfold iblk0
  rw [View.read_apply]
  show (V c (Pipeline.arrRef spec0 0) : S2048x1024.Idx → EReal) _ = (V c (Pipeline.arrRef spec0 0) : S2048x1024.Idx → EReal) _
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 1024 + 1 * d.val = d.val; rw [e1]; omega

/-- z_b's block at point t is rows 512 t … 512 t + 511. -/
theorem zb_block (c : Dev nD) (t : Fin cfg0.N) (p : Fin 512) (d : Fin 1024) (h : t.val * 512 + p.val < 2048) :
    (iblk0 (F := Ideal) V c 1 t : S512x1024.Idx → EReal) (ix2 p d) = zbArr V c (ix2 (⟨t.val * 512 + p.val, h⟩ : Fin 2048) d) := by
  obtain ⟨-, -, -, e0, e1, -⟩ := block_index t
  unfold iblk0
  rw [View.read_apply]
  show (V c (Pipeline.arrRef spec0 1) : S2048x1024.Idx → EReal) _ = (V c (Pipeline.arrRef spec0 1) : S2048x1024.Idx → EReal) _
  congr 1
  funext a
  apply Fin.ext
  match a with
  | ⟨0, _⟩ => show win0_1.index t (0 : Fin 2) * 512 + 1 * p.val = t.val * 512 + p.val; rw [e0]; omega
  | ⟨1, _⟩ => show win0_1.index t (1 : Fin 2) * 1024 + 1 * d.val = d.val; rw [e1]; omega

/-- The weights' block at every point is the whole array. -/
theorem w_block (c : Dev nD) (t : Fin cfg0.N) (q : Fin 20) (d : Fin 1024) :
    (iblk0 (F := Ideal) V c 2 t : S20x1024.Idx → EReal) (ix2 q d) = wArr V c (ix2 q d) := by
  obtain ⟨-, -, -, -, -, e0, e1, -⟩ := block_index t
  unfold iblk0
  rw [View.read_apply]
  show (V c (Pipeline.arrRef spec0 2) : S20x1024.Idx → EReal) _ = (V c (Pipeline.arrRef spec0 2) : S20x1024.Idx → EReal) _
  congr 1
  funext a
  apply Fin.ext
  match a with
  | ⟨0, _⟩ => show win0_2.index t (0 : Fin 2) * 20 + 1 * q.val = q.val; rw [e0]; omega
  | ⟨1, _⟩ => show win0_2.index t (1 : Fin 2) * 1024 + 1 * d.val = d.val; rw [e1]; omega

/-- The biases' block at every point is the whole array. -/
theorem b_block (c : Dev nD) (t : Fin cfg0.N) (q : Fin 20) :
    (iblk0 (F := Ideal) V c 3 t : S20.Idx → EReal) (ix1 q) = bArr V c (ix1 q) := by
  obtain ⟨-, -, -, -, -, -, -, e0, -⟩ := block_index t
  unfold iblk0
  rw [View.read_apply]
  show (V c (Pipeline.arrRef spec0 3) : S20.Idx → EReal) _ = (V c (Pipeline.arrRef spec0 3) : S20.Idx → EReal) _
  congr 1
  funext a
  apply Fin.ext
  match a with
  | ⟨0, _⟩ => show win0_3.index t (0 : Fin 1) * 20 + 1 * q.val = q.val; rw [e0]; omega

/-! ## What each point writes back is its block of the projection -/

theorem flushed_a_lo (c : Dev nD) (t : Fin cfg0.N) :
    (dat0 (F := Ideal) V c).flushed 4 t
      = ((cfg0.win 4).blk t).view.read (Elt Ideal) (projA 0 (by decide) (zcArr V c) (wArr V c) (bArr V c)) := by
  show (cfg0.win 4).cut (grid0.coords t) ((dat0 V c).after 4 t) = _
  rw [after0_4]
  unfold out0_4
  rw [View.canon_unit_zero hz2]
  simp only [View.ld_unit_zero (S := S512x1024) hz2, View.ld_unit_zero (S := S20x1024) hz2, View.ld_unit_zero (S := S20) hz1]
  obtain ⟨ht, -, -, -, -, -, -, -, e0, e1, -, -, -, -, -, -⟩ := block_index t
  funext j
  show k0_pay4 (F := Ideal) (iblk0 V c 0 t) (iblk0 V c 2 t) (iblk0 V c 3 t) j
    = projA 0 (by decide) (zcArr V c) (wArr V c) (bArr V c) (((cfg0.win 4).blk t).view.emb j)
  refine a_lo_point (zcArr V c) (wArr V c) (bArr V c) (iblk0 V c 0 t) (iblk0 V c 2 t) (iblk0 V c 3 t) (t.val * 512) (by omega)
    (fun p d => zc_block V c t p d _) (fun q d => w_block V c t q d) (fun q => b_block V c t q) j _ ?_ ?_
  · show win0_4.index t (0 : Fin 2) * 512 + 1 * (j 0).val = t.val * 512 + (j 0).val; rw [e0]; omega
  · show win0_4.index t (1 : Fin 2) * 10 + 1 * (j 1).val = (j 1).val; rw [e1]; omega

theorem flushed_a_hi (c : Dev nD) (t : Fin cfg0.N) :
    (dat0 (F := Ideal) V c).flushed 5 t
      = ((cfg0.win 5).blk t).view.read (Elt Ideal) (projA 10 (by decide) (zcArr V c) (wArr V c) (bArr V c)) := by
  show (cfg0.win 5).cut (grid0.coords t) ((dat0 V c).after 5 t) = _
  rw [after0_5]
  unfold out0_5
  rw [View.canon_unit_zero hz2]
  simp only [View.ld_unit_zero (S := S512x1024) hz2, View.ld_unit_zero (S := S20x1024) hz2, View.ld_unit_zero (S := S20) hz1]
  obtain ⟨ht, -, -, -, -, -, -, -, -, -, e0, e1, -, -, -, -⟩ := block_index t
  funext j
  show k0_pay5 (F := Ideal) (iblk0 V c 0 t) (iblk0 V c 2 t) (iblk0 V c 3 t) j
    = projA 10 (by decide) (zcArr V c) (wArr V c) (bArr V c) (((cfg0.win 5).blk t).view.emb j)
  refine a_hi_point (zcArr V c) (wArr V c) (bArr V c) (iblk0 V c 0 t) (iblk0 V c 2 t) (iblk0 V c 3 t) (t.val * 512) (by omega)
    (fun p d => zc_block V c t p d _) (fun q d => w_block V c t q d) (fun q => b_block V c t q) j _ ?_ ?_
  · show win0_5.index t (0 : Fin 2) * 512 + 1 * (j 0).val = t.val * 512 + (j 0).val; rw [e0]; omega
  · show win0_5.index t (1 : Fin 2) * 10 + 1 * (j 1).val = (j 1).val; rw [e1]; omega

theorem flushed_b_lo (c : Dev nD) (t : Fin cfg0.N) :
    (dat0 (F := Ideal) V c).flushed 6 t
      = ((cfg0.win 6).blk t).view.read (Elt Ideal) (projB 0 (by decide) (zbArr V c) (wArr V c)) := by
  show (cfg0.win 6).cut (grid0.coords t) ((dat0 V c).after 6 t) = _
  rw [after0_6]
  unfold out0_6
  rw [View.canon_unit_zero hz2]
  simp only [View.ld_unit_zero (S := S512x1024) hz2, View.ld_unit_zero (S := S20x1024) hz2]
  obtain ⟨ht, -, -, -, -, -, -, -, -, -, -, -, e0, e1, -, -⟩ := block_index t
  funext j
  show k0_pay6 (F := Ideal) (iblk0 V c 1 t) (iblk0 V c 2 t) j
    = projB 0 (by decide) (zbArr V c) (wArr V c) (((cfg0.win 6).blk t).view.emb j)
  refine b_lo_point (zbArr V c) (wArr V c) (iblk0 V c 1 t) (iblk0 V c 2 t) (t.val * 512) (by omega)
    (fun p d => zb_block V c t p d _) (fun q d => w_block V c t q d) j _ ?_ ?_
  · show win0_6.index t (0 : Fin 2) * 10 + 1 * (j 0).val = (j 0).val; rw [e0]; omega
  · show win0_6.index t (1 : Fin 2) * 512 + 1 * (j 1).val = t.val * 512 + (j 1).val; rw [e1]; omega

theorem flushed_b_hi (c : Dev nD) (t : Fin cfg0.N) :
    (dat0 (F := Ideal) V c).flushed 7 t
      = ((cfg0.win 7).blk t).view.read (Elt Ideal) (projB 10 (by decide) (zbArr V c) (wArr V c)) := by
  show (cfg0.win 7).cut (grid0.coords t) ((dat0 V c).after 7 t) = _
  rw [after0_7]
  unfold out0_7
  rw [View.canon_unit_zero hz2]
  simp only [View.ld_unit_zero (S := S512x1024) hz2, View.ld_unit_zero (S := S20x1024) hz2]
  obtain ⟨ht, -, -, -, -, -, -, -, -, -, -, -, -, -, e0, e1⟩ := block_index t
  funext j
  show k0_pay7 (F := Ideal) (iblk0 V c 1 t) (iblk0 V c 2 t) j
    = projB 10 (by decide) (zbArr V c) (wArr V c) (((cfg0.win 7).blk t).view.emb j)
  refine b_hi_point (zbArr V c) (wArr V c) (iblk0 V c 1 t) (iblk0 V c 2 t) (t.val * 512) (by omega)
    (fun p d => zb_block V c t p d _) (fun q d => w_block V c t q d) j _ ?_ ?_
  · show win0_7.index t (0 : Fin 2) * 10 + 1 * (j 0).val = (j 0).val; rw [e0]; omega
  · show win0_7.index t (1 : Fin 2) * 512 + 1 * (j 1).val = t.val * 512 + (j 1).val; rw [e1]; omega

end Region

/-! ## The blocks tile each output array

An index of an output array is in point t's block iff each coordinate is in the block's range on its axis; row (column)
r of an a (b) output is in block r / 512. -/

theorem mem_blk_a_lo (t : Fin cfg0.N) (i : S2048x10.Idx) :
    i ∈ ((cfg0.win 4).blk t).view.set ↔ ∀ a : Fin 2, win0_4.index t a * S512x10.size a ≤ (i a).val ∧ (i a).val < win0_4.index t a * S512x10.size a + S512x10.size a := by
  show i ∈ ((View.whole main_v2_0).slice (win0_4.rect t)).set ↔ _
  rw [View.set_slice_whole, Rect.mem_set_unit]
  exact Iff.rfl

theorem mem_blk_a_hi (t : Fin cfg0.N) (i : S2048x10.Idx) :
    i ∈ ((cfg0.win 5).blk t).view.set ↔ ∀ a : Fin 2, win0_5.index t a * S512x10.size a ≤ (i a).val ∧ (i a).val < win0_5.index t a * S512x10.size a + S512x10.size a := by
  show i ∈ ((View.whole main_v2_1).slice (win0_5.rect t)).set ↔ _
  rw [View.set_slice_whole, Rect.mem_set_unit]
  exact Iff.rfl

theorem mem_blk_b_lo (t : Fin cfg0.N) (i : S10x2048.Idx) :
    i ∈ ((cfg0.win 6).blk t).view.set ↔ ∀ a : Fin 2, win0_6.index t a * S10x512.size a ≤ (i a).val ∧ (i a).val < win0_6.index t a * S10x512.size a + S10x512.size a := by
  show i ∈ ((View.whole main_v2_2).slice (win0_6.rect t)).set ↔ _
  rw [View.set_slice_whole, Rect.mem_set_unit]
  exact Iff.rfl

theorem mem_blk_b_hi (t : Fin cfg0.N) (i : S10x2048.Idx) :
    i ∈ ((cfg0.win 7).blk t).view.set ↔ ∀ a : Fin 2, win0_7.index t a * S10x512.size a ≤ (i a).val ∧ (i a).val < win0_7.index t a * S10x512.size a + S10x512.size a := by
  show i ∈ ((View.whole main_v2_3).slice (win0_7.rect t)).set ↔ _
  rw [View.set_slice_whole, Rect.mem_set_unit]
  exact Iff.rfl

theorem cover_a_lo (i : S2048x10.Idx) : ∃ t : Fin cfg0.N, (cfg0.win 4).flush t = true ∧ i ∈ ((cfg0.win 4).blk t).view.set := by
  have hi0 : (i 0).val < 2048 := idx2_lt0 i
  have hi1 : (i 1).val < 10 := idx2_lt1 i
  obtain ⟨t, ht⟩ : ∃ t : Fin cfg0.N, t.val = (i 0).val / 512 :=
    ⟨⟨(i 0).val / 512, by rw [show cfg0.N = 4 from N_0]; omega⟩, rfl⟩
  obtain ⟨-, -, -, -, -, -, -, -, e0, e1, -, -, -, -, -, -⟩ := block_index t
  refine ⟨t, flush0_4 t, ?_⟩
  rw [mem_blk_a_lo]
  intro a
  match a with
  | ⟨0, _⟩ => show win0_4.index t (0 : Fin 2) * 512 ≤ (i 0).val ∧ (i 0).val < win0_4.index t (0 : Fin 2) * 512 + 512; rw [e0, ht]; omega
  | ⟨1, _⟩ => show win0_4.index t (1 : Fin 2) * 10 ≤ (i 1).val ∧ (i 1).val < win0_4.index t (1 : Fin 2) * 10 + 10; rw [e1]; omega

theorem cover_a_hi (i : S2048x10.Idx) : ∃ t : Fin cfg0.N, (cfg0.win 5).flush t = true ∧ i ∈ ((cfg0.win 5).blk t).view.set := by
  have hi0 : (i 0).val < 2048 := idx2_lt0 i
  have hi1 : (i 1).val < 10 := idx2_lt1 i
  obtain ⟨t, ht⟩ : ∃ t : Fin cfg0.N, t.val = (i 0).val / 512 :=
    ⟨⟨(i 0).val / 512, by rw [show cfg0.N = 4 from N_0]; omega⟩, rfl⟩
  obtain ⟨-, -, -, -, -, -, -, -, -, -, e0, e1, -, -, -, -⟩ := block_index t
  refine ⟨t, flush0_5 t, ?_⟩
  rw [mem_blk_a_hi]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 10 ≤ (i 1).val ∧ (i 1).val < win0_5.index t (1 : Fin 2) * 10 + 10; rw [e1]; omega

theorem cover_b_lo (i : S10x2048.Idx) : ∃ t : Fin cfg0.N, (cfg0.win 6).flush t = true ∧ i ∈ ((cfg0.win 6).blk t).view.set := by
  have hi0 : (i 0).val < 10 := idx2_lt0 i
  have hi1 : (i 1).val < 2048 := idx2_lt1 i
  obtain ⟨t, ht⟩ : ∃ t : Fin cfg0.N, t.val = (i 1).val / 512 :=
    ⟨⟨(i 1).val / 512, by rw [show cfg0.N = 4 from N_0]; omega⟩, rfl⟩
  obtain ⟨-, -, -, -, -, -, -, -, -, -, -, -, e0, e1, -, -⟩ := block_index t
  refine ⟨t, flush0_6 t, ?_⟩
  rw [mem_blk_b_lo]
  intro a
  match a with
  | ⟨0, _⟩ => show win0_6.index t (0 : Fin 2) * 10 ≤ (i 0).val ∧ (i 0).val < win0_6.index t (0 : Fin 2) * 10 + 10; rw [e0]; omega
  | ⟨1, _⟩ => show win0_6.index t (1 : Fin 2) * 512 ≤ (i 1).val ∧ (i 1).val < win0_6.index t (1 : Fin 2) * 512 + 512; rw [e1, ht]; omega

theorem cover_b_hi (i : S10x2048.Idx) : ∃ t : Fin cfg0.N, (cfg0.win 7).flush t = true ∧ i ∈ ((cfg0.win 7).blk t).view.set := by
  have hi0 : (i 0).val < 10 := idx2_lt0 i
  have hi1 : (i 1).val < 2048 := idx2_lt1 i
  obtain ⟨t, ht⟩ : ∃ t : Fin cfg0.N, t.val = (i 1).val / 512 :=
    ⟨⟨(i 1).val / 512, by rw [show cfg0.N = 4 from N_0]; omega⟩, rfl⟩
  obtain ⟨-, -, -, -, -, -, -, -, -, -, -, -, -, -, e0, e1⟩ := block_index t
  refine ⟨t, flush0_7 t, ?_⟩
  rw [mem_blk_b_hi]
  intro a
  match a with
  | ⟨0, _⟩ => show win0_7.index t (0 : Fin 2) * 10 ≤ (i 0).val ∧ (i 0).val < win0_7.index t (0 : Fin 2) * 10 + 10; rw [e0]; omega
  | ⟨1, _⟩ => show win0_7.index t (1 : Fin 2) * 512 ≤ (i 1).val ∧ (i 1).val < win0_7.index t (1 : Fin 2) * 512 + 512; rw [e1, ht]; omega

/-! ## The four output arrays after the region -/

section Arrays
variable (V : (c : Dev nD) → (b : Ref sig .tc) → Buf (Elt Ideal) ((c : Thread nD τ).loc b))

/-- a_c = z_c · Wcb[0:10]^T + bcb[0:10]. -/
theorem arr0_4 (c : Dev nD) :
    (dat0 (F := Ideal) V c).arrAt 4 cfg0.N
      = projA 0 (by decide) (V c (Pipeline.arrRef spec0 0)) (V c (Pipeline.arrRef spec0 2)) (V c (Pipeline.arrRef spec0 3)) :=
  (dat0 V c).arrAt_eq_of_cover 4 (projA 0 (by decide) (zcArr V c) (wArr V c) (bArr V c)) (fun t _ => flushed_a_lo V c t) cover_a_lo

/-- a_b = z_c · Wcb[10:20]^T + bcb[10:20]. -/
theorem arr0_5 (c : Dev nD) :
    (dat0 (F := Ideal) V c).arrAt 5 cfg0.N
      = projA 10 (by decide) (V c (Pipeline.arrRef spec0 0)) (V c (Pipeline.arrRef spec0 2)) (V c (Pipeline.arrRef spec0 3)) :=
  (dat0 V c).arrAt_eq_of_cover 5 (projA 10 (by decide) (zcArr V c) (wArr V c) (bArr V c)) (fun t _ => flushed_a_hi V c t) cover_a_hi

/-- b_c = Wcb[0:10] · z_b^T. -/
theorem arr0_6 (c : Dev nD) :
    (dat0 (F := Ideal) V c).arrAt 6 cfg0.N
      = projB 0 (by decide) (V c (Pipeline.arrRef spec0 1)) (V c (Pipeline.arrRef spec0 2)) :=
  (dat0 V c).arrAt_eq_of_cover 6 (projB 0 (by decide) (zbArr V c) (wArr V c)) (fun t _ => flushed_b_lo V c t) cover_b_lo

/-- b_b = Wcb[10:20] · z_b^T. -/
theorem arr0_7 (c : Dev nD) :
    (dat0 (F := Ideal) V c).arrAt 7 cfg0.N
      = projB 10 (by decide) (V c (Pipeline.arrRef spec0 1)) (V c (Pipeline.arrRef spec0 2)) :=
  (dat0 V c).arrAt_eq_of_cover 7 (projB 10 (by decide) (zbArr V c) (wArr V c)) (fun t _ => flushed_b_hi V c t) cover_b_hi

end Arrays

end Cert.KernelIdeal.ProjArrays

end
-- ==== Proof.PairArray.lean ====
/-
  The pair region's output array, index by index.

  The region runs an 8 x 8 grid of tiles; at the tile (bi, bj) the body reads rows bi*256 … bi*256 + 255 of the two
  [2048,10] arrays and of the label column, columns bj*256 … bj*256 + 255 of the two [10,2048] arrays and of the label
  row, and leaves a [256,256] tile that is written back at rows bi*256 …, columns bj*256 … of the [2048,2048] result.
  For ANY function T of one row of ten of each left array, one column of ten of each right array and the two label
  words, if the body's tile at (p, q) is T of row p, column q of its blocks, then the result array at (i, j) is T of row i,
  column j of the arrays: each block at a local index is its array at the global index, and the 64 tiles cover the result.
-/
import proofs.«430662_j81965155877006_3_alg».proof.Proof.Gen.KernelIdeal.Frame
import Idealize.ShloMosaic.Lib.Pipeline.Value
import Idealize.ShloMosaic.Lib.ValueIdx

set_option maxRecDepth 16384

noncomputable section

namespace Cert.KernelIdeal.PairArray

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The region's six input arrays, at their literal types -/

/-- The first head's left array [2048,10]. -/
abbrev a0 (c : Dev nD) : S2048x10.Idx → EReal := V c (Pipeline.arrRef spec1 0)
/-- The second head's left array [2048,10]. -/
abbrev a1 (c : Dev nD) : S2048x10.Idx → EReal := V c (Pipeline.arrRef spec1 1)
/-- The first head's right array [10,2048]. -/
abbrev a2 (c : Dev nD) : S10x2048.Idx → EReal := V c (Pipeline.arrRef spec1 2)
/-- The second head's right array [10,2048]. -/
abbrev a3 (c : Dev nD) : S10x2048.Idx → EReal := V c (Pipeline.arrRef spec1 3)
/-- The labels as a column [2048,1]. -/
abbrev a4 (c : Dev nD) : S2048x1.Idx → BitVec 32 := V c (Pipeline.arrRef spec1 4)
/-- The labels as a row [1,2048]. -/
abbrev a5 (c : Dev nD) : S1x2048.Idx → BitVec 32 := V c (Pipeline.arrRef spec1 5)

/-- The tile function's six arguments. -/
abbrev TileFn : Type :=
  (Fin 10 → EReal) → (Fin 10 → EReal) → (Fin 10 → EReal) → (Fin 10 → EReal) → BitVec 32 → BitVec 32 → EReal

/-- The [2048,2048] array whose entry (i, j) is T of row i of the left arrays, column j of the right arrays, label i
    of the column and label j of the row. -/
def pairArr (T : TileFn) (x0 x1 : S2048x10.Idx → EReal) (x2 x3 : S10x2048.Idx → EReal)
    (x4 : S2048x1.Idx → BitVec 32) (x5 : S1x2048.Idx → BitVec 32) : S2048x2048.Idx → EReal :=
  fun idx => T (fun k => x0 (ix2 ⟨(idx 0).val, (idx 0).isLt⟩ k)) (fun k => x1 (ix2 ⟨(idx 0).val, (idx 0).isLt⟩ k))
    (fun k => x2 (ix2 k ⟨(idx 1).val, (idx 1).isLt⟩)) (fun k => x3 (ix2 k ⟨(idx 1).val, (idx 1).isLt⟩))
    (x4 (ix2 ⟨(idx 0).val, (idx 0).isLt⟩ 0)) (x5 (ix2 0 ⟨(idx 1).val, (idx 1).isLt⟩))

/-- Read at the index (i, j). -/
theorem pairArr_apply (T : TileFn) (x0 x1 : S2048x10.Idx → EReal) (x2 x3 : S10x2048.Idx → EReal)
    (x4 : S2048x1.Idx → BitVec 32) (x5 : S1x2048.Idx → BitVec 32) (i j : Fin 2048) :
    pairArr T x0 x1 x2 x3 x4 x5 (ix2 i j)
      = T (fun k => x0 (ix2 i k)) (fun k => x1 (ix2 i k)) (fun k => x2 (ix2 k j)) (fun k => x3 (ix2 k j))
          (x4 (ix2 i 0)) (x5 (ix2 0 j)) := rfl

/-! ## The index maps over the grid -/

/-- At every point the left windows and the label column sit at the output's row block and column block 0, the right
    windows and the label row at row block 0 and the output's column block; the output's blocks stay below 8. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = win1_6.index t (1 : Fin 2)
    ∧ win1_3.index t (0 : Fin 2) = 0 ∧ win1_3.index t (1 : Fin 2) = win1_6.index t (1 : Fin 2)
    ∧ win1_4.index t (0 : Fin 2) = win1_6.index t (0 : Fin 2) ∧ win1_4.index t (1 : Fin 2) = 0
    ∧ win1_5.index t (0 : Fin 2) = 0 ∧ win1_5.index t (1 : Fin 2) = win1_6.index t (1 : Fin 2)
    ∧ win1_6.index t (0 : Fin 2) ≤ 7 ∧ win1_6.index t (1 : Fin 2) ≤ 7 :=
  (by decide +kernel : ∀ t : Fin grid1.N, _)

/-- Every pair of a row block and a column block is some point's. -/
theorem idx_onto : ∀ (q0 q1 : Fin 8), ∃ t : Fin cfg1.N, win1_6.index t = ![q0.val, q1.val] :=
  (by decide +kernel : ∀ (q0 q1 : Fin 8), ∃ t : Fin grid1.N, win1_6.index t = ![q0.val, q1.val])

/-! ## Each input block at a local index is its array at the global index -/

/-- A block of a left array at (p, k) is the array at (row block * 256 + p, k). -/
theorem iblk_0 (c : Dev nD) (t : Fin cfg1.N) (p : Fin 256) (k : Fin 10) (i : Fin 2048)
    (hi : i.val = win1_6.index t (0 : Fin 2) * 256 + p.val) :
    (iblk1 (F := Ideal) V c 0 t : Vec Ideal S256x10 .f32) (ix2 p k) = a0 V c (ix2 i k) := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 256 + 1 * p.val = i.val; omega
  | ⟨1, _⟩ => show win1_0.index t (1 : Fin 2) * 10 + 1 * k.val = k.val; omega

/-- The same for the second head's left array. -/
theorem iblk_1 (c : Dev nD) (t : Fin cfg1.N) (p : Fin 256) (k : Fin 10) (i : Fin 2048)
    (hi : i.val = win1_6.index t (0 : Fin 2) * 256 + p.val) :
    (iblk1 (F := Ideal) V c 1 t : Vec Ideal S256x10 .f32) (ix2 p k) = a1 V c (ix2 i k) := by
  obtain ⟨-, -, e0, e1, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 256 + 1 * p.val = i.val; omega
  | ⟨1, _⟩ => show win1_1.index t (1 : Fin 2) * 10 + 1 * k.val = k.val; omega

/-- A block of a right array at (k, q) is the array at (k, column block * 256 + q). -/
theorem iblk_2 (c : Dev nD) (t : Fin cfg1.N) (k : Fin 10) (q : Fin 256) (j : Fin 2048)
    (hj : j.val = win1_6.index t (1 : Fin 2) * 256 + q.val) :
    (iblk1 (F := Ideal) V c 2 t : Vec Ideal S10x256 .f32) (ix2 k q) = a2 V c (ix2 k j) := by
  obtain ⟨-, -, -, -, e0, e1, -⟩ := idx_facts t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 10 + 1 * k.val = k.val; omega
  | ⟨1, _⟩ => show win1_2.index t (1 : Fin 2) * 256 + 1 * q.val = j.val; omega

/-- The same for the second head's right array. -/
theorem iblk_3 (c : Dev nD) (t : Fin cfg1.N) (k : Fin 10) (q : Fin 256) (j : Fin 2048)
    (hj : j.val = win1_6.index t (1 : Fin 2) * 256 + q.val) :
    (iblk1 (F := Ideal) V c 3 t : Vec Ideal S10x256 .f32) (ix2 k q) = a3 V c (ix2 k j) := by
  obtain ⟨-, -, -, -, -, -, e0, e1, -⟩ := idx_facts t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 10 + 1 * k.val = k.val; omega
  | ⟨1, _⟩ => show win1_3.index t (1 : Fin 2) * 256 + 1 * q.val = j.val; omega

/-- A block of the label column at (p, 0) is the column at (row block * 256 + p, 0). -/
theorem iblk_4 (c : Dev nD) (t : Fin cfg1.N) (p : Fin 256) (i : Fin 2048)
    (hi : i.val = win1_6.index t (0 : Fin 2) * 256 + p.val) :
    (iblk1 (F := Ideal) V c 4 t : Vec Ideal S256x1 .i32) (ix2 p 0) = a4 V c (ix2 i 0) := by
  obtain ⟨-, -, -, -, -, -, -, -, e0, e1, -⟩ := idx_facts t
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 256 + 1 * p.val = i.val; omega
  | ⟨1, _⟩ => show win1_4.index t (1 : Fin 2) * 1 + 1 * 0 = 0; omega

/-- A block of the label row at (0, q) is the row at (0, column block * 256 + q). -/
theorem iblk_5 (c : Dev nD) (t : Fin cfg1.N) (q : Fin 256) (j : Fin 2048)
    (hj : j.val = win1_6.index t (1 : Fin 2) * 256 + q.val) :
    (iblk1 (F := Ideal) V c 5 t : Vec Ideal S1x256 .i32) (ix2 0 q) = a5 V c (ix2 0 j) := by
  obtain ⟨-, -, -, -, -, -, -, -, -, -, e0, e1, -⟩ := idx_facts t
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 1 + 1 * 0 = 0; omega
  | ⟨1, _⟩ => show win1_5.index t (1 : Fin 2) * 256 + 1 * q.val = j.val; omega

/-! ## What a point writes back -/

section Tile
variable (T : TileFn)
  (hT : ∀ (x0 x1 : Vec Ideal S256x10 .f32) (x2 x3 : Vec Ideal S10x256 .f32) (x4 : Vec Ideal S256x1 .i32)
      (x5 : Vec Ideal S1x256 .i32) (p q : Fin 256),
    out1_6 (F := Ideal) x0 x1 x2 x3 x4 x5 (ix2 p q)
      = T (fun k => x0 (ix2 p k)) (fun k => x1 (ix2 p k)) (fun k => x2 (ix2 k q)) (fun k => x3 (ix2 k q))
          (x4 (ix2 p 0)) (x5 (ix2 0 q)))
include hT

/-- The body's tile at a point, at (p, q), is T of the arrays at the global row and column. -/
theorem tile_at (c : Dev nD) (t : Fin cfg1.N) (p q : Fin 256) (i j : Fin 2048)
    (hi : i.val = win1_6.index t (0 : Fin 2) * 256 + p.val) (hj : j.val = win1_6.index t (1 : Fin 2) * 256 + q.val) :
    out1_6 (F := Ideal) (iblk1 V c 0 t) (iblk1 V c 1 t) (iblk1 V c 2 t) (iblk1 V c 3 t) (iblk1 V c 4 t) (iblk1 V c 5 t) (ix2 p q)
      = T (fun k => a0 V c (ix2 i k)) (fun k => a1 V c (ix2 i k)) (fun k => a2 V c (ix2 k j)) (fun k => a3 V c (ix2 k j))
          (a4 V c (ix2 i 0)) (a5 V c (ix2 0 j)) := by
  rw [hT]
  rw [funext fun k => iblk_0 V c t p k i hi, funext fun k => iblk_1 V c t p k i hi,
    funext fun k => iblk_2 V c t k q j hj, funext fun k => iblk_3 V c t k q j hj,
    iblk_4 V c t p i hi, iblk_5 V c t q j hj]

end Tile

section Array
variable (T : TileFn)
  (hT : ∀ (x0 x1 : Vec Ideal S256x10 .f32) (x2 x3 : Vec Ideal S10x256 .f32) (x4 : Vec Ideal S256x1 .i32)
      (x5 : Vec Ideal S1x256 .i32) (p q : Fin 256),
    out1_6 (F := Ideal) x0 x1 x2 x3 x4 x5 (ix2 p q)
      = T (fun k => x0 (ix2 p k)) (fun k => x1 (ix2 p k)) (fun k => x2 (ix2 k q)) (fun k => x3 (ix2 k q))
          (x4 (ix2 p 0)) (x5 (ix2 0 q)))
include hT

/-- What point t writes back is its block of the array of T over the region's input arrays. -/
theorem flushed_eq (c : Dev nD) (t : Fin cfg1.N) :
    (dat1 (F := Ideal) V c).flushed 6 t
      = ((cfg1.win 6).blk t).view.read (Elt Ideal)
          (pairArr T (a0 V c) (a1 V c) (a2 V c) (a3 V c) (a4 V c) (a5 V c)) := by
  show (cfg1.win 6).cut (grid1.coords t) ((dat1 (F := Ideal) V c).after 6 t) = _
  rw [after1_6]
  funext y
  rw [View.read_apply]
  have hy0 : (y 0).val < 256 := (y 0).isLt
  have hy1 : (y 1).val < 256 := (y 1).isLt
  have hxy : (cfg1.win 6).xinj (grid1.coords t) y = ix2 (⟨(y 0).val, hy0⟩ : Fin 256) (⟨(y 1).val, hy1⟩ : Fin 256) := by
    funext a
    match a with
    | ⟨0, _⟩ => rfl
    | ⟨1, _⟩ => rfl
  show out1_6 (F := Ideal) _ _ _ _ _ _ ((cfg1.win 6).xinj (grid1.coords t) y) = _
  rw [hxy]
  exact tile_at V T hT c t ⟨(y 0).val, hy0⟩ ⟨(y 1).val, hy1⟩ _ _
    (by show win1_6.index t (0 : Fin 2) * 256 + 1 * (y 0).val = win1_6.index t (0 : Fin 2) * 256 + (y 0).val; omega)
    (by show win1_6.index t (1 : Fin 2) * 256 + 1 * (y 1).val = win1_6.index t (1 : Fin 2) * 256 + (y 1).val; omega)

omit hT in
/-- An index of the result is in point t's block iff each coordinate is in the block's range on its axis. -/
theorem mem_blk (t : Fin cfg1.N) (i : S2048x2048.Idx) :
    i ∈ ((cfg1.win 6).blk t).view.set ↔ ∀ a : Fin 2, win1_6.index t a * S256x256.size a ≤ (i a).val
      ∧ (i a).val < win1_6.index t a * S256x256.size a + S256x256.size a := by
  show i ∈ ((View.whole main_v5).slice (win1_6.rect t)).set ↔ _
  rw [View.set_slice_whole, Rect.mem_set_unit]
  exact Iff.rfl

omit hT in
/-- Every index of the result is in some point's block: row block i / 256, column block j / 256. -/
theorem cover (i : S2048x2048.Idx) :
    ∃ t : Fin cfg1.N, (cfg1.win 6).flush t = true ∧ i ∈ ((cfg1.win 6).blk t).view.set := by
  have hi0 : (i 0).val < 2048 := (i 0).isLt
  have hi1 : (i 1).val < 2048 := (i 1).isLt
  obtain ⟨t, ht⟩ := idx_onto ⟨(i 0).val / 256, by omega⟩ ⟨(i 1).val / 256, by omega⟩
  have q0 : win1_6.index t (0 : Fin 2) = (i 0).val / 256 := congrFun ht 0
  have q1 : win1_6.index t (1 : Fin 2) = (i 1).val / 256 := congrFun ht 1
  refine ⟨t, flush1_6 t, ?_⟩
  rw [mem_blk]
  intro a
  match a with
  | ⟨0, _⟩ =>
    show win1_6.index t (0 : Fin 2) * 256 ≤ (i 0).val ∧ (i 0).val < win1_6.index t (0 : Fin 2) * 256 + 256
    omega
  | ⟨1, _⟩ =>
    show win1_6.index t (1 : Fin 2) * 256 ≤ (i 1).val ∧ (i 1).val < win1_6.index t (1 : Fin 2) * 256 + 256
    omega

end Array

/-- THE RESULT ARRAY after the region: entry (i, j) is T of row i of the left arrays, column j of the right arrays
    and the labels i and j. -/
theorem arr1_6 (c : Dev nD) (T : TileFn)
    (hT : ∀ (x0 x1 : Vec Ideal S256x10 .f32) (x2 x3 : Vec Ideal S10x256 .f32) (x4 : Vec Ideal S256x1 .i32)
        (x5 : Vec Ideal S1x256 .i32) (p q : Fin 256),
      out1_6 (F := Ideal) x0 x1 x2 x3 x4 x5 (ix2 p q)
        = T (fun k => x0 (ix2 p k)) (fun k => x1 (ix2 p k)) (fun k => x2 (ix2 k q)) (fun k => x3 (ix2 k q))
            (x4 (ix2 p 0)) (x5 (ix2 0 q))) :
    (dat1 (F := Ideal) V c).arrAt 6 cfg1.N
      = pairArr T (a0 V c) (a1 V c) (a2 V c) (a3 V c) (a4 V c) (a5 V c) :=
  (dat1 (F := Ideal) V c).arrAt_eq_of_cover 6 _ (fun t _ => flushed_eq V T hT c t) cover

end Cert.KernelIdeal.PairArray

end
-- ==== Proof.PayCausal.lean ====
/-
  The causal head of the pair kernel's tile, read at one point (p, q) of the (256, 256) tile.

  Each payload function of the kernel body's first five parts (the running maximum of the ten causal logits, the logit
  picked by the masks of the row's label, the sum of the exponentials of the shifted logits, and the causal cross
  entropy  (M + log S) - picked) is a chain of pointwise operations on the tile and of layout operations (a column of a
  (256, 10) block, a row of a (10, 256) block, a column or a row spread over the tile). Read at the point (p, q) it is an
  expression in the extended reals over the entries of its arguments at p, q and a class numeral, in the kernel's own
  association and order of operands. One lemma per payload states that expression.
-/
import proofs.«430662_j81965155877006_3_alg».proof.Proof.Spec
import proofs.«430662_j81965155877006_3_alg».proof.Proof.Gen.KernelIdeal.Skeleton
import Idealize.ShloMosaic.Lib.ValueLayout
import Idealize.ShloMosaic.PureOps.Ideal.Laws
import Idealize.ShloMosaic.PureOps.IdealRules

noncomputable section

open Idealize.ShloMosaic Idealize.ShloMosaic.ValueIdx
open Cert.KernelIdeal Cert.KernelIdeal.Gen

namespace Cert.KernelIdeal.PayCausal

/-! ## Layout operations at explicit coordinates -/

section Layout
variable {α : Type}

/-- A (256, 1) column spread over the tile reads, at (p, q), the column's entry at p. -/
private theorem bcol (c : S256x1.Idx → α) (h : S256x1.Broadcasts S256x256) (p q : Fin 256) :
    broadcastTo S256x256 c h (ix2 p q) = c (ix2 p (0 : Fin 1)) := by
  refine broadcastTo_apply c h (ix2 p q) (ix2 p (0 : Fin 1)) fun ax => ?_
  match ax with
  | ⟨0, _⟩ => rfl
  | ⟨1, _⟩ => rfl

/-- A (1, 256) row spread over the tile reads, at (p, q), the row's entry at q. -/
private theorem brow (r : S1x256.Idx → α) (h : S1x256.Broadcasts S256x256) (p q : Fin 256) :
    broadcastTo S256x256 r h (ix2 p q) = r (ix2 (0 : Fin 1) q) :=
  broadcastTo_1b_ab_apply r h p q

/-- Column 0 of a (256, 10) block, kept as a (256, 1) column, reads at p the block's entry (p, 0). -/
private theorem col0 (v : S256x10.Idx → α) (h : S256x10.Slices ![0, 0] S256x1) (p : Fin 256) :
    extractStridedSlice S256x1 ![0, 0] v h (ix2 p (0 : Fin 1)) = v (ix2 p (0 : Fin 10)) :=
  slice2_axis1_apply 0 v h p 0 0 rfl
/-- Row 0 of a (10, 256) block, kept as a (1, 256) row, reads at q the block's entry (0, q). -/
private theorem row0 (v : S10x256.Idx → α) (h : S10x256.Slices ![0, 0] S1x256) (q : Fin 256) :
    extractStridedSlice S1x256 ![0, 0] v h (ix2 (0 : Fin 1) q) = v (ix2 (0 : Fin 10) q) :=
  slice2_axis0_apply 0 v h 0 q 0 rfl
/-- Column 1 of a (256, 10) block, kept as a (256, 1) column, reads at p the block's entry (p, 1). -/
private theorem col1 (v : S256x10.Idx → α) (h : S256x10.Slices ![0, 1] S256x1) (p : Fin 256) :
    extractStridedSlice S256x1 ![0, 1] v h (ix2 p (0 : Fin 1)) = v (ix2 p (1 : Fin 10)) :=
  slice2_axis1_apply 1 v h p 0 1 rfl
/-- Row 1 of a (10, 256) block, kept as a (1, 256) row, reads at q the block's entry (1, q). -/
private theorem row1 (v : S10x256.Idx → α) (h : S10x256.Slices ![1, 0] S1x256) (q : Fin 256) :
    extractStridedSlice S1x256 ![1, 0] v h (ix2 (0 : Fin 1) q) = v (ix2 (1 : Fin 10) q) :=
  slice2_axis0_apply 1 v h 0 q 1 rfl
/-- Column 2 of a (256, 10) block, kept as a (256, 1) column, reads at p the block's entry (p, 2). -/
private theorem col2 (v : S256x10.Idx → α) (h : S256x10.Slices ![0, 2] S256x1) (p : Fin 256) :
    extractStridedSlice S256x1 ![0, 2] v h (ix2 p (0 : Fin 1)) = v (ix2 p (2 : Fin 10)) :=
  slice2_axis1_apply 2 v h p 0 2 rfl
/-- Row 2 of a (10, 256) block, kept as a (1, 256) row, reads at q the block's entry (2, q). -/
private theorem row2 (v : S10x256.Idx → α) (h : S10x256.Slices ![2, 0] S1x256) (q : Fin 256) :
    extractStridedSlice S1x256 ![2, 0] v h (ix2 (0 : Fin 1) q) = v (ix2 (2 : Fin 10) q) :=
  slice2_axis0_apply 2 v h 0 q 2 rfl
/-- Column 3 of a (256, 10) block, kept as a (256, 1) column, reads at p the block's entry (p, 3). -/
private theorem col3 (v : S256x10.Idx → α) (h : S256x10.Slices ![0, 3] S256x1) (p : Fin 256) :
    extractStridedSlice S256x1 ![0, 3] v h (ix2 p (0 : Fin 1)) = v (ix2 p (3 : Fin 10)) :=
  slice2_axis1_apply 3 v h p 0 3 rfl
/-- Row 3 of a (10, 256) block, kept as a (1, 256) row, reads at q the block's entry (3, q). -/
private theorem row3 (v : S10x256.Idx → α) (h : S10x256.Slices ![3, 0] S1x256) (q : Fin 256) :
    extractStridedSlice S1x256 ![3, 0] v h (ix2 (0 : Fin 1) q) = v (ix2 (3 : Fin 10) q) :=
  slice2_axis0_apply 3 v h 0 q 3 rfl
/-- Column 4 of a (256, 10) block, kept as a (256, 1) column, reads at p the block's entry (p, 4). -/
private theorem col4 (v : S256x10.Idx → α) (h : S256x10.Slices ![0, 4] S256x1) (p : Fin 256) :
    extractStridedSlice S256x1 ![0, 4] v h (ix2 p (0 : Fin 1)) = v (ix2 p (4 : Fin 10)) :=
  slice2_axis1_apply 4 v h p 0 4 rfl
/-- Row 4 of a (10, 256) block, kept as a (1, 256) row, reads at q the block's entry (4, q). -/
private theorem row4 (v : S10x256.Idx → α) (h : S10x256.Slices ![4, 0] S1x256) (q : Fin 256) :
    extractStridedSlice S1x256 ![4, 0] v h (ix2 (0 : Fin 1) q) = v (ix2 (4 : Fin 10) q) :=
  slice2_axis0_apply 4 v h 0 q 4 rfl
/-- Column 5 of a (256, 10) block, kept as a (256, 1) column, reads at p the block's entry (p, 5). -/
private theorem col5 (v : S256x10.Idx → α) (h : S256x10.Slices ![0, 5] S256x1) (p : Fin 256) :
    extractStridedSlice S256x1 ![0, 5] v h (ix2 p (0 : Fin 1)) = v (ix2 p (5 : Fin 10)) :=
  slice2_axis1_apply 5 v h p 0 5 rfl
/-- Row 5 of a (10, 256) block, kept as a (1, 256) row, reads at q the block's entry (5, q). -/
private theorem row5 (v : S10x256.Idx → α) (h : S10x256.Slices ![5, 0] S1x256) (q : Fin 256) :
    extractStridedSlice S1x256 ![5, 0] v h (ix2 (0 : Fin 1) q) = v (ix2 (5 : Fin 10) q) :=
  slice2_axis0_apply 5 v h 0 q 5 rfl
/-- Column 6 of a (256, 10) block, kept as a (256, 1) column, reads at p the block's entry (p, 6). -/
private theorem col6 (v : S256x10.Idx → α) (h : S256x10.Slices ![0, 6] S256x1) (p : Fin 256) :
    extractStridedSlice S256x1 ![0, 6] v h (ix2 p (0 : Fin 1)) = v (ix2 p (6 : Fin 10)) :=
  slice2_axis1_apply 6 v h p 0 6 rfl
/-- Row 6 of a (10, 256) block, kept as a (1, 256) row, reads at q the block's entry (6, q). -/
private theorem row6 (v : S10x256.Idx → α) (h : S10x256.Slices ![6, 0] S1x256) (q : Fin 256) :
    extractStridedSlice S1x256 ![6, 0] v h (ix2 (0 : Fin 1) q) = v (ix2 (6 : Fin 10) q) :=
  slice2_axis0_apply 6 v h 0 q 6 rfl
/-- Column 7 of a (256, 10) block, kept as a (256, 1) column, reads at p the block's entry (p, 7). -/
private theorem col7 (v : S256x10.Idx → α) (h : S256x10.Slices ![0, 7] S256x1) (p : Fin 256) :
    extractStridedSlice S256x1 ![0, 7] v h (ix2 p (0 : Fin 1)) = v (ix2 p (7 : Fin 10)) :=
  slice2_axis1_apply 7 v h p 0 7 rfl
/-- Row 7 of a (10, 256) block, kept as a (1, 256) row, reads at q the block's entry (7, q). -/
private theorem row7 (v : S10x256.Idx → α) (h : S10x256.Slices ![7, 0] S1x256) (q : Fin 256) :
    extractStridedSlice S1x256 ![7, 0] v h (ix2 (0 : Fin 1) q) = v (ix2 (7 : Fin 10) q) :=
  slice2_axis0_apply 7 v h 0 q 7 rfl
/-- Column 8 of a (256, 10) block, kept as a (256, 1) column, reads at p the block's entry (p, 8). -/
private theorem col8 (v : S256x10.Idx → α) (h : S256x10.Slices ![0, 8] S256x1) (p : Fin 256) :
    extractStridedSlice S256x1 ![0, 8] v h (ix2 p (0 : Fin 1)) = v (ix2 p (8 : Fin 10)) :=
  slice2_axis1_apply 8 v h p 0 8 rfl
/-- Row 8 of a (10, 256) block, kept as a (1, 256) row, reads at q the block's entry (8, q). -/
private theorem row8 (v : S10x256.Idx → α) (h : S10x256.Slices ![8, 0] S1x256) (q : Fin 256) :
    extractStridedSlice S1x256 ![8, 0] v h (ix2 (0 : Fin 1) q) = v (ix2 (8 : Fin 10) q) :=
  slice2_axis0_apply 8 v h 0 q 8 rfl
/-- Column 9 of a (256, 10) block, kept as a (256, 1) column, reads at p the block's entry (p, 9). -/
private theorem col9 (v : S256x10.Idx → α) (h : S256x10.Slices ![0, 9] S256x1) (p : Fin 256) :
    extractStridedSlice S256x1 ![0, 9] v h (ix2 p (0 : Fin 1)) = v (ix2 p (9 : Fin 10)) :=
  slice2_axis1_apply 9 v h p 0 9 rfl
/-- Row 9 of a (10, 256) block, kept as a (1, 256) row, reads at q the block's entry (9, q). -/
private theorem row9 (v : S10x256.Idx → α) (h : S10x256.Slices ![9, 0] S1x256) (q : Fin 256) :
    extractStridedSlice S1x256 ![9, 0] v h (ix2 (0 : Fin 1) q) = v (ix2 (9 : Fin 10) q) :=
  slice2_axis0_apply 9 v h 0 q 9 rfl

end Layout

/-! ## Three more pointwise operations at an index, the two constants, and the masks -/

/-- An integer comparison at an index compares the entries. -/
private theorem cmpi_at {s : Shape} {w : Nat} (c : CmpIPredicate) (x y : IVec s w) (i : s.Idx) :
    cmpi c x y i = IntOp.cmpi c (x i) (y i) := rfl
/-- An exponential at an index is the extended reals' exponential of the entry. -/
private theorem exp_at {s : Shape} {φ : FTy} (x : FVec Ideal s φ) (i : s.Idx) : exp x i = Ideal.exp (x i) := rfl
/-- A logarithm at an index is the extended reals' logarithm of the entry. -/
private theorem log_at {s : Shape} {φ : FTy} (x : FVec Ideal s φ) (i : s.Idx) : log x i = Ideal.log (x i) := rfl

/-- The named constant that starts the running maximum is the bottom element. -/
private theorem neg_big : Named.named (F := Ideal) Cert.KernelIdeal.κ "neg_big" (φ := .f32) 0xF149F2CA#32 = (⊥ : EReal) :=
  IdealRules.named_const.ideal_named_scalar _ _ _ _ rfl

/-- The zero word is zero. -/
private theorem zero_word : (Scalar.ofBits (F := Ideal) .f32 0x00000000#32 : EReal) = 0 :=
  Ideal.ofBits_zero_f32

/-- The compare-widen-convert chain against the word 0 is the mask of class 0. -/
private theorem mask0 (w : BitVec 32) :
    FloatOps.sitofp (F := Ideal) .f32 ((IntOp.cmpi .eq w 0#32).setWidth 32) = PairLoss.mask w (0 : Fin 10) := rfl
/-- The compare-widen-convert chain against the word 1 is the mask of class 1. -/
private theorem mask1 (w : BitVec 32) :
    FloatOps.sitofp (F := Ideal) .f32 ((IntOp.cmpi .eq w 1#32).setWidth 32) = PairLoss.mask w (1 : Fin 10) := rfl
/-- The compare-widen-convert chain against the word 2 is the mask of class 2. -/
private theorem mask2 (w : BitVec 32) :
    FloatOps.sitofp (F := Ideal) .f32 ((IntOp.cmpi .eq w 2#32).setWidth 32) = PairLoss.mask w (2 : Fin 10) := rfl
/-- The compare-widen-convert chain against the word 3 is the mask of class 3. -/
private theorem mask3 (w : BitVec 32) :
    FloatOps.sitofp (F := Ideal) .f32 ((IntOp.cmpi .eq w 3#32).setWidth 32) = PairLoss.mask w (3 : Fin 10) := rfl
/-- The compare-widen-convert chain against the word 4 is the mask of class 4. -/
private theorem mask4 (w : BitVec 32) :
    FloatOps.sitofp (F := Ideal) .f32 ((IntOp.cmpi .eq w 4#32).setWidth 32) = PairLoss.mask w (4 : Fin 10) := rfl
/-- The compare-widen-convert chain against the word 5 is the mask of class 5. -/
private theorem mask5 (w : BitVec 32) :
    FloatOps.sitofp (F := Ideal) .f32 ((IntOp.cmpi .eq w 5#32).setWidth 32) = PairLoss.mask w (5 : Fin 10) := rfl
/-- The compare-widen-convert chain against the word 6 is the mask of class 6. -/
private theorem mask6 (w : BitVec 32) :
    FloatOps.sitofp (F := Ideal) .f32 ((IntOp.cmpi .eq w 6#32).setWidth 32) = PairLoss.mask w (6 : Fin 10) := rfl
/-- The compare-widen-convert chain against the word 7 is the mask of class 7. -/
private theorem mask7 (w : BitVec 32) :
    FloatOps.sitofp (F := Ideal) .f32 ((IntOp.cmpi .eq w 7#32).setWidth 32) = PairLoss.mask w (7 : Fin 10) := rfl
/-- The compare-widen-convert chain against the word 8 is the mask of class 8. -/
private theorem mask8 (w : BitVec 32) :
    FloatOps.sitofp (F := Ideal) .f32 ((IntOp.cmpi .eq w 8#32).setWidth 32) = PairLoss.mask w (8 : Fin 10) := rfl
/-- The compare-widen-convert chain against the word 9 is the mask of class 9. -/
private theorem mask9 (w : BitVec 32) :
    FloatOps.sitofp (F := Ideal) .f32 ((IntOp.cmpi .eq w 9#32).setWidth 32) = PairLoss.mask w (9 : Fin 10) := rfl

/-! ## The payloads at a point -/

/-- The causal row block passes through its cast to its own shape. -/
theorem pay1_eq (v0 : Vec Ideal S256x10 .f32) : k1_pay1 (F := Ideal) v0 = v0 := by
  unfold k1_pay1
  simp only [shapeCast_self]
theorem pay1_at (v0 : Vec Ideal S256x10 .f32) (p : Fin 256) (k : Fin 10) :
    k1_pay1 (F := Ideal) v0 (ix2 p k) = v0 (ix2 p k) := by
  rw [pay1_eq]

/-- The bias row block passes through. -/
theorem pay2_eq (v2 : Vec Ideal S256x10 .f32) : k1_pay2 (F := Ideal) v2 = v2 := by
  unfold k1_pay2
  simp only [shapeCast_self]
theorem pay2_at (v2 : Vec Ideal S256x10 .f32) (p : Fin 256) (k : Fin 10) :
    k1_pay2 (F := Ideal) v2 (ix2 p k) = v2 (ix2 p k) := by
  rw [pay2_eq]

/-- The causal column block passes through. -/
theorem pay3_eq (v4 : Vec Ideal S10x256 .f32) : k1_pay3 (F := Ideal) v4 = v4 := by
  unfold k1_pay3
  simp only [shapeCast_self]
theorem pay3_at (v4 : Vec Ideal S10x256 .f32) (k : Fin 10) (q : Fin 256) :
    k1_pay3 (F := Ideal) v4 (ix2 k q) = v4 (ix2 k q) := by
  rw [pay3_eq]

/-- The bias column block passes through. -/
theorem pay4_eq (v6 : Vec Ideal S10x256 .f32) : k1_pay4 (F := Ideal) v6 = v6 := by
  unfold k1_pay4
  simp only [shapeCast_self]
theorem pay4_at (v6 : Vec Ideal S10x256 .f32) (k : Fin 10) (q : Fin 256) :
    k1_pay4 (F := Ideal) v6 (ix2 k q) = v6 (ix2 k q) := by
  rw [pay4_eq]

/-- The column of row labels passes through. -/
theorem pay5_eq (v8 : Vec Ideal S256x1 .i32) : k1_pay5 (F := Ideal) v8 = v8 := by
  unfold k1_pay5
  simp only [shapeCast_self]
theorem pay5_at (v8 : Vec Ideal S256x1 .i32) (p : Fin 256) :
    k1_pay5 (F := Ideal) v8 (ix2 p (0 : Fin 1)) = v8 (ix2 p (0 : Fin 1)) := by
  rw [pay5_eq]

/-- The row of column labels passes through. -/
theorem pay6_eq (v10 : Vec Ideal S1x256 .i32) : k1_pay6 (F := Ideal) v10 = v10 := by
  unfold k1_pay6
  simp only [shapeCast_self]
theorem pay6_at (v10 : Vec Ideal S1x256 .i32) (q : Fin 256) :
    k1_pay6 (F := Ideal) v10 (ix2 (0 : Fin 1) q) = v10 (ix2 (0 : Fin 1) q) := by
  rw [pay6_eq]

/-- The causal logit of class 0. -/
theorem pay7_at (v0 : Vec Ideal S256x10 .f32) (v4 : Vec Ideal S10x256 .f32) (p q : Fin 256) :
    k1_pay7 (F := Ideal) v0 v4 (ix2 p q) = v0 (ix2 p (0 : Fin 10)) + v4 (ix2 (0 : Fin 10) q) := by
  unfold k1_pay7
  simp only [addf_apply, bcol, brow, col0, row0, pay1_eq, pay3_eq]

/-- The causal logit of class 1. -/
theorem pay8_at (v0 : Vec Ideal S256x10 .f32) (v4 : Vec Ideal S10x256 .f32) (p q : Fin 256) :
    k1_pay8 (F := Ideal) v0 v4 (ix2 p q) = v0 (ix2 p (1 : Fin 10)) + v4 (ix2 (1 : Fin 10) q) := by
  unfold k1_pay8
  simp only [addf_apply, bcol, brow, col1, row1, pay1_eq, pay3_eq]

/-- The running maximum after classes 0 and 1, from the bottom element. -/
theorem pay9_at (v0 : Vec Ideal S256x10 .f32) (v4 : Vec Ideal S10x256 .f32) (p q : Fin 256) :
    k1_pay9 (F := Ideal) v0 v4 (ix2 p q)
      = max (max (⊥ : EReal) (v0 (ix2 p (0 : Fin 10)) + v4 (ix2 (0 : Fin 10) q)))
          (v0 (ix2 p (1 : Fin 10)) + v4 (ix2 (1 : Fin 10) q)) := by
  unfold k1_pay9
  simp only [maximumf_apply, broadcast_apply, neg_big, pay7_at, pay8_at]

/-- The picked logit after classes 0 and 1, from zero. -/
theorem pay10_at (v0 : Vec Ideal S256x10 .f32) (v4 : Vec Ideal S10x256 .f32) (v8 : Vec Ideal S256x1 .i32) (p q : Fin 256) :
    k1_pay10 (F := Ideal) v0 v4 v8 (ix2 p q)
      = ((0 : EReal) + PairLoss.mask (v8 (ix2 p (0 : Fin 1))) (0 : Fin 10) * (v0 (ix2 p (0 : Fin 10)) + v4 (ix2 (0 : Fin 10) q)))
          + PairLoss.mask (v8 (ix2 p (0 : Fin 1))) (1 : Fin 10) * (v0 (ix2 p (1 : Fin 10)) + v4 (ix2 (1 : Fin 10) q)) := by
  unfold k1_pay10
  simp only [addf_apply, mulf_apply, bcol, sitofp_apply, extui_apply, cmpi_at, broadcast_apply, zero_word, pay5_eq,
    pay7_at, pay8_at, mask0, mask1]

/-- Column 2 of the causal row block. -/
theorem pay11_at (v0 : Vec Ideal S256x10 .f32) (p : Fin 256) :
    k1_pay11 (F := Ideal) v0 (ix2 p (0 : Fin 1)) = v0 (ix2 p (2 : Fin 10)) := by
  unfold k1_pay11
  simp only [col2, pay1_eq]

/-- Row 2 of the causal column block. -/
theorem pay12_at (v4 : Vec Ideal S10x256 .f32) (q : Fin 256) :
    k1_pay12 (F := Ideal) v4 (ix2 (0 : Fin 1) q) = v4 (ix2 (2 : Fin 10) q) := by
  unfold k1_pay12
  simp only [row2, pay3_eq]

/-- The causal logit of class 2, from its column and its row. -/
theorem pay13_at (v40 : FVec Ideal S256x1 .f32) (v41 : FVec Ideal S1x256 .f32) (p q : Fin 256) :
    k1_pay13 (F := Ideal) v40 v41 (ix2 p q) = v40 (ix2 p (0 : Fin 1)) + v41 (ix2 (0 : Fin 1) q) := by
  unfold k1_pay13
  simp only [addf_apply, bcol, brow]

/-- The causal logit of class 3. -/
theorem pay14_at (v1 : FVec Ideal S256x10 .f32) (v5 : FVec Ideal S10x256 .f32) (p q : Fin 256) :
    k1_pay14 (F := Ideal) v1 v5 (ix2 p q) = v1 (ix2 p (3 : Fin 10)) + v5 (ix2 (3 : Fin 10) q) := by
  unfold k1_pay14
  simp only [addf_apply, bcol, brow, col3, row3]

/-- The causal logit of class 4. -/
theorem pay15_at (v1 : FVec Ideal S256x10 .f32) (v5 : FVec Ideal S10x256 .f32) (p q : Fin 256) :
    k1_pay15 (F := Ideal) v1 v5 (ix2 p q) = v1 (ix2 p (4 : Fin 10)) + v5 (ix2 (4 : Fin 10) q) := by
  unfold k1_pay15
  simp only [addf_apply, bcol, brow, col4, row4]

/-- The causal logit of class 5. -/
theorem pay16_at (v1 : FVec Ideal S256x10 .f32) (v5 : FVec Ideal S10x256 .f32) (p q : Fin 256) :
    k1_pay16 (F := Ideal) v1 v5 (ix2 p q) = v1 (ix2 p (5 : Fin 10)) + v5 (ix2 (5 : Fin 10) q) := by
  unfold k1_pay16
  simp only [addf_apply, bcol, brow, col5, row5]

/-- The picked logit after classes 2 to 5, from its value after classes 0 and 1. -/
theorem pay17_at (v1 : FVec Ideal S256x10 .f32) (v5 : FVec Ideal S10x256 .f32) (v9 : IVec S256x1 32)
    (v39 : FVec Ideal S256x256 .f32) (v40 : FVec Ideal S256x1 .f32) (v41 : FVec Ideal S1x256 .f32) (p q : Fin 256) :
    k1_pay17 (F := Ideal) v1 v5 v9 v39 v40 v41 (ix2 p q)
      = (((v39 (ix2 p q)
            + PairLoss.mask (v9 (ix2 p (0 : Fin 1))) (2 : Fin 10) * (v40 (ix2 p (0 : Fin 1)) + v41 (ix2 (0 : Fin 1) q)))
            + PairLoss.mask (v9 (ix2 p (0 : Fin 1))) (3 : Fin 10) * (v1 (ix2 p (3 : Fin 10)) + v5 (ix2 (3 : Fin 10) q)))
            + PairLoss.mask (v9 (ix2 p (0 : Fin 1))) (4 : Fin 10) * (v1 (ix2 p (4 : Fin 10)) + v5 (ix2 (4 : Fin 10) q)))
            + PairLoss.mask (v9 (ix2 p (0 : Fin 1))) (5 : Fin 10) * (v1 (ix2 p (5 : Fin 10)) + v5 (ix2 (5 : Fin 10) q)) := by
  unfold k1_pay17
  simp only [addf_apply, mulf_apply, bcol, sitofp_apply, extui_apply, cmpi_at, broadcast_apply,
    pay13_at, pay14_at, pay15_at, pay16_at, mask2, mask3, mask4, mask5]

/-- The causal logit of class 6. -/
theorem pay18_at (v1 : FVec Ideal S256x10 .f32) (v5 : FVec Ideal S10x256 .f32) (p q : Fin 256) :
    k1_pay18 (F := Ideal) v1 v5 (ix2 p q) = v1 (ix2 p (6 : Fin 10)) + v5 (ix2 (6 : Fin 10) q) := by
  unfold k1_pay18
  simp only [addf_apply, bcol, brow, col6, row6]

/-- The running maximum after classes 2 to 6, from its value after classes 0 and 1. -/
theorem pay19_at (v1 : FVec Ideal S256x10 .f32) (v5 : FVec Ideal S10x256 .f32) (v32 : FVec Ideal S256x256 .f32)
    (v40 : FVec Ideal S256x1 .f32) (v41 : FVec Ideal S1x256 .f32) (p q : Fin 256) :
    k1_pay19 (F := Ideal) v1 v5 v32 v40 v41 (ix2 p q)
      = max (max (max (max (max (v32 (ix2 p q)) (v40 (ix2 p (0 : Fin 1)) + v41 (ix2 (0 : Fin 1) q)))
          (v1 (ix2 p (3 : Fin 10)) + v5 (ix2 (3 : Fin 10) q)))
          (v1 (ix2 p (4 : Fin 10)) + v5 (ix2 (4 : Fin 10) q)))
          (v1 (ix2 p (5 : Fin 10)) + v5 (ix2 (5 : Fin 10) q)))
          (v1 (ix2 p (6 : Fin 10)) + v5 (ix2 (6 : Fin 10) q)) := by
  unfold k1_pay19
  simp only [maximumf_apply, pay13_at, pay14_at, pay15_at, pay16_at, pay18_at]

/-- The causal logit of class 7. -/
theorem pay20_at (v1 : FVec Ideal S256x10 .f32) (v5 : FVec Ideal S10x256 .f32) (p q : Fin 256) :
    k1_pay20 (F := Ideal) v1 v5 (ix2 p q) = v1 (ix2 p (7 : Fin 10)) + v5 (ix2 (7 : Fin 10) q) := by
  unfold k1_pay20
  simp only [addf_apply, bcol, brow, col7, row7]

/-- The causal logit of class 8. -/
theorem pay21_at (v1 : FVec Ideal S256x10 .f32) (v5 : FVec Ideal S10x256 .f32) (p q : Fin 256) :
    k1_pay21 (F := Ideal) v1 v5 (ix2 p q) = v1 (ix2 p (8 : Fin 10)) + v5 (ix2 (8 : Fin 10) q) := by
  unfold k1_pay21
  simp only [addf_apply, bcol, brow, col8, row8]

/-- The causal logit of class 9. -/
theorem pay22_at (v1 : FVec Ideal S256x10 .f32) (v5 : FVec Ideal S10x256 .f32) (p q : Fin 256) :
    k1_pay22 (F := Ideal) v1 v5 (ix2 p q) = v1 (ix2 p (9 : Fin 10)) + v5 (ix2 (9 : Fin 10) q) := by
  unfold k1_pay22
  simp only [addf_apply, bcol, brow, col9, row9]

/-- The running maximum after all ten classes, from its value after classes 0 to 6. -/
theorem pay23_at (v1 : FVec Ideal S256x10 .f32) (v5 : FVec Ideal S10x256 .f32) (v97 : FVec Ideal S256x256 .f32)
    (p q : Fin 256) :
    k1_pay23 (F := Ideal) v1 v5 v97 (ix2 p q)
      = max (max (max (v97 (ix2 p q)) (v1 (ix2 p (7 : Fin 10)) + v5 (ix2 (7 : Fin 10) q)))
          (v1 (ix2 p (8 : Fin 10)) + v5 (ix2 (8 : Fin 10) q)))
          (v1 (ix2 p (9 : Fin 10)) + v5 (ix2 (9 : Fin 10) q)) := by
  unfold k1_pay23
  simp only [maximumf_apply, pay20_at, pay21_at, pay22_at]

/-- The picked logit after all ten classes, from its value after classes 0 to 5 and the logit of class 6. -/
theorem pay24_at (v1 : FVec Ideal S256x10 .f32) (v5 : FVec Ideal S10x256 .f32) (v9 : IVec S256x1 32)
    (v91 : FVec Ideal S256x256 .f32) (v96 : FVec Ideal S256x256 .f32) (p q : Fin 256) :
    k1_pay24 (F := Ideal) v1 v5 v9 v91 v96 (ix2 p q)
      = (((v91 (ix2 p q)
            + PairLoss.mask (v9 (ix2 p (0 : Fin 1))) (6 : Fin 10) * v96 (ix2 p q))
            + PairLoss.mask (v9 (ix2 p (0 : Fin 1))) (7 : Fin 10) * (v1 (ix2 p (7 : Fin 10)) + v5 (ix2 (7 : Fin 10) q)))
            + PairLoss.mask (v9 (ix2 p (0 : Fin 1))) (8 : Fin 10) * (v1 (ix2 p (8 : Fin 10)) + v5 (ix2 (8 : Fin 10) q)))
            + PairLoss.mask (v9 (ix2 p (0 : Fin 1))) (9 : Fin 10) * (v1 (ix2 p (9 : Fin 10)) + v5 (ix2 (9 : Fin 10) q)) := by
  unfold k1_pay24
  simp only [addf_apply, mulf_apply, bcol, sitofp_apply, extui_apply, cmpi_at, broadcast_apply,
    pay20_at, pay21_at, pay22_at, mask6, mask7, mask8, mask9]

/-- The sum of exponentials after class 0, from zero; the shift is the running maximum over all ten classes. -/
theorem pay25_at (v1 : FVec Ideal S256x10 .f32) (v5 : FVec Ideal S10x256 .f32) (v97 : FVec Ideal S256x256 .f32)
    (p q : Fin 256) :
    k1_pay25 (F := Ideal) v1 v5 v97 (ix2 p q)
      = (0 : EReal) + Ideal.exp ((v1 (ix2 p (0 : Fin 10)) + v5 (ix2 (0 : Fin 10) q))
          - max (max (max (v97 (ix2 p q)) (v1 (ix2 p (7 : Fin 10)) + v5 (ix2 (7 : Fin 10) q)))
              (v1 (ix2 p (8 : Fin 10)) + v5 (ix2 (8 : Fin 10) q)))
              (v1 (ix2 p (9 : Fin 10)) + v5 (ix2 (9 : Fin 10) q))) := by
  unfold k1_pay25
  simp only [addf_apply, subf_apply, exp_at, bcol, brow, col0, row0, broadcast_apply, zero_word, pay23_at]

/-- The sum of exponentials after classes 1 to 7, from its value after class 0; the shift is the tile of maxima. -/
theorem pay26_at (v1 : FVec Ideal S256x10 .f32) (v5 : FVec Ideal S10x256 .f32) (v136 : FVec Ideal S256x256 .f32)
    (v152 : FVec Ideal S256x256 .f32) (p q : Fin 256) :
    k1_pay26 (F := Ideal) v1 v5 v136 v152 (ix2 p q)
      = ((((((v152 (ix2 p q)
            + Ideal.exp ((v1 (ix2 p (1 : Fin 10)) + v5 (ix2 (1 : Fin 10) q)) - v136 (ix2 p q)))
            + Ideal.exp ((v1 (ix2 p (2 : Fin 10)) + v5 (ix2 (2 : Fin 10) q)) - v136 (ix2 p q)))
            + Ideal.exp ((v1 (ix2 p (3 : Fin 10)) + v5 (ix2 (3 : Fin 10) q)) - v136 (ix2 p q)))
            + Ideal.exp ((v1 (ix2 p (4 : Fin 10)) + v5 (ix2 (4 : Fin 10) q)) - v136 (ix2 p q)))
            + Ideal.exp ((v1 (ix2 p (5 : Fin 10)) + v5 (ix2 (5 : Fin 10) q)) - v136 (ix2 p q)))
            + Ideal.exp ((v1 (ix2 p (6 : Fin 10)) + v5 (ix2 (6 : Fin 10) q)) - v136 (ix2 p q)))
            + Ideal.exp ((v1 (ix2 p (7 : Fin 10)) + v5 (ix2 (7 : Fin 10) q)) - v136 (ix2 p q)) := by
  unfold k1_pay26
  simp only [addf_apply, subf_apply, exp_at, bcol, brow, col1, row1, col2, row2, col3, row3, col4, row4, col5, row5,
    col6, row6, col7, row7]

/-- Column 8 of the causal row block, spread over the tile. -/
theorem pay27_at (v1 : FVec Ideal S256x10 .f32) (p q : Fin 256) :
    k1_pay27 (F := Ideal) v1 (ix2 p q) = v1 (ix2 p (8 : Fin 10)) := by
  unfold k1_pay27
  simp only [bcol, col8]

/-- Row 8 of the causal column block, spread over the tile. -/
theorem pay28_at (v5 : FVec Ideal S10x256 .f32) (p q : Fin 256) :
    k1_pay28 (F := Ideal) v5 (ix2 p q) = v5 (ix2 (8 : Fin 10) q) := by
  unfold k1_pay28
  simp only [brow, row8]

/-- The causal cross entropy: the maximum plus the logarithm of the full sum of exponentials, minus the picked
    logit. The sum takes classes 8 (from its two spread halves) and 9 onto its value after classes 0 to 7. -/
theorem pay29_at (v1 : FVec Ideal S256x10 .f32) (v5 : FVec Ideal S10x256 .f32) (v136 : FVec Ideal S256x256 .f32)
    (v143 : FVec Ideal S256x256 .f32) (v208 : FVec Ideal S256x256 .f32) (v211 : FVec Ideal S256x256 .f32)
    (v212 : FVec Ideal S256x256 .f32) (p q : Fin 256) :
    k1_pay29 (F := Ideal) v1 v5 v136 v143 v208 v211 v212 (ix2 p q)
      = (v136 (ix2 p q)
          + Ideal.log ((v208 (ix2 p q)
              + Ideal.exp ((v211 (ix2 p q) + v212 (ix2 p q)) - v136 (ix2 p q)))
              + Ideal.exp ((v1 (ix2 p (9 : Fin 10)) + v5 (ix2 (9 : Fin 10) q)) - v136 (ix2 p q))))
          - v143 (ix2 p q) := by
  unfold k1_pay29
  simp only [addf_apply, subf_apply, exp_at, log_at, bcol, brow, col9, row9]

end Cert.KernelIdeal.PayCausal

end
-- ==== Proof.PayBias.lean ====
/-
  The bias head of the pair kernel, read at one point (p, q) of the tile.

  Each value the body hands on is a function on the (256, 256) tile (or on a column, or on a row); at a point it is
  an expression in the extended reals of the loaded blocks' entries: a logit is the column entry plus the row entry,
  the running maximum starts from the bottom element, a picked logit is a sum of mask times logit from zero, and the
  sum of exponentials is taken of logit minus maximum, class by class in the order the body visits them.
-/
import proofs.«430662_j81965155877006_3_alg».proof.Proof.Gen.KernelIdeal.Skeleton
import proofs.«430662_j81965155877006_3_alg».proof.Proof.Spec
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.PayBias

open Cert.KernelIdeal Cert.KernelIdeal.Gen Idealize.ShloMosaic Idealize.ShloMosaic.ValueIdx

/-! ## Layout: a column of a [256,10] block, a row of a [10,256] block, and their broadcasts to the tile -/

/-- Column `k` of a [256,10] block, kept as a [256,1] column, at row `p`. -/
private theorem scol {α : Type} (k : Nat) (kf : Fin 10) (hkf : kf.val = k) (v : S256x10.Idx → α)
    (h : S256x10.Slices ![0, k] S256x1) (p : Fin 256) :
    extractStridedSlice S256x1 ![0, k] v h (ix2 p 0) = v (ix2 p kf) := by
  refine extractStridedSlice_apply _ v h _ _ fun a => ?_
  match a with
  | ⟨0, _⟩ => show p.val = 0 + p.val; omega
  | ⟨1, _⟩ => show kf.val = k + 0; omega

/-- Row `k` of a [10,256] block, kept as a [1,256] row, at column `q`. -/
private theorem srow {α : Type} (k : Nat) (kf : Fin 10) (hkf : kf.val = k) (v : S10x256.Idx → α)
    (h : S10x256.Slices ![k, 0] S1x256) (q : Fin 256) :
    extractStridedSlice S1x256 ![k, 0] v h (ix2 0 q) = v (ix2 kf q) := by
  refine extractStridedSlice_apply _ v h _ _ fun a => ?_
  match a with
  | ⟨0, _⟩ => show kf.val = k + 0; omega
  | ⟨1, _⟩ => show q.val = 0 + q.val; omega

/-- A [256,1] column broadcast to the tile reads the column at the point's row. -/
private theorem bcol {α : Type} (c : S256x1.Idx → α) (p q : Fin 256) :
    broadcastTo S256x256 c broadcasts_S256x1_S256x256 (ix2 p q) = c (ix2 p 0) := by
  refine broadcastTo_apply c _ _ _ fun a => ?_
  match a with
  | ⟨0, _⟩ => rfl
  | ⟨1, _⟩ => rfl

/-- A [1,256] row broadcast to the tile reads the row at the point's column. -/
private theorem brow {α : Type} (r : S1x256.Idx → α) (p q : Fin 256) :
    broadcastTo S256x256 r broadcasts_S1x256_S256x256 (ix2 p q) = r (ix2 0 q) := by
  refine broadcastTo_apply r _ _ _ fun a => ?_
  match a with
  | ⟨0, _⟩ => rfl
  | ⟨1, _⟩ => rfl

/-! ## Words and constants at a point -/

/-- The exponential of a tile at a point. -/
private theorem exp_at {s : Shape} {φ : FTy} (x : FVec Ideal s φ) (i : s.Idx) : exp x i = Ideal.exp (x i) := rfl

/-- An integer comparison of two blocks at a point. -/
private theorem cmpi_at {s : Shape} {w : Nat} (pr : CmpIPredicate) (x y : IVec s w) (i : s.Idx) :
    cmpi pr x y i = IntOp.cmpi pr (x i) (y i) := rfl

/-- The running maximum's start, the named constant, is the bottom element. -/
private theorem neg_big : Named.named (F := Ideal) κ "neg_big" (φ := .f32) 0xF149F2CA#32 = (⊥ : EReal) :=
  IdealRules.named_const.ideal_named_scalar _ _ _ _ rfl

/-- The zero word is zero. -/
private theorem zero_word : (Scalar.ofBits (F := Ideal) .f32 0x00000000#32 : EReal) = 0 := Ideal.ofBits_zero_f32

/-- The compare's bit, widened and converted, is the mask of the class. -/
private theorem mask_at (w : BitVec 32) (k : Nat) (kf : Fin 10) (h : kf.val = k) :
    FloatOps.sitofp (F := Ideal) .f32 ((IntOp.cmpi .eq w (BitVec.ofNat 32 k)).setWidth 32) = PairLoss.mask w kf := by
  subst h; rfl

/-! ## The payloads at a point -/

theorem pay30_at (v3 : FVec Ideal S256x10 .f32) (v7 : FVec Ideal S10x256 .f32) (p q : Fin 256) :
    k1_pay30 (F := Ideal) v3 v7 (ix2 p q) = v3 (ix2 p 0) + v7 (ix2 0 q) := by
  unfold k1_pay30
  simp only [addf_apply, bcol, brow, scol 0 0 rfl, srow 0 0 rfl]

theorem pay31_at (v3 : FVec Ideal S256x10 .f32) (v7 : FVec Ideal S10x256 .f32) (v9 : IVec S256x1 32) (p q : Fin 256) :
    k1_pay31 (F := Ideal) v3 v7 v9 (ix2 p q)
      = 0 + PairLoss.mask (v9 (ix2 p 0)) 0 * (v3 (ix2 p 0) + v7 (ix2 0 q)) := by
  unfold k1_pay31
  simp only [addf_apply, mulf_apply, bcol, pay30_at, broadcast_apply, sitofp_apply, extui_apply, cmpi_at, zero_word,
    mask_at _ 0 0 rfl]

theorem pay32_at (v3 : FVec Ideal S256x10 .f32) (v7 : FVec Ideal S10x256 .f32) (v11 : IVec S1x256 32) (p q : Fin 256) :
    k1_pay32 (F := Ideal) v3 v7 v11 (ix2 p q)
      = 0 + PairLoss.mask (v11 (ix2 0 q)) 0 * (v3 (ix2 p 0) + v7 (ix2 0 q)) := by
  unfold k1_pay32
  simp only [addf_apply, mulf_apply, brow, pay30_at, broadcast_apply, sitofp_apply, extui_apply, cmpi_at, zero_word,
    mask_at _ 0 0 rfl]

theorem pay33_at (v3 : FVec Ideal S256x10 .f32) (v7 : FVec Ideal S10x256 .f32) (p q : Fin 256) :
    k1_pay33 (F := Ideal) v3 v7 (ix2 p q) = v3 (ix2 p 1) + v7 (ix2 1 q) := by
  unfold k1_pay33
  simp only [addf_apply, bcol, brow, scol 1 1 rfl, srow 1 1 rfl]

theorem pay34_at (v3 : FVec Ideal S256x10 .f32) (v7 : FVec Ideal S10x256 .f32) (p q : Fin 256) :
    k1_pay34 (F := Ideal) v3 v7 (ix2 p q)
      = max (max ⊥ (v3 (ix2 p 0) + v7 (ix2 0 q))) (v3 (ix2 p 1) + v7 (ix2 1 q)) := by
  unfold k1_pay34
  simp only [maximumf_apply, broadcast_apply, pay30_at, pay33_at, neg_big]

theorem pay35_at (v11 : IVec S1x256 32) (q : Fin 256) :
    k1_pay35 (F := Ideal) v11 (ix2 0 q) = PairLoss.mask (v11 (ix2 0 q)) 1 := by
  unfold k1_pay35
  simp only [broadcast_apply, sitofp_apply, extui_apply, cmpi_at, mask_at _ 1 1 rfl]

theorem pay36_at (v9 : IVec S256x1 32) (p q : Fin 256) :
    k1_pay36 (F := Ideal) v9 (ix2 p q) = PairLoss.mask (v9 (ix2 p 0)) 1 := by
  unfold k1_pay36
  simp only [bcol, broadcast_apply, sitofp_apply, extui_apply, cmpi_at, mask_at _ 1 1 rfl]

theorem pay37_at (v3 : FVec Ideal S256x10 .f32) (v7 : FVec Ideal S10x256 .f32) (p q : Fin 256) :
    k1_pay37 (F := Ideal) v3 v7 (ix2 p q) = v3 (ix2 p 2) + v7 (ix2 2 q) := by
  unfold k1_pay37
  simp only [addf_apply, bcol, brow, scol 2 2 rfl, srow 2 2 rfl]

theorem pay38_at (v3 : FVec Ideal S256x10 .f32) (v7 : FVec Ideal S10x256 .f32) (p q : Fin 256) :
    k1_pay38 (F := Ideal) v3 v7 (ix2 p q) = v3 (ix2 p 3) + v7 (ix2 3 q) := by
  unfold k1_pay38
  simp only [addf_apply, bcol, brow, scol 3 3 rfl, srow 3 3 rfl]

theorem pay39_at (v3 : FVec Ideal S256x10 .f32) (v7 : FVec Ideal S10x256 .f32) (v9 : IVec S256x1 32)
    (v247 v255 v265 : FVec Ideal S256x256 .f32) (p q : Fin 256) :
    k1_pay39 (F := Ideal) v3 v7 v9 v247 v255 v265 (ix2 p q)
      = ((v247 (ix2 p q) + v265 (ix2 p q) * v255 (ix2 p q))
          + PairLoss.mask (v9 (ix2 p 0)) 2 * (v3 (ix2 p 2) + v7 (ix2 2 q)))
          + PairLoss.mask (v9 (ix2 p 0)) 3 * (v3 (ix2 p 3) + v7 (ix2 3 q)) := by
  unfold k1_pay39
  simp only [addf_apply, mulf_apply, bcol, pay37_at, pay38_at, broadcast_apply, sitofp_apply, extui_apply, cmpi_at,
    mask_at _ 2 2 rfl, mask_at _ 3 3 rfl]

theorem pay40_at (v3 : FVec Ideal S256x10 .f32) (v7 : FVec Ideal S10x256 .f32) (v11 : IVec S1x256 32)
    (v250 v255 : FVec Ideal S256x256 .f32) (v264 : FVec Ideal S1x256 .f32) (p q : Fin 256) :
    k1_pay40 (F := Ideal) v3 v7 v11 v250 v255 v264 (ix2 p q)
      = ((v250 (ix2 p q) + v264 (ix2 0 q) * v255 (ix2 p q))
          + PairLoss.mask (v11 (ix2 0 q)) 2 * (v3 (ix2 p 2) + v7 (ix2 2 q)))
          + PairLoss.mask (v11 (ix2 0 q)) 3 * (v3 (ix2 p 3) + v7 (ix2 3 q)) := by
  unfold k1_pay40
  simp only [addf_apply, mulf_apply, brow, pay37_at, pay38_at, broadcast_apply, sitofp_apply, extui_apply, cmpi_at,
    mask_at _ 2 2 rfl, mask_at _ 3 3 rfl]

theorem pay41_at (v3 : FVec Ideal S256x10 .f32) (v7 : FVec Ideal S10x256 .f32) (p q : Fin 256) :
    k1_pay41 (F := Ideal) v3 v7 (ix2 p q) = v3 (ix2 p 4) + v7 (ix2 4 q) := by
  unfold k1_pay41
  simp only [addf_apply, bcol, brow, scol 4 4 rfl, srow 4 4 rfl]

theorem pay42_at (v3 : FVec Ideal S256x10 .f32) (v7 : FVec Ideal S10x256 .f32) (v256 : FVec Ideal S256x256 .f32)
    (p q : Fin 256) :
    k1_pay42 (F := Ideal) v3 v7 v256 (ix2 p q)
      = max (max (max (v256 (ix2 p q)) (v3 (ix2 p 2) + v7 (ix2 2 q))) (v3 (ix2 p 3) + v7 (ix2 3 q))) (v3 (ix2 p 4) + v7 (ix2 4 q)) := by
  unfold k1_pay42
  simp only [maximumf_apply, pay37_at, pay38_at, pay41_at]

theorem pay43_at (v9 : IVec S256x1 32) (p : Fin 256) :
    k1_pay43 (F := Ideal) v9 (ix2 p 0) = PairLoss.mask (v9 (ix2 p 0)) 4 := by
  unfold k1_pay43
  simp only [broadcast_apply, sitofp_apply, extui_apply, cmpi_at, mask_at _ 4 4 rfl]

theorem pay44_at (v3 : FVec Ideal S256x10 .f32) (v7 : FVec Ideal S10x256 .f32) (p q : Fin 256) :
    k1_pay44 (F := Ideal) v3 v7 (ix2 p q) = v3 (ix2 p 5) + v7 (ix2 5 q) := by
  unfold k1_pay44
  simp only [addf_apply, bcol, brow, scol 5 5 rfl, srow 5 5 rfl]

theorem pay45_at (v3 : FVec Ideal S256x10 .f32) (v7 : FVec Ideal S10x256 .f32) (p q : Fin 256) :
    k1_pay45 (F := Ideal) v3 v7 (ix2 p q) = v3 (ix2 p 6) + v7 (ix2 6 q) := by
  unfold k1_pay45
  simp only [addf_apply, bcol, brow, scol 6 6 rfl, srow 6 6 rfl]

theorem pay46_at (v3 : FVec Ideal S256x10 .f32) (v7 : FVec Ideal S10x256 .f32) (v316 : FVec Ideal S256x256 .f32)
    (p q : Fin 256) :
    k1_pay46 (F := Ideal) v3 v7 v316 (ix2 p q)
      = max (max (v316 (ix2 p q)) (v3 (ix2 p 5) + v7 (ix2 5 q))) (v3 (ix2 p 6) + v7 (ix2 6 q)) := by
  unfold k1_pay46
  simp only [maximumf_apply, pay44_at, pay45_at]

theorem pay47_at (v3 : FVec Ideal S256x10 .f32) (v7 : FVec Ideal S10x256 .f32) (v9 : IVec S256x1 32)
    (v307 v315 : FVec Ideal S256x256 .f32) (v320 : FVec Ideal S256x1 .f32) (p q : Fin 256) :
    k1_pay47 (F := Ideal) v3 v7 v9 v307 v315 v320 (ix2 p q)
      = ((v307 (ix2 p q) + v320 (ix2 p 0) * v315 (ix2 p q))
          + PairLoss.mask (v9 (ix2 p 0)) 5 * (v3 (ix2 p 5) + v7 (ix2 5 q)))
          + PairLoss.mask (v9 (ix2 p 0)) 6 * (v3 (ix2 p 6) + v7 (ix2 6 q)) := by
  unfold k1_pay47
  simp only [addf_apply, mulf_apply, bcol, pay44_at, pay45_at, broadcast_apply, sitofp_apply, extui_apply, cmpi_at,
    mask_at _ 5 5 rfl, mask_at _ 6 6 rfl]

theorem pay48_at (v3 : FVec Ideal S256x10 .f32) (v7 : FVec Ideal S10x256 .f32) (v11 : IVec S1x256 32)
    (v310 v315 : FVec Ideal S256x256 .f32) (p q : Fin 256) :
    k1_pay48 (F := Ideal) v3 v7 v11 v310 v315 (ix2 p q)
      = ((v310 (ix2 p q) + PairLoss.mask (v11 (ix2 0 q)) 4 * v315 (ix2 p q))
          + PairLoss.mask (v11 (ix2 0 q)) 5 * (v3 (ix2 p 5) + v7 (ix2 5 q)))
          + PairLoss.mask (v11 (ix2 0 q)) 6 * (v3 (ix2 p 6) + v7 (ix2 6 q)) := by
  unfold k1_pay48
  simp only [addf_apply, mulf_apply, brow, pay44_at, pay45_at, broadcast_apply, sitofp_apply, extui_apply, cmpi_at,
    mask_at _ 4 4 rfl, mask_at _ 5 5 rfl, mask_at _ 6 6 rfl]

theorem pay49_at (v3 : FVec Ideal S256x10 .f32) (v7 : FVec Ideal S10x256 .f32) (p q : Fin 256) :
    k1_pay49 (F := Ideal) v3 v7 (ix2 p q) = v3 (ix2 p 7) + v7 (ix2 7 q) := by
  unfold k1_pay49
  simp only [addf_apply, bcol, brow, scol 7 7 rfl, srow 7 7 rfl]

theorem pay50_at (v3 : FVec Ideal S256x10 .f32) (v7 : FVec Ideal S10x256 .f32) (p q : Fin 256) :
    k1_pay50 (F := Ideal) v3 v7 (ix2 p q) = v3 (ix2 p 8) + v7 (ix2 8 q) := by
  unfold k1_pay50
  simp only [addf_apply, bcol, brow, scol 8 8 rfl, srow 8 8 rfl]

theorem pay51_at (v3 : FVec Ideal S256x10 .f32) (v7 : FVec Ideal S10x256 .f32) (v11 : IVec S1x256 32)
    (v370 v375 : FVec Ideal S256x256 .f32) (p q : Fin 256) :
    k1_pay51 (F := Ideal) v3 v7 v11 v370 v375 (ix2 p q)
      = (v370 (ix2 p q) + PairLoss.mask (v11 (ix2 0 q)) 7 * v375 (ix2 p q))
          + PairLoss.mask (v11 (ix2 0 q)) 8 * (v3 (ix2 p 8) + v7 (ix2 8 q)) := by
  unfold k1_pay51
  simp only [addf_apply, mulf_apply, brow, pay50_at, broadcast_apply, sitofp_apply, extui_apply, cmpi_at,
    mask_at _ 7 7 rfl, mask_at _ 8 8 rfl]

theorem pay52_at (v3 : FVec Ideal S256x10 .f32) (v7 : FVec Ideal S10x256 .f32) (p q : Fin 256) :
    k1_pay52 (F := Ideal) v3 v7 (ix2 p q) = v3 (ix2 p 9) + v7 (ix2 9 q) := by
  unfold k1_pay52
  simp only [addf_apply, bcol, brow, scol 9 9 rfl, srow 9 9 rfl]

theorem pay53_at (v3 : FVec Ideal S256x10 .f32) (v7 : FVec Ideal S10x256 .f32) (v356 v375 : FVec Ideal S256x256 .f32)
    (p q : Fin 256) :
    k1_pay53 (F := Ideal) v3 v7 v356 v375 (ix2 p q)
      = max (max (max (v356 (ix2 p q)) (v375 (ix2 p q))) (v3 (ix2 p 8) + v7 (ix2 8 q))) (v3 (ix2 p 9) + v7 (ix2 9 q)) := by
  unfold k1_pay53
  simp only [maximumf_apply, pay50_at, pay52_at]

theorem pay54_at (v3 : FVec Ideal S256x10 .f32) (v7 : FVec Ideal S10x256 .f32) (v9 : IVec S256x1 32)
    (v367 v375 : FVec Ideal S256x256 .f32) (p q : Fin 256) :
    k1_pay54 (F := Ideal) v3 v7 v9 v367 v375 (ix2 p q)
      = ((v367 (ix2 p q) + PairLoss.mask (v9 (ix2 p 0)) 7 * v375 (ix2 p q))
          + PairLoss.mask (v9 (ix2 p 0)) 8 * (v3 (ix2 p 8) + v7 (ix2 8 q)))
          + PairLoss.mask (v9 (ix2 p 0)) 9 * (v3 (ix2 p 9) + v7 (ix2 9 q)) := by
  unfold k1_pay54
  simp only [addf_apply, mulf_apply, bcol, pay50_at, pay52_at, broadcast_apply, sitofp_apply, extui_apply, cmpi_at,
    mask_at _ 7 7 rfl, mask_at _ 8 8 rfl, mask_at _ 9 9 rfl]

theorem pay55_at (v3 : FVec Ideal S256x10 .f32) (v7 : FVec Ideal S10x256 .f32) (v11 : IVec S1x256 32) (p q : Fin 256) :
    k1_pay55 (F := Ideal) v3 v7 v11 (ix2 p q) = PairLoss.mask (v11 (ix2 0 q)) 9 * (v3 (ix2 p 9) + v7 (ix2 9 q)) := by
  unfold k1_pay55
  simp only [mulf_apply, brow, pay52_at, broadcast_apply, sitofp_apply, extui_apply, cmpi_at, mask_at _ 9 9 rfl]

theorem pay56_at (v410 v429 : FVec Ideal S256x256 .f32) (p q : Fin 256) :
    k1_pay56 (F := Ideal) v410 v429 (ix2 p q) = v410 (ix2 p q) + v429 (ix2 p q) := by
  unfold k1_pay56
  simp only [addf_apply]

theorem pay57_at (v3 : FVec Ideal S256x10 .f32) (v7 : FVec Ideal S10x256 .f32) (v416 : FVec Ideal S256x256 .f32)
    (p q : Fin 256) :
    k1_pay57 (F := Ideal) v3 v7 v416 (ix2 p q)
      = ((((((0 + Ideal.exp ((v3 (ix2 p 0) + v7 (ix2 0 q)) - v416 (ix2 p q)))
          + Ideal.exp ((v3 (ix2 p 1) + v7 (ix2 1 q)) - v416 (ix2 p q)))
          + Ideal.exp ((v3 (ix2 p 2) + v7 (ix2 2 q)) - v416 (ix2 p q)))
          + Ideal.exp ((v3 (ix2 p 3) + v7 (ix2 3 q)) - v416 (ix2 p q)))
          + Ideal.exp ((v3 (ix2 p 4) + v7 (ix2 4 q)) - v416 (ix2 p q)))
          + Ideal.exp ((v3 (ix2 p 5) + v7 (ix2 5 q)) - v416 (ix2 p q)))
          + Ideal.exp ((v3 (ix2 p 6) + v7 (ix2 6 q)) - v416 (ix2 p q)) := by
  unfold k1_pay57
  simp only [addf_apply, subf_apply, exp_at, bcol, brow, broadcast_apply, zero_word,
    scol 0 0 rfl, srow 0 0 rfl, scol 1 1 rfl, srow 1 1 rfl, scol 2 2 rfl, srow 2 2 rfl, scol 3 3 rfl, srow 3 3 rfl,
    scol 4 4 rfl, srow 4 4 rfl, scol 5 5 rfl, srow 5 5 rfl, scol 6 6 rfl, srow 6 6 rfl]

theorem pay58_at (v3 : FVec Ideal S256x10 .f32) (p : Fin 256) :
    k1_pay58 (F := Ideal) v3 (ix2 p 0) = v3 (ix2 p 7) := by
  unfold k1_pay58
  simp only [scol 7 7 rfl]

end Cert.KernelIdeal.PayBias

end
-- ==== Proof.PayTile.lean ====
/-
  The pair kernel's (256, 256) tile read at a point (p, q): its last part, the two heads, and the whole tile.

  The last payload adds the remaining three terms exp (l_b k - M_b), k = 7, 8, 9, to the bias head's sum of
  exponentials S, forms  lse_b = M_b + log S,  the bias cross entropy  ce_b = lse_b - picked_b(y_i),  the bias
  log-probability at the other label  lp = picked_b(y_j) - lse_b,  and combines them with the causal cross entropy ce_c:
      w = ce_b / ((ce_c + ce_b) + eps),   loss = w * ce_c + (1 - w) * ((0 - lp) * exp (lp * q)).
  Every operation is pointwise on the tile except the three layout operations (column k of a [256,10] block kept as a
  [256,1] column, row k of a [10,256] block kept as a [1,256] row, a column or a row broadcast to the tile), each of
  which reads one element of its operand.

  Composed with the earlier payloads at the same point, the bias head's running maximum, picked logits and partial
  sum of exponentials are the left folds over the classes 0 … 9 of the logits  l_b k = a_b[p, k] + b_b[k, q]  (from
  the bottom element for the maximum, from zero for the sums), and likewise the causal head's over
  l_c k = a_c[p, k] + b_c[k, q]; so the value the body stores at (p, q) is the kernel's loss of the two heads' logits
  there and the two labels y[p], y[q].
-/
import proofs.«430662_j81965155877006_3_alg».proof.Proof.Spec
import proofs.«430662_j81965155877006_3_alg».proof.Proof.Gen.KernelIdeal.Frame
import proofs.«430662_j81965155877006_3_alg».proof.Proof.PayCausal
import proofs.«430662_j81965155877006_3_alg».proof.Proof.PayBias
import Idealize.ShloMosaic.Lib.Pipeline.Value
import Idealize.ShloMosaic.Lib.ValueIdx
import Idealize.ShloMosaic.PureOps.Ideal.Laws

noncomputable section

open Idealize.ShloMosaic Idealize.ShloMosaic.ValueIdx
open Cert.KernelIdeal Cert.KernelIdeal.Gen

namespace Cert.KernelIdeal.PayTile

/-! ## The layout operations at explicit coordinates -/

/-- Column k of a [256,10] block, kept as a [256,1] column, read at row p: the block at (p, k). -/
private theorem col_at {α : Type} (k : Nat) (c : Fin 10) (hc : c.val = k) (v : S256x10.Idx → α)
    (h : S256x10.Slices ![0, k] S256x1) (p : Fin 256) :
    extractStridedSlice S256x1 ![0, k] v h (ix2 p 0) = v (ix2 p c) :=
  extractStridedSlice_apply _ _ _ _ _ fun a => match a with
    | ⟨0, _⟩ => by show p.val = 0 + p.val; omega
    | ⟨1, _⟩ => by show c.val = k + 0; omega

/-- Row k of a [10,256] block, kept as a [1,256] row, read at column q: the block at (k, q). -/
private theorem row_at {α : Type} (k : Nat) (c : Fin 10) (hc : c.val = k) (v : S10x256.Idx → α)
    (h : S10x256.Slices ![k, 0] S1x256) (q : Fin 256) :
    extractStridedSlice S1x256 ![k, 0] v h (ix2 0 q) = v (ix2 c q) :=
  extractStridedSlice_apply _ _ _ _ _ fun a => match a with
    | ⟨0, _⟩ => by show c.val = k + 0; omega
    | ⟨1, _⟩ => by show q.val = 0 + q.val; omega

/-- A [256,1] column broadcast to the tile reads the column at its row. -/
private theorem bcol_at {α : Type} (c : S256x1.Idx → α) (h : S256x1.Broadcasts S256x256) (p q : Fin 256) :
    broadcastTo S256x256 c h (ix2 p q) = c (ix2 p 0) :=
  broadcastTo_apply _ _ _ _ fun a => match a with
    | ⟨0, _⟩ => by show p.val = if (256 : Nat) = 1 then 0 else p.val; rfl
    | ⟨1, _⟩ => by show (0 : Nat) = if (1 : Nat) = 1 then 0 else q.val; rfl

/-- A [1,256] row broadcast to the tile reads the row at its column. -/
private theorem brow_at {α : Type} (r : S1x256.Idx → α) (h : S1x256.Broadcasts S256x256) (p q : Fin 256) :
    broadcastTo S256x256 r h (ix2 p q) = r (ix2 0 q) :=
  broadcastTo_apply _ _ _ _ fun a => match a with
    | ⟨0, _⟩ => by show (0 : Nat) = if (1 : Nat) = 1 then 0 else p.val; rfl
    | ⟨1, _⟩ => by show q.val = if (256 : Nat) = 1 then 0 else q.val; rfl

/-- The exponential of a vector at an index. -/
private theorem exp_at {s : Shape} (x : FVec Ideal s .f32) (i : s.Idx) : exp x i = Ideal.exp (x i) := rfl
/-- The logarithm of a vector at an index. -/
private theorem log_at {s : Shape} (x : FVec Ideal s .f32) (i : s.Idx) : log x i = Ideal.log (x i) := rfl
/-- A float word as a scalar is the extended real it encodes. -/
private theorem word_at (b : BitVec 32) : Scalar.ofBits (F := Ideal) .f32 b = Ideal.ofBits .f32 b := rfl

/-! ## The last payload at a point -/

/-- The last payload at (p, q), in its own arguments: with S the sum of exponentials completed by the classes 7, 8, 9,
    ce_b = (M_b + log S) - picked_b(y_i) and lp = picked_b(y_j) - (M_b + log S), the value is
    ce_b / ((ce_c + ce_b) + eps) * ce_c + (1 - ce_b / ((ce_c + ce_b) + eps)) * ((0 - lp) * exp (lp * q)). -/
theorem pay59_at (v3 : FVec Ideal S256x10 .f32) (v7 : FVec Ideal S10x256 .f32)
    (v227 v416 v427 v430 v487 : FVec Ideal S256x256 .f32) (v488 : FVec Ideal S256x1 .f32) (p q : Fin 256) :
    k1_pay59 (F := Ideal) v3 v7 v227 v416 v427 v430 v487 v488 (ix2 p q)
      = Ideal.div
            ((v416 (ix2 p q) + Ideal.log
                (((v487 (ix2 p q) + Ideal.exp ((v488 (ix2 p 0) + v7 (ix2 (7 : Fin 10) q)) - v416 (ix2 p q)))
                    + Ideal.exp ((v3 (ix2 p (8 : Fin 10)) + v7 (ix2 (8 : Fin 10) q)) - v416 (ix2 p q)))
                  + Ideal.exp ((v3 (ix2 p (9 : Fin 10)) + v7 (ix2 (9 : Fin 10) q)) - v416 (ix2 p q))))
              - v427 (ix2 p q))
            ((v227 (ix2 p q)
                + ((v416 (ix2 p q) + Ideal.log
                    (((v487 (ix2 p q) + Ideal.exp ((v488 (ix2 p 0) + v7 (ix2 (7 : Fin 10) q)) - v416 (ix2 p q)))
                        + Ideal.exp ((v3 (ix2 p (8 : Fin 10)) + v7 (ix2 (8 : Fin 10) q)) - v416 (ix2 p q)))
                      + Ideal.exp ((v3 (ix2 p (9 : Fin 10)) + v7 (ix2 (9 : Fin 10) q)) - v416 (ix2 p q))))
                  - v427 (ix2 p q)))
              + Ideal.ofBits .f32 0x322BCC77#32)
          * v227 (ix2 p q)
        + (Ideal.ofBits .f32 0x3F800000#32
            - Ideal.div
                ((v416 (ix2 p q) + Ideal.log
                    (((v487 (ix2 p q) + Ideal.exp ((v488 (ix2 p 0) + v7 (ix2 (7 : Fin 10) q)) - v416 (ix2 p q)))
                        + Ideal.exp ((v3 (ix2 p (8 : Fin 10)) + v7 (ix2 (8 : Fin 10) q)) - v416 (ix2 p q)))
                      + Ideal.exp ((v3 (ix2 p (9 : Fin 10)) + v7 (ix2 (9 : Fin 10) q)) - v416 (ix2 p q))))
                  - v427 (ix2 p q))
                ((v227 (ix2 p q)
                    + ((v416 (ix2 p q) + Ideal.log
                        (((v487 (ix2 p q) + Ideal.exp ((v488 (ix2 p 0) + v7 (ix2 (7 : Fin 10) q)) - v416 (ix2 p q)))
                            + Ideal.exp ((v3 (ix2 p (8 : Fin 10)) + v7 (ix2 (8 : Fin 10) q)) - v416 (ix2 p q)))
                          + Ideal.exp ((v3 (ix2 p (9 : Fin 10)) + v7 (ix2 (9 : Fin 10) q)) - v416 (ix2 p q))))
                      - v427 (ix2 p q)))
                  + Ideal.ofBits .f32 0x322BCC77#32))
          * ((0 - (v430 (ix2 p q)
                    - (v416 (ix2 p q) + Ideal.log
                        (((v487 (ix2 p q) + Ideal.exp ((v488 (ix2 p 0) + v7 (ix2 (7 : Fin 10) q)) - v416 (ix2 p q)))
                            + Ideal.exp ((v3 (ix2 p (8 : Fin 10)) + v7 (ix2 (8 : Fin 10) q)) - v416 (ix2 p q)))
                          + Ideal.exp ((v3 (ix2 p (9 : Fin 10)) + v7 (ix2 (9 : Fin 10) q)) - v416 (ix2 p q))))))
              * Ideal.exp ((v430 (ix2 p q)
                    - (v416 (ix2 p q) + Ideal.log
                        (((v487 (ix2 p q) + Ideal.exp ((v488 (ix2 p 0) + v7 (ix2 (7 : Fin 10) q)) - v416 (ix2 p q)))
                            + Ideal.exp ((v3 (ix2 p (8 : Fin 10)) + v7 (ix2 (8 : Fin 10) q)) - v416 (ix2 p q)))
                          + Ideal.exp ((v3 (ix2 p (9 : Fin 10)) + v7 (ix2 (9 : Fin 10) q)) - v416 (ix2 p q)))))
                  * Ideal.ofBits .f32 0x3F333333#32)) := by
  unfold k1_pay59
  simp only [addf_apply, subf_apply, mulf_apply, divf_apply, exp_at, log_at, broadcast_apply, word_at,
    bcol_at, brow_at, row_at 7 7 rfl, col_at 8 8 rfl, row_at 8 8 rfl, col_at 9 9 rfl, row_at 9 9 rfl,
    Ideal.ofBits_zero_f32]

/-! ## The bias head and the combination, over an arbitrary causal cross entropy -/

open PayBias in
/-- With the causal cross entropy any tile C, the body's last value at (p, q) is the kernel's combination of C there,
    the bias cross entropy at the row's label and the bias log-probability at the column's label. -/
theorem bias_at (x1 : Vec Ideal S256x10 .f32) (x3 : Vec Ideal S10x256 .f32) (x4 : Vec Ideal S256x1 .i32)
    (x5 : Vec Ideal S1x256 .i32) (C : FVec Ideal S256x256 .f32) (p q : Fin 256) :
    k1_pay59 (F := Ideal) x1 x3 C
        (k1_pay53 x1 x3 (k1_pay46 x1 x3 (k1_pay42 x1 x3 (k1_pay34 x1 x3))) (k1_pay49 x1 x3))
        (k1_pay54 x1 x3 x4
          (k1_pay47 x1 x3 x4
            (k1_pay39 x1 x3 x4 (k1_pay31 x1 x3 x4) (k1_pay33 x1 x3) (k1_pay36 (F := Ideal) x4))
            (k1_pay41 x1 x3) (k1_pay43 (F := Ideal) x4))
          (k1_pay49 x1 x3))
        (k1_pay56
          (k1_pay51 x1 x3 x5
            (k1_pay48 x1 x3 x5
              (k1_pay40 x1 x3 x5 (k1_pay32 x1 x3 x5) (k1_pay33 x1 x3) (k1_pay35 (F := Ideal) x5))
              (k1_pay41 x1 x3))
            (k1_pay49 x1 x3))
          (k1_pay55 x1 x3 x5))
        (k1_pay57 x1 x3
          (k1_pay53 x1 x3 (k1_pay46 x1 x3 (k1_pay42 x1 x3 (k1_pay34 x1 x3))) (k1_pay49 x1 x3)))
        (k1_pay58 x1) (ix2 p q)
      = PairLoss.amplifiedKer (C (ix2 p q))
          (PairLoss.lseKer (fun k => x1 (ix2 p k) + x3 (ix2 k q))
            - PairLoss.picked (fun k => x1 (ix2 p k) + x3 (ix2 k q)) (x4 (ix2 p 0)))
          (PairLoss.picked (fun k => x1 (ix2 p k) + x3 (ix2 k q)) (x5 (ix2 0 q))
            - PairLoss.lseKer (fun k => x1 (ix2 p k) + x3 (ix2 k q))) := by
  simp only [pay59_at, pay31_at, pay32_at, pay33_at, pay34_at, pay35_at, pay36_at, pay39_at, pay40_at, pay41_at,
    pay42_at, pay43_at, pay46_at, pay47_at, pay48_at, pay49_at, pay51_at, pay53_at, pay54_at, pay55_at, pay56_at,
    pay57_at, pay58_at]
  simp only [PairLoss.amplifiedKer, PairLoss.lseKer, PairLoss.picked, PairLoss.sumExp, PairLoss.runMax,
    PairLoss.classes, List.foldl]

/-! ## The causal head -/

open PayCausal in
/-- The causal cross entropy at (p, q): the log-sum-exp of the ten causal logits there minus the logit picked by
    the row's label. -/
theorem causal_at (x0 : Vec Ideal S256x10 .f32) (x2 : Vec Ideal S10x256 .f32) (x4 : Vec Ideal S256x1 .i32)
    (p q : Fin 256) :
    k1_pay29 (F := Ideal) x0 x2
        (k1_pay23 x0 x2 (k1_pay19 x0 x2 (k1_pay9 x0 x2) (k1_pay11 x0) (k1_pay12 x2)))
        (k1_pay24 x0 x2 x4 (k1_pay17 x0 x2 x4 (k1_pay10 x0 x2 x4) (k1_pay11 x0) (k1_pay12 x2)) (k1_pay18 x0 x2))
        (k1_pay26 x0 x2
          (k1_pay23 x0 x2 (k1_pay19 x0 x2 (k1_pay9 x0 x2) (k1_pay11 x0) (k1_pay12 x2)))
          (k1_pay25 x0 x2 (k1_pay19 x0 x2 (k1_pay9 x0 x2) (k1_pay11 x0) (k1_pay12 x2))))
        (k1_pay27 x0) (k1_pay28 x2) (ix2 p q)
      = PairLoss.lseKer (fun k => x0 (ix2 p k) + x2 (ix2 k q))
          - PairLoss.picked (fun k => x0 (ix2 p k) + x2 (ix2 k q)) (x4 (ix2 p 0)) := by
  simp only [pay9_at, pay10_at, pay11_at, pay12_at, pay17_at, pay18_at, pay19_at, pay23_at, pay24_at, pay25_at,
    pay26_at, pay27_at, pay28_at, pay29_at]
  simp only [PairLoss.lseKer, PairLoss.picked, PairLoss.sumExp, PairLoss.runMax, PairLoss.classes, List.foldl]

/-! ## The whole tile -/

/-- The whole-block rectangles start at the origin. -/
private theorem origin2 : (![0, 0] : Fin 2 → Nat) = fun _ => 0 := funext fun a => by fin_cases a <;> rfl

open PayCausal in
/-- What the body leaves in the output window's buffer, at (p, q): the kernel's loss of the two heads' logits there
    (row entry plus column entry, class by class) and the two labels. -/
theorem out1_6_at (x0 x1 : Vec Ideal S256x10 .f32) (x2 x3 : Vec Ideal S10x256 .f32) (x4 : Vec Ideal S256x1 .i32)
    (x5 : Vec Ideal S1x256 .i32) (p q : Fin 256) :
    Cert.KernelIdeal.Gen.out1_6 (F := Ideal) x0 x1 x2 x3 x4 x5 (ix2 p q)
      = PairLoss.lossKerOf (fun k => x0 (ix2 p k) + x2 (ix2 k q)) (fun k => x1 (ix2 p k) + x3 (ix2 k q))
          (x4 (ix2 p 0)) (x5 (ix2 0 q)) := by
  unfold out1_6
  rw [View.canon_unit_zero origin2]
  simp only [View.ld_unit_zero (S := S256x10) origin2, View.ld_unit_zero (S := S10x256) origin2,
    View.ld_unit_zero (S := S256x1) origin2, View.ld_unit_zero (S := S1x256) origin2,
    pay1_eq, pay2_eq, pay3_eq, pay4_eq, pay5_eq, pay6_eq]
  rw [bias_at, causal_at]
  rfl

end Cert.KernelIdeal.PayTile

end
-- ==== Proof.KValue.lean ====
/-
  The kernel program's result array as ONE function of its seven arguments.

  The program stacks the two heads' weight matrices W_c, W_b into a [20,1024] matrix W and their biases b_c, b_b into
  a [20] vector b, and runs two regions.  The first leaves, from z_c, z_b, W and b, the four arrays
      a_c[i,k] = (sum_d z_c[i,d] * W[k,d]) + b[k],          a_b[i,k] = (sum_d z_c[i,d] * W[k+10,d]) + b[k+10],
      b_c[k,j] = sum_d W[k,d] * z_b[j,d],                   b_b[k,j] = sum_d W[k+10,d] * z_b[j,d];
  the labels y are then laid out as a column [2048,1] and as a row [1,2048]; the second region leaves, at (i, j), the
  kernel's loss of the two logit vectors  a_c[i,.] + b_c[.,j]  and  a_b[i,.] + b_b[.,j]  and the label words y[i], y[j].
  Rows 0 … 9 of the stacked arrays are the first head's and rows 10 … 19 the second's, and the column and the row
  read the label vector at their long coordinate, so the two logit vectors are the kernel's logits
      ((sum_d z_c[i,d] * W_h[k,d]) + b_h[k]) + sum_d W_h[k,d] * z_b[j,d]        (h = c, b)
  and the result array is  lossKerAt z_c z_b W_c b_c W_b b_b y i j  at every (i, j).
-/
import proofs.«430662_j81965155877006_3_alg».proof.Proof.Spec
import proofs.«430662_j81965155877006_3_alg».proof.Proof.KRun
import proofs.«430662_j81965155877006_3_alg».proof.Proof.ProjArrays
import proofs.«430662_j81965155877006_3_alg».proof.Proof.PairArray
import proofs.«430662_j81965155877006_3_alg».proof.Proof.PayTile
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen
open Idealize.ShloMosaic Idealize.ShloMosaic.TcCoe Idealize.ShloMosaic.Tactic
open Idealize.SL Idealize.SL.Sem
open Idealize.ShloMosaic.ValueIdx Idealize.ShloMosaic.StableHlo
open Cert.KernelIdeal.ProjArrays (projA projB)
open Cert.KernelIdeal.PairArray (pairArr pairArr_apply TileFn)

/-! ## The arrays the host operations form -/

/-- The two heads' weight matrices stacked: rows 0 … 9 the first head's, rows 10 … 19 the second's. -/
abbrev catW (x2 x4 : S10x1024.Idx → EReal) : S20x1024.Idx → EReal :=
  concatenate S20x1024 0 [⟨S10x1024, x2⟩, ⟨S10x1024, x4⟩] concatenates_S10x1024_S10x1024_S20x1024_d0
/-- The two heads' biases stacked the same way. -/
abbrev catB (x3 x5 : S10.Idx → EReal) : S20.Idx → EReal :=
  concatenate S20 0 [⟨S10, x3⟩, ⟨S10, x5⟩] concatenates_S10_S10_S20_d0
/-- The labels as a column. -/
abbrev colY (x6 : S2048.Idx → BitVec 32) : S2048x1.Idx → BitVec 32 := shapeCast S2048x1 x6 shapeCasts_S2048_S2048x1
/-- The labels as a row. -/
abbrev rowY (x6 : S2048.Idx → BitVec 32) : S1x2048.Idx → BitVec 32 := shapeCast S1x2048 x6 shapeCasts_S2048_S1x2048

/-- Row k of the stacked weights, k below ten, is row k of the first head's. -/
theorem catW_lo (x2 x4 : S10x1024.Idx → EReal) (k : Fin 10) (d : Fin 1024) (r : Fin 20) (hr : r.val = k.val + 0) :
    catW x2 x4 (ix2 r d) = x2 (ix2 k d) :=
  concatenate_pair_apply_left (0 : Fin S20x1024.rank) x2 x4 concatenates_S10x1024_S10x1024_S20x1024_d0 (ix2 r d) rfl (ix2 k d)
    fun b => match b with
      | ⟨0, _⟩ => by show k.val = r.val; omega
      | ⟨1, _⟩ => rfl

/-- Row k + 10 of the stacked weights is row k of the second head's. -/
theorem catW_hi (x2 x4 : S10x1024.Idx → EReal) (k : Fin 10) (d : Fin 1024) (r : Fin 20) (hr : r.val = k.val + 10) :
    catW x2 x4 (ix2 r d) = x4 (ix2 k d) :=
  concatenate_pair_apply_right (0 : Fin S20x1024.rank) x2 x4 concatenates_S10x1024_S10x1024_S20x1024_d0 (ix2 r d) rfl rfl (ix2 k d)
    (fun b => match b with
      | ⟨0, _⟩ => fun h => absurd rfl h
      | ⟨1, _⟩ => fun _ => rfl)
    (by show k.val + 10 = r.val; omega)

/-- Entry k of the stacked biases, k below ten, is entry k of the first head's. -/
theorem catB_lo (x3 x5 : S10.Idx → EReal) (k : Fin 10) (r : Fin 20) (hr : r.val = k.val + 0) :
    catB x3 x5 (ix1 r) = x3 (ix1 k) :=
  concatenate_pair_apply_left (0 : Fin S20.rank) x3 x5 concatenates_S10_S10_S20_d0 (ix1 r) rfl (ix1 k)
    fun b => match b with
      | ⟨0, _⟩ => by show k.val = r.val; omega

/-- Entry k + 10 of the stacked biases is entry k of the second head's. -/
theorem catB_hi (x3 x5 : S10.Idx → EReal) (k : Fin 10) (r : Fin 20) (hr : r.val = k.val + 10) :
    catB x3 x5 (ix1 r) = x5 (ix1 k) :=
  concatenate_pair_apply_right (0 : Fin S20.rank) x3 x5 concatenates_S10_S10_S20_d0 (ix1 r) rfl rfl (ix1 k)
    (fun b => match b with
      | ⟨0, _⟩ => fun h => absurd rfl h)
    (by show k.val + 10 = r.val; omega)

/-- The label column at (i, 0) is label i: the two row-major positions are i * 1 + 0 and i. -/
theorem colY_at (x6 : S2048.Idx → BitVec 32) (i : Fin 2048) : colY x6 (ix2 i 0) = x6 (ix1 i) :=
  shapeCast_apply x6 shapeCasts_S2048_S2048x1 (ix2 i 0) (ix1 i) (by
    rw [Shape.rowMajor_val_one, Shape.rowMajor_val_two]; show i.val = i.val * 1 + 0; omega)

/-- The label row at (0, j) is label j: the two row-major positions are 0 * 2048 + j and j. -/
theorem rowY_at (x6 : S2048.Idx → BitVec 32) (j : Fin 2048) : rowY x6 (ix2 0 j) = x6 (ix1 j) :=
  shapeCast_apply x6 shapeCasts_S2048_S1x2048 (ix2 0 j) (ix1 j) (by
    rw [Shape.rowMajor_val_one, Shape.rowMajor_val_two]; show j.val = 0 * 2048 + j.val; omega)

/-! ## The projections at explicit coordinates -/

/-- The left projection at (i, k): row i of z_c against row k + off of the stacked weights, plus the bias there. -/
theorem projA_at (off : Nat) (hoff : off + 10 ≤ 20) (zc : S2048x1024.Idx → EReal) (Wcb : S20x1024.Idx → EReal)
    (bcb : S20.Idx → EReal) (i : Fin 2048) (k : Fin 10) (r : Fin 20) (hr : r.val = k.val + off) :
    projA off hoff zc Wcb bcb (ix2 i k) = (∑ d : Fin 1024, zc (ix2 i d) * Wcb (ix2 r d)) + bcb (ix1 r) := by
  have e : r = ⟨k.val + off, by have := k.isLt; omega⟩ := Fin.ext hr
  rw [e]
  rfl

/-- The right projection at (k, j): row k + off of the stacked weights against row j of z_b. -/
theorem projB_at (off : Nat) (hoff : off + 10 ≤ 20) (zb : S2048x1024.Idx → EReal) (Wcb : S20x1024.Idx → EReal)
    (k : Fin 10) (j : Fin 2048) (r : Fin 20) (hr : r.val = k.val + off) :
    projB off hoff zb Wcb (ix2 k j) = ∑ d : Fin 1024, Wcb (ix2 r d) * zb (ix2 j d) := by
  have e : r = ⟨k.val + off, by have := k.isLt; omega⟩ := Fin.ext hr
  rw [e]
  rfl

/-! ## The tile function and the result array -/

/-- The kernel's loss from one row of each left array, one column of each right array and the two label words:
    each head's logits are the row plus the column. -/
def tileFn : TileFn := fun r0 r1 c2 c3 w4 w5 =>
  PairLoss.lossKerOf (fun k => r0 k + c2 k) (fun k => r1 k + c3 k) w4 w5

/-- The kernel's loss array as one function of the seven arguments: at (i, j) the kernel's loss at the pair (i, j). -/
def lossKerArr (x0 x1 : S2048x1024.Idx → EReal) (x2 : S10x1024.Idx → EReal) (x3 : S10.Idx → EReal)
    (x4 : S10x1024.Idx → EReal) (x5 : S10.Idx → EReal) (x6 : S2048.Idx → BitVec 32) : S2048x2048.Idx → EReal :=
  fun p => PairLoss.lossKerAt x0 x1 x2 x3 x4 x5 x6 ⟨(p 0).val, idx2_lt0 p⟩ ⟨(p 1).val, idx2_lt1 p⟩

/-- The first head's logits: the projections of the stacked arrays at rows 0 … 9. -/
theorem logits_lo (x0 x1 : S2048x1024.Idx → EReal) (x2 x4 : S10x1024.Idx → EReal) (x3 x5 : S10.Idx → EReal)
    (i j : Fin 2048) (k : Fin 10) :
    projA 0 (by decide) x0 (catW x2 x4) (catB x3 x5) (ix2 i k) + projB 0 (by decide) x1 (catW x2 x4) (ix2 k j)
      = PairLoss.logitsKer x0 x1 x2 x3 i j k := by
  rw [projA_at 0 _ x0 _ _ i k ⟨k.val + 0, by omega⟩ rfl, projB_at 0 _ x1 _ k j ⟨k.val + 0, by omega⟩ rfl,
    catB_lo x3 x5 k _ rfl]
  unfold PairLoss.logitsKer
  congr 1
  · congr 1
    exact Finset.sum_congr rfl fun d _ => by rw [catW_lo x2 x4 k d _ rfl]
  · exact Finset.sum_congr rfl fun d _ => by rw [catW_lo x2 x4 k d _ rfl]

/-- The second head's logits: the same at rows 10 … 19. -/
theorem logits_hi (x0 x1 : S2048x1024.Idx → EReal) (x2 x4 : S10x1024.Idx → EReal) (x3 x5 : S10.Idx → EReal)
    (i j : Fin 2048) (k : Fin 10) :
    projA 10 (by decide) x0 (catW x2 x4) (catB x3 x5) (ix2 i k) + projB 10 (by decide) x1 (catW x2 x4) (ix2 k j)
      = PairLoss.logitsKer x0 x1 x4 x5 i j k := by
  rw [projA_at 10 _ x0 _ _ i k ⟨k.val + 10, by omega⟩ rfl, projB_at 10 _ x1 _ k j ⟨k.val + 10, by omega⟩ rfl,
    catB_hi x3 x5 k _ rfl]
  unfold PairLoss.logitsKer
  congr 1
  · congr 1
    exact Finset.sum_congr rfl fun d _ => by rw [catW_hi x2 x4 k d _ rfl]
  · exact Finset.sum_congr rfl fun d _ => by rw [catW_hi x2 x4 k d _ rfl]

/-- The pair array of the projections of the stacked arrays and the laid-out labels is the kernel's loss array. -/
theorem pair_of_proj (x0 x1 : S2048x1024.Idx → EReal) (x2 : S10x1024.Idx → EReal) (x3 : S10.Idx → EReal)
    (x4 : S10x1024.Idx → EReal) (x5 : S10.Idx → EReal) (x6 : S2048.Idx → BitVec 32) :
    pairArr tileFn (projA 0 (by decide) x0 (catW x2 x4) (catB x3 x5)) (projA 10 (by decide) x0 (catW x2 x4) (catB x3 x5))
        (projB 0 (by decide) x1 (catW x2 x4)) (projB 10 (by decide) x1 (catW x2 x4)) (colY x6) (rowY x6)
      = lossKerArr x0 x1 x2 x3 x4 x5 x6 := by
  funext p
  obtain ⟨i, j, rfl⟩ : ∃ (i j : Fin 2048), p = ix2 i j := ⟨p 0, p 1, eq_ix2 p⟩
  rw [pairArr_apply]
  show PairLoss.lossKerOf _ _ _ _ = PairLoss.lossKerOf (PairLoss.logitsKer x0 x1 x2 x3 i j) (PairLoss.logitsKer x0 x1 x4 x5 i j)
    (x6 (ix1 i)) (x6 (ix1 j))
  rw [funext (logits_lo x0 x1 x2 x4 x3 x5 i j), funext (logits_hi x0 x1 x2 x4 x3 x5 i j), colY_at, rowY_at]

/-! ## The buffers at the two regions' entries -/

variable (m : (ℓ : Loc nD τ sig) → Buf (Elt Ideal) ℓ) (ρ : Dev nD → PrngReg)

/-- The seven arguments as launched, at their literal types. -/
abbrev g0 (c : Dev nD) : S2048x1024.Idx → EReal := m ((c.tc : Thread nD τ).loc main_arg0)
abbrev g1 (c : Dev nD) : S2048x1024.Idx → EReal := m ((c.tc : Thread nD τ).loc main_arg1)
abbrev g2 (c : Dev nD) : S10x1024.Idx → EReal := m ((c.tc : Thread nD τ).loc main_arg2)
abbrev g3 (c : Dev nD) : S10.Idx → EReal := m ((c.tc : Thread nD τ).loc main_arg3)
abbrev g4 (c : Dev nD) : S10x1024.Idx → EReal := m ((c.tc : Thread nD τ).loc main_arg4)
abbrev g5 (c : Dev nD) : S10.Idx → EReal := m ((c.tc : Thread nD τ).loc main_arg5)
abbrev g6 (c : Dev nD) : S2048.Idx → BitVec 32 := m ((c.tc : Thread nD τ).loc main_arg6)

/-! ### The first region's four input arrays: two arguments as launched, the stacked weights, the stacked biases -/

theorem v1_0 (c : Dev nD) : (V1 (F := Ideal) m ρ c (Pipeline.arrRef spec0 0) : S2048x1024.Idx → EReal) = g0 m c := by
  show StableHlo.after hostOps0 (W0 m ρ c) (Proc.devRef .tc main_arg0) = _
  after_results

theorem v1_1 (c : Dev nD) : (V1 (F := Ideal) m ρ c (Pipeline.arrRef spec0 1) : S2048x1024.Idx → EReal) = g1 m c := by
  show StableHlo.after hostOps0 (W0 m ρ c) (Proc.devRef .tc main_arg1) = _
  after_results

theorem v1_2 (c : Dev nD) :
    (V1 (F := Ideal) m ρ c (Pipeline.arrRef spec0 2) : S20x1024.Idx → EReal) = catW (g2 m c) (g4 m c) := by
  show StableHlo.after hostOps0 (W0 m ρ c) (Proc.devRef .tc main_v0) = _
  after_results

theorem v1_3 (c : Dev nD) :
    (V1 (F := Ideal) m ρ c (Pipeline.arrRef spec0 3) : S20.Idx → EReal) = catB (g3 m c) (g5 m c) := by
  show StableHlo.after hostOps0 (W0 m ρ c) (Proc.devRef .tc main_v1) = _
  after_results

/-! ### The second region's six input arrays: the first region's four outputs, the label column, the label row -/

/-- The label buffer is no array of the first region and no host operation writes it: it holds the labels as launched. -/
theorem w2_arg6 (c : Dev nD) : (W2 (F := Ideal) m ρ c (Proc.devRef .tc main_arg6) : S2048.Idx → BitVec 32) = g6 m c := by
  refine (W2_of_ne m ρ c main_arg6 (by decide)).trans ?_
  show StableHlo.after hostOps0 (W0 m ρ c) (Proc.devRef .tc main_arg6) = _
  after_results

theorem v3_0 (c : Dev nD) : PairArray.a0 (V3 (F := Ideal) m ρ) c = (dat0 (V1 (F := Ideal) m ρ) c).arrAt 4 cfg0.N := by
  refine Eq.trans ?_ (W2_arr m ρ c 4)
  show StableHlo.after hostOps1 (W2 m ρ c) (Proc.devRef .tc main_v2_0) = _
  after_results

theorem v3_1 (c : Dev nD) : PairArray.a1 (V3 (F := Ideal) m ρ) c = (dat0 (V1 (F := Ideal) m ρ) c).arrAt 5 cfg0.N := by
  refine Eq.trans ?_ (W2_arr m ρ c 5)
  show StableHlo.after hostOps1 (W2 m ρ c) (Proc.devRef .tc main_v2_1) = _
  after_results

theorem v3_2 (c : Dev nD) : PairArray.a2 (V3 (F := Ideal) m ρ) c = (dat0 (V1 (F := Ideal) m ρ) c).arrAt 6 cfg0.N := by
  refine Eq.trans ?_ (W2_arr m ρ c 6)
  show StableHlo.after hostOps1 (W2 m ρ c) (Proc.devRef .tc main_v2_2) = _
  after_results

theorem v3_3 (c : Dev nD) : PairArray.a3 (V3 (F := Ideal) m ρ) c = (dat0 (V1 (F := Ideal) m ρ) c).arrAt 7 cfg0.N := by
  refine Eq.trans ?_ (W2_arr m ρ c 7)
  show StableHlo.after hostOps1 (W2 m ρ c) (Proc.devRef .tc main_v2_3) = _
  after_results

theorem v3_4 (c : Dev nD) : PairArray.a4 (V3 (F := Ideal) m ρ) c = colY (g6 m c) := by
  show StableHlo.after hostOps1 (W2 m ρ c) (Proc.devRef .tc main_v3) = _
  after_results
  rw [w2_arg6 m ρ c]
  rfl

theorem v3_5 (c : Dev nD) : PairArray.a5 (V3 (F := Ideal) m ρ) c = rowY (g6 m c) := by
  show StableHlo.after hostOps1 (W2 m ρ c) (Proc.devRef .tc main_v4) = _
  after_results
  rw [w2_arg6 m ρ c]
  rfl

/-! ### The first region's outputs as functions of the arguments -/

theorem in1_0 (c : Dev nD) : PairArray.a0 (V3 (F := Ideal) m ρ) c
    = projA 0 (by decide) (g0 m c) (catW (g2 m c) (g4 m c)) (catB (g3 m c) (g5 m c)) := by
  rw [v3_0 m ρ c, ProjArrays.arr0_4 (V1 (F := Ideal) m ρ) c, v1_0 m ρ c, v1_2 m ρ c, v1_3 m ρ c]

theorem in1_1 (c : Dev nD) : PairArray.a1 (V3 (F := Ideal) m ρ) c
    = projA 10 (by decide) (g0 m c) (catW (g2 m c) (g4 m c)) (catB (g3 m c) (g5 m c)) := by
  rw [v3_1 m ρ c, ProjArrays.arr0_5 (V1 (F := Ideal) m ρ) c, v1_0 m ρ c, v1_2 m ρ c, v1_3 m ρ c]

theorem in1_2 (c : Dev nD) : PairArray.a2 (V3 (F := Ideal) m ρ) c
    = projB 0 (by decide) (g1 m c) (catW (g2 m c) (g4 m c)) := by
  rw [v3_2 m ρ c, ProjArrays.arr0_6 (V1 (F := Ideal) m ρ) c, v1_1 m ρ c, v1_2 m ρ c]

theorem in1_3 (c : Dev nD) : PairArray.a3 (V3 (F := Ideal) m ρ) c
    = projB 10 (by decide) (g1 m c) (catW (g2 m c) (g4 m c)) := by
  rw [v3_3 m ρ c, ProjArrays.arr0_7 (V1 (F := Ideal) m ρ) c, v1_1 m ρ c, v1_2 m ρ c]

/-! ## The result -/

/-- THE RESULT BUFFER at the last boundary is the kernel's loss array of the seven arguments as launched. -/
theorem W4_v5 (m : (ℓ : Loc nD τ sig) → Buf (Elt Ideal) ℓ) (ρ : Dev nD → PrngReg) (c : Dev nD) :
    W4 (F := Ideal) m ρ c (Proc.devRef .tc main_v5)
      = lossKerArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  refine (W4_arr (F := Ideal) m ρ c 6).trans ?_
  rw [PairArray.arr1_6 (V3 (F := Ideal) m ρ) c tileFn PayTile.out1_6_at,
    in1_0 m ρ c, in1_1 m ρ c, in1_2 m ρ c, in1_3 m ρ c, v3_4 m ρ c, v3_5 m ρ c]
  exact pair_of_proj (g0 m c) (g1 m c) (g2 m c) (g3 m c) (g4 m c) (g5 m c) (g6 m c)

/-- THE RUN: the kernel program leaves, on every core, the kernel's loss array of its arguments in the result buffer
    and the seven arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5)
        = lossKerArr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (W4_v5 m ρ c), (h c).2⟩) (GenRun.run_v5 m ρ)

end Cert.KernelIdeal.KValue

end
-- ==== Proof.RefStages.lean ====
/-
  The reference program's run, read back window by window.

  @main of the reference is a straight line of 146 host operations. Folding all of them at once and
  reading one buffer off the fold asks, for every operation, whether its result buffer is the one
  read: a quadratic number of comparisons of references. Here the line is cut into eight windows at
  the joints of the program (the first head's logits; its log-softmax; the entry taken along the
  label axis and its negation; the same three for the second head; the third gather with the
  exponential weight; the closing arithmetic). The contents after each window are a function of the
  contents before it, and for every buffer a later window still reads there is one lemma giving its
  contents after the window as the stage function of the arguments of @main. A buffer a window does
  not write keeps what it held. The last window's lemma for the result buffer, and the arguments
  unchanged through all eight, are the interface.
-/
import proofs.«430662_j81965155877006_3_alg».proof.Proof.RefRun
import proofs.«430662_j81965155877006_3_alg».proof.Proof.RefRead
import Idealize.ShloMosaic.Lib.Pipeline.Frame

noncomputable section

namespace Cert.ReferenceIdeal.RefStages

open Cert.ReferenceIdeal Cert.ReferenceIdeal.Gen Idealize.ShloMosaic Idealize.ShloMosaic.TcCoe Idealize.SL.Sem Idealize.ShloMosaic.StableHlo

variable {F : FTy → Type} [FloatOps F]

/-! ## The typed references of the called functions

Inside a called function every value is written to its buffer through the transport along the buffer's
type equation and read back through the inverse transport: the pair cancels for any typed reference.
At the function's boundary (an argument read from, the result written to, a buffer of @main) a single
transport is left, the identity at that literal reference. -/

theorem ofBuf_toBuf {T : BufTy} (x : TRef sig T) (v : T.Contents (Elt F)) : x.ofBuf (x.toBuf v) = v := by
  obtain ⟨r, h, hd, hs⟩ := x
  subst h
  rfl

/-! ## Window A: the labels broadcast along both axes, and the first head's logits -/

/-- The first sixteen operations: `y[i]` and `y[j]` broadcast to the pair grid, the two products with the
    first head's weight, their sum over the pair grid, the bias added. -/
abbrev opsA : List (HloOp τ sig (Elt F)) :=
  [ unary main_arg6 main_v0 (broadcastInDim S2048x1x1 ![0] bcast_S2048_S2048x1x1_0 : (⟨S2048, .i32⟩ : BufTy).Contents (Elt F) → (⟨S2048x1x1, .i32⟩ : BufTy).Contents (Elt F)),
    unary main_v0 main_v1 (broadcastInDim S2048x2048x1 ![0, 1, 2] bcast_S2048x1x1_S2048x2048x1_0_1_2 : (⟨S2048x1x1, .i32⟩ : BufTy).Contents (Elt F) → (⟨S2048x2048x1, .i32⟩ : BufTy).Contents (Elt F)),
    unary main_arg6 main_v2 (broadcastInDim S1x2048x1 ![1] bcast_S2048_S1x2048x1_1 : (⟨S2048, .i32⟩ : BufTy).Contents (Elt F) → (⟨S1x2048x1, .i32⟩ : BufTy).Contents (Elt F)),
    unary main_v2 main_v3 (broadcastInDim S2048x2048x1 ![0, 1, 2] bcast_S1x2048x1_S2048x2048x1_0_1_2 : (⟨S1x2048x1, .i32⟩ : BufTy).Contents (Elt F) → (⟨S2048x2048x1, .i32⟩ : BufTy).Contents (Elt F)),
    unary main_arg2 main_v4 ((transpose S1024x10 [1, 0] · transposes_S10x1024_S1024x10_1_0) : (⟨S10x1024, .f32⟩ : BufTy).Contents (Elt F) → (⟨S1024x10, .f32⟩ : BufTy).Contents (Elt F)),
    binary main_arg0 main_v4 main_v5 ((fun l r => Host.dotGeneral dot_S2048x1024_S1024x10_S2048x10_1_0_0_1_n_n none l r) : (⟨S2048x1024, .f32⟩ : BufTy).Contents (Elt F) → (⟨S1024x10, .f32⟩ : BufTy).Contents (Elt F) → (⟨S2048x10, .f32⟩ : BufTy).Contents (Elt F)),
    unary main_v5 main_v6 (broadcastInDim S2048x1x10 ![0, 2] bcast_S2048x10_S2048x1x10_0_2 : (⟨S2048x10, .f32⟩ : BufTy).Contents (Elt F) → (⟨S2048x1x10, .f32⟩ : BufTy).Contents (Elt F)),
    unary main_arg2 main_v7 ((transpose S1024x10 [1, 0] · transposes_S10x1024_S1024x10_1_0) : (⟨S10x1024, .f32⟩ : BufTy).Contents (Elt F) → (⟨S1024x10, .f32⟩ : BufTy).Contents (Elt F)),
    binary main_arg1 main_v7 main_v8 ((fun l r => Host.dotGeneral dot_S2048x1024_S1024x10_S2048x10_1_0_0_1_n_n none l r) : (⟨S2048x1024, .f32⟩ : BufTy).Contents (Elt F) → (⟨S1024x10, .f32⟩ : BufTy).Contents (Elt F) → (⟨S2048x10, .f32⟩ : BufTy).Contents (Elt F)),
    unary main_v8 main_v9 (broadcastInDim S1x2048x10 ![1, 2] bcast_S2048x10_S1x2048x10_1_2 : (⟨S2048x10, .f32⟩ : BufTy).Contents (Elt F) → (⟨S1x2048x10, .f32⟩ : BufTy).Contents (Elt F)),
    unary main_v6 main_v10 (broadcastInDim S2048x2048x10 ![0, 1, 2] bcast_S2048x1x10_S2048x2048x10_0_1_2 : (⟨S2048x1x10, .f32⟩ : BufTy).Contents (Elt F) → (⟨S2048x2048x10, .f32⟩ : BufTy).Contents (Elt F)),
    unary main_v9 main_v11 (broadcastInDim S2048x2048x10 ![0, 1, 2] bcast_S1x2048x10_S2048x2048x10_0_1_2 : (⟨S1x2048x10, .f32⟩ : BufTy).Contents (Elt F) → (⟨S2048x2048x10, .f32⟩ : BufTy).Contents (Elt F)),
    binary main_v10 main_v11 main_v12 (addf : (⟨S2048x2048x10, .f32⟩ : BufTy).Contents (Elt F) → (⟨S2048x2048x10, .f32⟩ : BufTy).Contents (Elt F) → (⟨S2048x2048x10, .f32⟩ : BufTy).Contents (Elt F)),
    unary main_arg3 main_v13 (broadcastInDim S1x1x10 ![2] bcast_S10_S1x1x10_2 : (⟨S10, .f32⟩ : BufTy).Contents (Elt F) → (⟨S1x1x10, .f32⟩ : BufTy).Contents (Elt F)),
    unary main_v13 main_v14 (broadcastInDim S2048x2048x10 ![0, 1, 2] bcast_S1x1x10_S2048x2048x10_0_1_2 : (⟨S1x1x10, .f32⟩ : BufTy).Contents (Elt F) → (⟨S2048x2048x10, .f32⟩ : BufTy).Contents (Elt F)),
    binary main_v12 main_v14 main_v15 (addf : (⟨S2048x2048x10, .f32⟩ : BufTy).Contents (Elt F) → (⟨S2048x2048x10, .f32⟩ : BufTy).Contents (Elt F) → (⟨S2048x2048x10, .f32⟩ : BufTy).Contents (Elt F)) ]

/-- The buffers window A writes. -/
abbrev opsA_W : List (Ref sig .tc) := [main_v0, main_v1, main_v2, main_v3, main_v4, main_v5, main_v6, main_v7, main_v8, main_v9, main_v10, main_v11, main_v12, main_v13, main_v14, main_v15]

theorem opsA_writes : (opsA : List (HloOp τ sig (Elt F))).Forall fun op =>
    op.writes ⊆ (opsA_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, reshape_writes,
      Finset.singleton_subset_iff, List.mem_toFinset]; exact List.mem_map_of_mem (by decide))

/-- The contents after window A. -/
def stA (V0 : Valuation τ sig (Elt F)) : Valuation τ sig (Elt F) := after opsA V0

/-- A buffer window A does not write keeps its contents. -/
theorem stA_keep (V0 : Valuation τ sig (Elt F)) (r : Ref sig .tc) (h : r ∉ opsA_W) :
    stA V0 (Proc.devRef .tc r) = V0 (Proc.devRef .tc r) :=
  after_of_writes_sub opsA _ opsA_writes h

theorem stA_v1 (V0 : Valuation τ sig (Elt F)) :
    stA V0 (no_index (Proc.devRef .tc main_v1)) = ReadP.val_main_v1 (F := F) (V0 (Proc.devRef .tc main_arg6)) := by
  unfold stA
  simp only [opsA]
  after_results_simp
  rfl

theorem stA_v3 (V0 : Valuation τ sig (Elt F)) :
    stA V0 (no_index (Proc.devRef .tc main_v3)) = ReadP.val_main_v3 (F := F) (V0 (Proc.devRef .tc main_arg6)) := by
  unfold stA
  simp only [opsA]
  after_results_simp
  rfl

theorem stA_v15 (V0 : Valuation τ sig (Elt F)) :
    stA V0 (no_index (Proc.devRef .tc main_v15))
      = ReadP.val_main_v15 (F := F) (V0 (Proc.devRef .tc main_arg0)) (V0 (Proc.devRef .tc main_arg1))
          (V0 (Proc.devRef .tc main_arg2)) (V0 (Proc.devRef .tc main_arg3)) := by
  unfold stA
  simp only [opsA]
  after_results_simp
  rfl

/-! ## Window B: the first head's log-softmax -/

/-- The fifteen operations of the first log-softmax: the row maximum subtracted, the exponentials summed,
    the logarithm of the sum subtracted. -/
abbrev opsB : List (HloOp τ sig (Elt F)) :=
  [ TRef.nullary (TRef.of (T := ⟨S_, .f32⟩) main_call0_cst) (constant S_ .f32 0xFF800000#32),
    TRef.binary (TRef.of (T := ⟨S2048x2048x10, .f32⟩) main_v15) (TRef.of (T := ⟨S_, .f32⟩) main_call0_cst) (TRef.of (T := ⟨S2048x2048, .f32⟩) main_call0_v0) (fun x v => Host.reduce FloatOps.maximumf x v reducesTo_S2048x2048x10_S2048x2048_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S2048x2048, .f32⟩) main_call0_v1) (broadcastInDim S2048x2048 ![] bcast_S_S2048x2048),
    TRef.binary (TRef.of (T := ⟨S2048x2048, .f32⟩) main_call0_v1) (TRef.of (T := ⟨S2048x2048, .f32⟩) main_call0_v0) (TRef.of (T := ⟨S2048x2048, .f32⟩) main_call0_v2) maximumf,
    TRef.unary (TRef.of (T := ⟨S2048x2048, .f32⟩) main_call0_v2) (TRef.of (T := ⟨S2048x2048x1, .f32⟩) main_call0_v3) (broadcastInDim S2048x2048x1 ![0, 1] bcast_S2048x2048_S2048x2048x1_0_1),
    TRef.unary (TRef.of (T := ⟨S2048x2048x1, .f32⟩) main_call0_v3) (TRef.of (T := ⟨S2048x2048x10, .f32⟩) main_call0_v4) (broadcastInDim S2048x2048x10 ![0, 1, 2] bcast_S2048x2048x1_S2048x2048x10_0_1_2),
    TRef.binary (TRef.of (T := ⟨S2048x2048x10, .f32⟩) main_v15) (TRef.of (T := ⟨S2048x2048x10, .f32⟩) main_call0_v4) (TRef.of (T := ⟨S2048x2048x10, .f32⟩) main_call0_v5) subf,
    TRef.unary (TRef.of (T := ⟨S2048x2048x10, .f32⟩) main_call0_v5) (TRef.of (T := ⟨S2048x2048x10, .f32⟩) main_call0_v6) Host.exp,
    TRef.nullary (TRef.of (T := ⟨S_, .f32⟩) main_call0_cst_1) (constant S_ .f32 0x00000000#32),
    TRef.binary (TRef.of (T := ⟨S2048x2048x10, .f32⟩) main_call0_v6) (TRef.of (T := ⟨S_, .f32⟩) main_call0_cst_1) (TRef.of (T := ⟨S2048x2048, .f32⟩) main_call0_v7) (fun x v => Host.reduceAdd x v reducesTo_S2048x2048x10_S2048x2048_d2 h_S_),
    TRef.unary (TRef.of (T := ⟨S2048x2048, .f32⟩) main_call0_v7) (TRef.of (T := ⟨S2048x2048x1, .f32⟩) main_call0_v8) (broadcastInDim S2048x2048x1 ![0, 1] bcast_S2048x2048_S2048x2048x1_0_1),
    TRef.unary (TRef.of (T := ⟨S2048x2048x1, .f32⟩) main_call0_v8) (TRef.of (T := ⟨S2048x2048x1, .f32⟩) main_call0_v9) Host.log,
    TRef.unary (TRef.of (T := ⟨S2048x2048x1, .f32⟩) main_call0_v9) (TRef.of (T := ⟨S2048x2048x10, .f32⟩) main_call0_v10) (broadcastInDim S2048x2048x10 ![0, 1, 2] bcast_S2048x2048x1_S2048x2048x10_0_1_2),
    TRef.binary (TRef.of (T := ⟨S2048x2048x10, .f32⟩) main_call0_v5) (TRef.of (T := ⟨S2048x2048x10, .f32⟩) main_call0_v10) (TRef.of (T := ⟨S2048x2048x10, .f32⟩) main_v16) subf ]

/-- The buffers window B writes. -/
abbrev opsB_W : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v16]

theorem opsB_writes : (opsB : List (HloOp τ sig (Elt F))).Forall fun op =>
    op.writes ⊆ (opsB_W.map (Proc.devRef (τ := τ) .tc)).toFinset := by
  simp only [List.Forall]
  refine ⟨?_, ?_, ?_, ?_, ?_, ?_, ?_, ?_, ?_, ?_, ?_, ?_, ?_, ?_, ?_⟩ <;>
    (simp only [nullary_writes, unary_writes, binary_writes, ternary_writes, reshape_writes,
      Finset.singleton_subset_iff, List.mem_toFinset]; exact List.mem_map_of_mem (by decide))

/-- The contents after windows A and B. -/
def stB (V0 : Valuation τ sig (Elt F)) : Valuation τ sig (Elt F) := after opsB (stA V0)

/-- A buffer window B does not write keeps its contents. -/
theorem stB_keep (V0 : Valuation τ sig (Elt F)) (r : Ref sig .tc) (h : r ∉ opsB_W) :
    stB V0 (Proc.devRef .tc r) = stA V0 (Proc.devRef .tc r) :=
  after_of_writes_sub opsB _ opsB_writes h

theorem stB_v1 (V0 : Valuation τ sig (Elt F)) :
    stB V0 (no_index (Proc.devRef .tc main_v1)) = ReadP.val_main_v1 (F := F) (V0 (Proc.devRef .tc main_arg6)) :=
  (stB_keep V0 main_v1 (by decide)).trans (stA_v1 V0)

theorem stB_v3 (V0 : Valuation τ sig (Elt F)) :
    stB V0 (no_index (Proc.devRef .tc main_v3)) = ReadP.val_main_v3 (F := F) (V0 (Proc.devRef .tc main_arg6)) :=
  (stB_keep V0 main_v3 (by decide)).trans (stA_v3 V0)

theorem ofBuf_v15 (u : (main_v15 : Ref sig .tc).ty.Contents (Elt F)) :
    (TRef.of (T := ⟨S2048x2048x10, .f32⟩) main_v15).ofBuf u = u := rfl

theorem toBuf_v16 (u : (⟨S2048x2048x10, .f32⟩ : BufTy).Contents (Elt F)) :
    (TRef.of (T := ⟨S2048x2048x10, .f32⟩) main_v16).toBuf u = u := rfl

attribute [local irreducible] Host.reduce Host.reduceAdd in
set_option maxRecDepth 8192 in
/-- The reductions are kept folded while the two sides are compared: the comparison never looks inside them. -/
theorem stB_v16 (V0 : Valuation τ sig (Elt F)) :
    stB V0 (no_index (Proc.devRef .tc main_v16))
      = ReadP.val_main_v16 (F := F) (V0 (Proc.devRef .tc main_arg0)) (V0 (Proc.devRef .tc main_arg1))
          (V0 (Proc.devRef .tc main_arg2)) (V0 (Proc.devRef .tc main_arg3)) := by
  unfold stB
  simp only [opsB]
  after_results_simp
  simp only [ofBuf_toBuf, ofBuf_v15, toBuf_v16, stA_v15]
  rfl

/-! ## Window C: the first head's log-probability at the label, negated -/

/-- The twenty-two operations of the first gather along the class axis (the label wrapped into range, the
    range test, the gather, not-a-number outside the range), then the trailing unit axis dropped and the sign
    changed. -/
abbrev opsC : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S2048x2048x1, .i32⟩) main_call1_v0) (broadcastInDim S2048x2048x1 ![] bcast_S_S2048x2048x1),
    TRef.binary (TRef.of (T := ⟨S2048x2048x1, .i32⟩) main_v1) (TRef.of (T := ⟨S2048x2048x1, .i32⟩) main_call1_v0) (TRef.of (T := ⟨S2048x2048x1, .i1⟩) main_call1_v1) (cmpi .slt),
    TRef.nullary (TRef.of (T := ⟨S_, .i32⟩) main_call1_c_0) (constantI S_ 32 10#32),
    TRef.unary (TRef.of (T := ⟨S_, .i32⟩) main_call1_c_0) (TRef.of (T := ⟨S2048x2048x1, .i32⟩) main_call1_v2) (broadcastInDim S2048x2048x1 ![] bcast_S_S2048x2048x1),
    TRef.binary (TRef.of (T := ⟨S2048x2048x1, .i32⟩) main_v1) (TRef.of (T := ⟨S2048x2048x1, .i32⟩) main_call1_v2) (TRef.of (T := ⟨S2048x2048x1, .i32⟩) main_call1_v3) addi,
    TRef.ternary (TRef.of (T := ⟨S2048x2048x1, .i1⟩) main_call1_v1) (TRef.of (T := ⟨S2048x2048x1, .i32⟩) main_call1_v3) (TRef.of (T := ⟨S2048x2048x1, .i32⟩) main_v1) (TRef.of (T := ⟨S2048x2048x1, .i32⟩) main_call1_v4) select,
    TRef.reshape (TRef.of (T := ⟨S2048x2048x1, .i32⟩) main_call1_v4) (TRef.of (T := ⟨S2048x2048x1x1, .i32⟩) main_call1_v5) rfl shapeCasts_S2048x2048x1_S2048x2048x1x1,
    TRef.nullary (TRef.of (T := ⟨S1, .i32⟩) main_call1_c_1) (constantI S1 32 9#32),
    TRef.nullary (TRef.of (T := ⟨S_, .i32⟩) main_call1_c_2) (constantI S_ 32 0#32),
    TRef.unary (TRef.of (T := ⟨S_, .i32⟩) main_call1_c_2) (TRef.of (T := ⟨S2048x2048x1x1, .i32⟩) main_call1_v6) (broadcastInDim S2048x2048x1x1 ![] bcast_S_S2048x2048x1x1),
    TRef.binary (TRef.of (T := ⟨S2048x2048x1x1, .i32⟩) main_call1_v5) (TRef.of (T := ⟨S2048x2048x1x1, .i32⟩) main_call1_v6) (TRef.of (T := ⟨S2048x2048x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S2048x2048x1x1, .i32⟩) main_call1_v9) (broadcastInDim S2048x2048x1x1 ![0, 1, 2, 3] bcast_S1x1x1x1_S2048x2048x1x1_0_1_2_3),
    TRef.binary (TRef.of (T := ⟨S2048x2048x1x1, .i32⟩) main_call1_v5) (TRef.of (T := ⟨S2048x2048x1x1, .i32⟩) main_call1_v9) (TRef.of (T := ⟨S2048x2048x1x1, .i1⟩) main_call1_v10) (cmpi .sle),
    TRef.binary (TRef.of (T := ⟨S2048x2048x1x1, .i1⟩) main_call1_v7) (TRef.of (T := ⟨S2048x2048x1x1, .i1⟩) main_call1_v10) (TRef.of (T := ⟨S2048x2048x1x1, .i1⟩) main_call1_v11) andi,
    TRef.nullary (TRef.of (T := ⟨S_, .i1⟩) main_call1_c_3) (constantI S_ 1 1#1),
    TRef.binary (TRef.of (T := ⟨S2048x2048x1x1, .i1⟩) main_call1_v11) (TRef.of (T := ⟨S_, .i1⟩) main_call1_c_3) (TRef.of (T := ⟨S2048x2048x1, .i1⟩) main_call1_v12) (fun x v => Host.reduce IntOp.andi x v reducesTo_S2048x2048x1x1_S2048x2048x1_d3 h_S_),
    TRef.binary (TRef.of (T := ⟨S2048x2048x10, .f32⟩) main_v16) (TRef.of (T := ⟨S2048x2048x1x1, .i32⟩) main_call1_v5) (TRef.of (T := ⟨S2048x2048x1, .f32⟩) main_call1_v13) (fun x i => Host.gather gather_S2048x2048x10_S2048x2048x1x1_S2048x2048x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S2048x2048x1, .f32⟩) main_call1_v14) (broadcastInDim S2048x2048x1 ![] bcast_S_S2048x2048x1),
    TRef.ternary (TRef.of (T := ⟨S2048x2048x1, .i1⟩) main_call1_v12) (TRef.of (T := ⟨S2048x2048x1, .f32⟩) main_call1_v13) (TRef.of (T := ⟨S2048x2048x1, .f32⟩) main_call1_v14) (TRef.of (T := ⟨S2048x2048x1, .f32⟩) main_v17) select,
    reshape main_v17 main_v18 rfl shapeCasts_S2048x2048x1_S2048x2048,
    unary main_v18 main_v19 (Host.negf : (⟨S2048x2048, .f32⟩ : BufTy).Contents (Elt F) → (⟨S2048x2048, .f32⟩ : BufTy).Contents (Elt F)) ]

/-- The buffers window C writes. -/
abbrev opsC_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v17, main_v18, main_v19]

theorem opsC_writes : (opsC : List (HloOp τ sig (Elt F))).Forall fun op =>
    op.writes ⊆ (opsC_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes,
      Finset.singleton_subset_iff, List.mem_toFinset]; exact List.mem_map_of_mem (by decide))

/-- The contents after windows A to C. -/
def stC (V0 : Valuation τ sig (Elt F)) : Valuation τ sig (Elt F) := after opsC (stB V0)

/-- A buffer window C does not write keeps its contents. -/
theorem stC_keep (V0 : Valuation τ sig (Elt F)) (r : Ref sig .tc) (h : r ∉ opsC_W) :
    stC V0 (Proc.devRef .tc r) = stB V0 (Proc.devRef .tc r) :=
  after_of_writes_sub opsC _ opsC_writes h

theorem stC_v1 (V0 : Valuation τ sig (Elt F)) :
    stC V0 (no_index (Proc.devRef .tc main_v1)) = ReadP.val_main_v1 (F := F) (V0 (Proc.devRef .tc main_arg6)) :=
  (stC_keep V0 main_v1 (by decide)).trans (stB_v1 V0)

theorem stC_v3 (V0 : Valuation τ sig (Elt F)) :
    stC V0 (no_index (Proc.devRef .tc main_v3)) = ReadP.val_main_v3 (F := F) (V0 (Proc.devRef .tc main_arg6)) :=
  (stC_keep V0 main_v3 (by decide)).trans (stB_v3 V0)

theorem ofBuf_v1 (u : (main_v1 : Ref sig .tc).ty.Contents (Elt F)) :
    (TRef.of (T := ⟨S2048x2048x1, .i32⟩) main_v1).ofBuf u = u := rfl

theorem ofBuf_v16 (u : (main_v16 : Ref sig .tc).ty.Contents (Elt F)) :
    (TRef.of (T := ⟨S2048x2048x10, .f32⟩) main_v16).ofBuf u = u := rfl

theorem toBuf_call1_v4 (u : (⟨S2048x2048x1, .i32⟩ : BufTy).Contents (Elt F)) :
    (TRef.of (T := ⟨S2048x2048x1, .i32⟩) main_call1_v4).toBuf u = u := rfl

theorem ofBuf_call1_v5 (u : (main_call1_v5 : Ref sig .tc).ty.Contents (Elt F)) :
    (TRef.of (T := ⟨S2048x2048x1x1, .i32⟩) main_call1_v5).ofBuf u = u := rfl

theorem toBuf_v17 (u : (⟨S2048x2048x1, .f32⟩ : BufTy).Contents (Elt F)) :
    (TRef.of (T := ⟨S2048x2048x1, .f32⟩) main_v17).toBuf u = u := rfl

attribute [local irreducible] Host.reduce Host.gather in
set_option maxRecDepth 8192 in
set_option maxHeartbeats 2000000 in
/-- The reduction and the gather are kept folded while the two sides are compared. -/
theorem stC_v19 (V0 : Valuation τ sig (Elt F)) :
    stC V0 (no_index (Proc.devRef .tc main_v19))
      = ReadP.val_main_v19 (F := F) (V0 (Proc.devRef .tc main_arg0)) (V0 (Proc.devRef .tc main_arg1))
          (V0 (Proc.devRef .tc main_arg2)) (V0 (Proc.devRef .tc main_arg3)) (V0 (Proc.devRef .tc main_arg6)) := by
  unfold stC
  simp only [opsC]
  after_results_simp
  simp only [ofBuf_toBuf, ofBuf_v1, ofBuf_v16, toBuf_call1_v4, ofBuf_call1_v5, toBuf_v17, stB_v1, stB_v16]
  rfl

/-! ## Window D: the second head's logits -/

/-- The twelve operations of the second head's logits: as the first head's, with the second weight and bias. -/
abbrev opsD : List (HloOp τ sig (Elt F)) :=
  [ unary main_arg4 main_v20 ((transpose S1024x10 [1, 0] · transposes_S10x1024_S1024x10_1_0) : (⟨S10x1024, .f32⟩ : BufTy).Contents (Elt F) → (⟨S1024x10, .f32⟩ : BufTy).Contents (Elt F)),
    binary main_arg0 main_v20 main_v21 ((fun l r => Host.dotGeneral dot_S2048x1024_S1024x10_S2048x10_1_0_0_1_n_n none l r) : (⟨S2048x1024, .f32⟩ : BufTy).Contents (Elt F) → (⟨S1024x10, .f32⟩ : BufTy).Contents (Elt F) → (⟨S2048x10, .f32⟩ : BufTy).Contents (Elt F)),
    unary main_v21 main_v22 (broadcastInDim S2048x1x10 ![0, 2] bcast_S2048x10_S2048x1x10_0_2 : (⟨S2048x10, .f32⟩ : BufTy).Contents (Elt F) → (⟨S2048x1x10, .f32⟩ : BufTy).Contents (Elt F)),
    unary main_arg4 main_v23 ((transpose S1024x10 [1, 0] · transposes_S10x1024_S1024x10_1_0) : (⟨S10x1024, .f32⟩ : BufTy).Contents (Elt F) → (⟨S1024x10, .f32⟩ : BufTy).Contents (Elt F)),
    binary main_arg1 main_v23 main_v24 ((fun l r => Host.dotGeneral dot_S2048x1024_S1024x10_S2048x10_1_0_0_1_n_n none l r) : (⟨S2048x1024, .f32⟩ : BufTy).Contents (Elt F) → (⟨S1024x10, .f32⟩ : BufTy).Contents (Elt F) → (⟨S2048x10, .f32⟩ : BufTy).Contents (Elt F)),
    unary main_v24 main_v25 (broadcastInDim S1x2048x10 ![1, 2] bcast_S2048x10_S1x2048x10_1_2 : (⟨S2048x10, .f32⟩ : BufTy).Contents (Elt F) → (⟨S1x2048x10, .f32⟩ : BufTy).Contents (Elt F)),
    unary main_v22 main_v26 (broadcastInDim S2048x2048x10 ![0, 1, 2] bcast_S2048x1x10_S2048x2048x10_0_1_2 : (⟨S2048x1x10, .f32⟩ : BufTy).Contents (Elt F) → (⟨S2048x2048x10, .f32⟩ : BufTy).Contents (Elt F)),
    unary main_v25 main_v27 (broadcastInDim S2048x2048x10 ![0, 1, 2] bcast_S1x2048x10_S2048x2048x10_0_1_2 : (⟨S1x2048x10, .f32⟩ : BufTy).Contents (Elt F) → (⟨S2048x2048x10, .f32⟩ : BufTy).Contents (Elt F)),
    binary main_v26 main_v27 main_v28 (addf : (⟨S2048x2048x10, .f32⟩ : BufTy).Contents (Elt F) → (⟨S2048x2048x10, .f32⟩ : BufTy).Contents (Elt F) → (⟨S2048x2048x10, .f32⟩ : BufTy).Contents (Elt F)),
    unary main_arg5 main_v29 (broadcastInDim S1x1x10 ![2] bcast_S10_S1x1x10_2 : (⟨S10, .f32⟩ : BufTy).Contents (Elt F) → (⟨S1x1x10, .f32⟩ : BufTy).Contents (Elt F)),
    unary main_v29 main_v30 (broadcastInDim S2048x2048x10 ![0, 1, 2] bcast_S1x1x10_S2048x2048x10_0_1_2 : (⟨S1x1x10, .f32⟩ : BufTy).Contents (Elt F) → (⟨S2048x2048x10, .f32⟩ : BufTy).Contents (Elt F)),
    binary main_v28 main_v30 main_v31 (addf : (⟨S2048x2048x10, .f32⟩ : BufTy).Contents (Elt F) → (⟨S2048x2048x10, .f32⟩ : BufTy).Contents (Elt F) → (⟨S2048x2048x10, .f32⟩ : BufTy).Contents (Elt F)) ]

/-- The buffers window D writes. -/
abbrev opsD_W : List (Ref sig .tc) := [main_v20, main_v21, main_v22, main_v23, main_v24, main_v25, main_v26, main_v27, main_v28, main_v29, main_v30, main_v31]

theorem opsD_writes : (opsD : List (HloOp τ sig (Elt F))).Forall fun op =>
    op.writes ⊆ (opsD_W.map (Proc.devRef (τ := τ) .tc)).toFinset := by
  simp only [List.Forall]
  refine ⟨?_, ?_, ?_, ?_, ?_, ?_, ?_, ?_, ?_, ?_, ?_, ?_⟩ <;>
    (simp only [nullary_writes, unary_writes, binary_writes, ternary_writes, reshape_writes,
      Finset.singleton_subset_iff, List.mem_toFinset]; exact List.mem_map_of_mem (by decide))

/-- The contents after windows A to D. -/
def stD (V0 : Valuation τ sig (Elt F)) : Valuation τ sig (Elt F) := after opsD (stC V0)

/-- A buffer window D does not write keeps its contents. -/
theorem stD_keep (V0 : Valuation τ sig (Elt F)) (r : Ref sig .tc) (h : r ∉ opsD_W) :
    stD V0 (Proc.devRef .tc r) = stC V0 (Proc.devRef .tc r) :=
  after_of_writes_sub opsD _ opsD_writes h

/-- A buffer none of the windows A to C writes still holds its launch contents after them. -/
theorem stC_init (V0 : Valuation τ sig (Elt F)) (r : Ref sig .tc) (h : r ∉ (opsA_W ++ opsB_W) ++ opsC_W) :
    stC V0 (Proc.devRef .tc r) = V0 (Proc.devRef .tc r) :=
  (stC_keep V0 r fun m => h (List.mem_append_right _ m)).trans
    ((stB_keep V0 r fun m => h (List.mem_append_left _ (List.mem_append_right _ m))).trans
      (stA_keep V0 r fun m => h (List.mem_append_left _ (List.mem_append_left _ m))))

theorem stC_arg0 (V0 : Valuation τ sig (Elt F)) :
    stC V0 (no_index (Proc.devRef .tc main_arg0)) = V0 (Proc.devRef .tc main_arg0) := stC_init V0 main_arg0 (by decide)
theorem stC_arg1 (V0 : Valuation τ sig (Elt F)) :
    stC V0 (no_index (Proc.devRef .tc main_arg1)) = V0 (Proc.devRef .tc main_arg1) := stC_init V0 main_arg1 (by decide)
theorem stC_arg4 (V0 : Valuation τ sig (Elt F)) :
    stC V0 (no_index (Proc.devRef .tc main_arg4)) = V0 (Proc.devRef .tc main_arg4) := stC_init V0 main_arg4 (by decide)
theorem stC_arg5 (V0 : Valuation τ sig (Elt F)) :
    stC V0 (no_index (Proc.devRef .tc main_arg5)) = V0 (Proc.devRef .tc main_arg5) := stC_init V0 main_arg5 (by decide)

theorem stD_v1 (V0 : Valuation τ sig (Elt F)) :
    stD V0 (no_index (Proc.devRef .tc main_v1)) = ReadP.val_main_v1 (F := F) (V0 (Proc.devRef .tc main_arg6)) :=
  (stD_keep V0 main_v1 (by decide)).trans (stC_v1 V0)

theorem stD_v3 (V0 : Valuation τ sig (Elt F)) :
    stD V0 (no_index (Proc.devRef .tc main_v3)) = ReadP.val_main_v3 (F := F) (V0 (Proc.devRef .tc main_arg6)) :=
  (stD_keep V0 main_v3 (by decide)).trans (stC_v3 V0)

theorem stD_v19 (V0 : Valuation τ sig (Elt F)) :
    stD V0 (no_index (Proc.devRef .tc main_v19))
      = ReadP.val_main_v19 (F := F) (V0 (Proc.devRef .tc main_arg0)) (V0 (Proc.devRef .tc main_arg1))
          (V0 (Proc.devRef .tc main_arg2)) (V0 (Proc.devRef .tc main_arg3)) (V0 (Proc.devRef .tc main_arg6)) :=
  (stD_keep V0 main_v19 (by decide)).trans (stC_v19 V0)

theorem stD_v31 (V0 : Valuation τ sig (Elt F)) :
    stD V0 (no_index (Proc.devRef .tc main_v31))
      = ReadP.val_main_v31 (F := F) (V0 (Proc.devRef .tc main_arg0)) (V0 (Proc.devRef .tc main_arg1))
          (V0 (Proc.devRef .tc main_arg4)) (V0 (Proc.devRef .tc main_arg5)) := by
  unfold stD
  simp only [opsD]
  after_results_simp
  simp only [stC_arg0, stC_arg1, stC_arg4, stC_arg5]
  rfl

/-! ## Window E: the second head's log-softmax -/

/-- The fifteen operations of the second log-softmax. -/
abbrev opsE : List (HloOp τ sig (Elt F)) :=
  [ TRef.nullary (TRef.of (T := ⟨S_, .f32⟩) main_call2_cst) (constant S_ .f32 0xFF800000#32),
    TRef.binary (TRef.of (T := ⟨S2048x2048x10, .f32⟩) main_v31) (TRef.of (T := ⟨S_, .f32⟩) main_call2_cst) (TRef.of (T := ⟨S2048x2048, .f32⟩) main_call2_v0) (fun x v => Host.reduce FloatOps.maximumf x v reducesTo_S2048x2048x10_S2048x2048_d2 h_S_),
    TRef.nullary (TRef.of (T := ⟨S_, .f32⟩) main_call2_cst_0) (constant S_ .f32 0xFF800000#32),
    TRef.unary (TRef.of (T := ⟨S_, .f32⟩) main_call2_cst_0) (TRef.of (T := ⟨S2048x2048, .f32⟩) main_call2_v1) (broadcastInDim S2048x2048 ![] bcast_S_S2048x2048),
    TRef.binary (TRef.of (T := ⟨S2048x2048, .f32⟩) main_call2_v1) (TRef.of (T := ⟨S2048x2048, .f32⟩) main_call2_v0) (TRef.of (T := ⟨S2048x2048, .f32⟩) main_call2_v2) maximumf,
    TRef.unary (TRef.of (T := ⟨S2048x2048, .f32⟩) main_call2_v2) (TRef.of (T := ⟨S2048x2048x1, .f32⟩) main_call2_v3) (broadcastInDim S2048x2048x1 ![0, 1] bcast_S2048x2048_S2048x2048x1_0_1),
    TRef.unary (TRef.of (T := ⟨S2048x2048x1, .f32⟩) main_call2_v3) (TRef.of (T := ⟨S2048x2048x10, .f32⟩) main_call2_v4) (broadcastInDim S2048x2048x10 ![0, 1, 2] bcast_S2048x2048x1_S2048x2048x10_0_1_2),
    TRef.binary (TRef.of (T := ⟨S2048x2048x10, .f32⟩) main_v31) (TRef.of (T := ⟨S2048x2048x10, .f32⟩) main_call2_v4) (TRef.of (T := ⟨S2048x2048x10, .f32⟩) main_call2_v5) subf,
    TRef.unary (TRef.of (T := ⟨S2048x2048x10, .f32⟩) main_call2_v5) (TRef.of (T := ⟨S2048x2048x10, .f32⟩) main_call2_v6) Host.exp,
    TRef.nullary (TRef.of (T := ⟨S_, .f32⟩) main_call2_cst_1) (constant S_ .f32 0x00000000#32),
    TRef.binary (TRef.of (T := ⟨S2048x2048x10, .f32⟩) main_call2_v6) (TRef.of (T := ⟨S_, .f32⟩) main_call2_cst_1) (TRef.of (T := ⟨S2048x2048, .f32⟩) main_call2_v7) (fun x v => Host.reduceAdd x v reducesTo_S2048x2048x10_S2048x2048_d2 h_S_),
    TRef.unary (TRef.of (T := ⟨S2048x2048, .f32⟩) main_call2_v7) (TRef.of (T := ⟨S2048x2048x1, .f32⟩) main_call2_v8) (broadcastInDim S2048x2048x1 ![0, 1] bcast_S2048x2048_S2048x2048x1_0_1),
    TRef.unary (TRef.of (T := ⟨S2048x2048x1, .f32⟩) main_call2_v8) (TRef.of (T := ⟨S2048x2048x1, .f32⟩) main_call2_v9) Host.log,
    TRef.unary (TRef.of (T := ⟨S2048x2048x1, .f32⟩) main_call2_v9) (TRef.of (T := ⟨S2048x2048x10, .f32⟩) main_call2_v10) (broadcastInDim S2048x2048x10 ![0, 1, 2] bcast_S2048x2048x1_S2048x2048x10_0_1_2),
    TRef.binary (TRef.of (T := ⟨S2048x2048x10, .f32⟩) main_call2_v5) (TRef.of (T := ⟨S2048x2048x10, .f32⟩) main_call2_v10) (TRef.of (T := ⟨S2048x2048x10, .f32⟩) main_v32) subf ]

/-- The buffers window E writes. -/
abbrev opsE_W : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v32]

theorem opsE_writes : (opsE : List (HloOp τ sig (Elt F))).Forall fun op =>
    op.writes ⊆ (opsE_W.map (Proc.devRef (τ := τ) .tc)).toFinset := by
  simp only [List.Forall]
  refine ⟨?_, ?_, ?_, ?_, ?_, ?_, ?_, ?_, ?_, ?_, ?_, ?_, ?_, ?_, ?_⟩ <;>
    (simp only [nullary_writes, unary_writes, binary_writes, ternary_writes, reshape_writes,
      Finset.singleton_subset_iff, List.mem_toFinset]; exact List.mem_map_of_mem (by decide))

/-- The contents after windows A to E. -/
def stE (V0 : Valuation τ sig (Elt F)) : Valuation τ sig (Elt F) := after opsE (stD V0)

/-- A buffer window E does not write keeps its contents. -/
theorem stE_keep (V0 : Valuation τ sig (Elt F)) (r : Ref sig .tc) (h : r ∉ opsE_W) :
    stE V0 (Proc.devRef .tc r) = stD V0 (Proc.devRef .tc r) :=
  after_of_writes_sub opsE _ opsE_writes h

theorem stE_v1 (V0 : Valuation τ sig (Elt F)) :
    stE V0 (no_index (Proc.devRef .tc main_v1)) = ReadP.val_main_v1 (F := F) (V0 (Proc.devRef .tc main_arg6)) :=
  (stE_keep V0 main_v1 (by decide)).trans (stD_v1 V0)

theorem stE_v3 (V0 : Valuation τ sig (Elt F)) :
    stE V0 (no_index (Proc.devRef .tc main_v3)) = ReadP.val_main_v3 (F := F) (V0 (Proc.devRef .tc main_arg6)) :=
  (stE_keep V0 main_v3 (by decide)).trans (stD_v3 V0)

theorem stE_v19 (V0 : Valuation τ sig (Elt F)) :
    stE V0 (no_index (Proc.devRef .tc main_v19))
      = ReadP.val_main_v19 (F := F) (V0 (Proc.devRef .tc main_arg0)) (V0 (Proc.devRef .tc main_arg1))
          (V0 (Proc.devRef .tc main_arg2)) (V0 (Proc.devRef .tc main_arg3)) (V0 (Proc.devRef .tc main_arg6)) :=
  (stE_keep V0 main_v19 (by decide)).trans (stD_v19 V0)

theorem ofBuf_v31 (u : (main_v31 : Ref sig .tc).ty.Contents (Elt F)) :
    (TRef.of (T := ⟨S2048x2048x10, .f32⟩) main_v31).ofBuf u = u := rfl

theorem toBuf_v32 (u : (⟨S2048x2048x10, .f32⟩ : BufTy).Contents (Elt F)) :
    (TRef.of (T := ⟨S2048x2048x10, .f32⟩) main_v32).toBuf u = u := rfl

attribute [local irreducible] Host.reduce Host.reduceAdd in
set_option maxRecDepth 8192 in
/-- The reductions are kept folded while the two sides are compared. -/
theorem stE_v32 (V0 : Valuation τ sig (Elt F)) :
    stE V0 (no_index (Proc.devRef .tc main_v32))
      = ReadP.val_main_v32 (F := F) (V0 (Proc.devRef .tc main_arg0)) (V0 (Proc.devRef .tc main_arg1))
          (V0 (Proc.devRef .tc main_arg4)) (V0 (Proc.devRef .tc main_arg5)) := by
  unfold stE
  simp only [opsE]
  after_results_simp
  simp only [ofBuf_toBuf, ofBuf_v31, toBuf_v32, stD_v31]
  rfl

/-! ## Window F: the second head's log-probability at the label, negated -/

/-- The twenty-two operations of the second gather (at the row's own label), then the unit axis dropped and the
    sign changed. -/
abbrev opsF : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S2048x2048x1, .i32⟩) main_call3_v0) (broadcastInDim S2048x2048x1 ![] bcast_S_S2048x2048x1),
    TRef.binary (TRef.of (T := ⟨S2048x2048x1, .i32⟩) main_v1) (TRef.of (T := ⟨S2048x2048x1, .i32⟩) main_call3_v0) (TRef.of (T := ⟨S2048x2048x1, .i1⟩) main_call3_v1) (cmpi .slt),
    TRef.nullary (TRef.of (T := ⟨S_, .i32⟩) main_call3_c_0) (constantI S_ 32 10#32),
    TRef.unary (TRef.of (T := ⟨S_, .i32⟩) main_call3_c_0) (TRef.of (T := ⟨S2048x2048x1, .i32⟩) main_call3_v2) (broadcastInDim S2048x2048x1 ![] bcast_S_S2048x2048x1),
    TRef.binary (TRef.of (T := ⟨S2048x2048x1, .i32⟩) main_v1) (TRef.of (T := ⟨S2048x2048x1, .i32⟩) main_call3_v2) (TRef.of (T := ⟨S2048x2048x1, .i32⟩) main_call3_v3) addi,
    TRef.ternary (TRef.of (T := ⟨S2048x2048x1, .i1⟩) main_call3_v1) (TRef.of (T := ⟨S2048x2048x1, .i32⟩) main_call3_v3) (TRef.of (T := ⟨S2048x2048x1, .i32⟩) main_v1) (TRef.of (T := ⟨S2048x2048x1, .i32⟩) main_call3_v4) select,
    TRef.reshape (TRef.of (T := ⟨S2048x2048x1, .i32⟩) main_call3_v4) (TRef.of (T := ⟨S2048x2048x1x1, .i32⟩) main_call3_v5) rfl shapeCasts_S2048x2048x1_S2048x2048x1x1,
    TRef.nullary (TRef.of (T := ⟨S1, .i32⟩) main_call3_c_1) (constantI S1 32 9#32),
    TRef.nullary (TRef.of (T := ⟨S_, .i32⟩) main_call3_c_2) (constantI S_ 32 0#32),
    TRef.unary (TRef.of (T := ⟨S_, .i32⟩) main_call3_c_2) (TRef.of (T := ⟨S2048x2048x1x1, .i32⟩) main_call3_v6) (broadcastInDim S2048x2048x1x1 ![] bcast_S_S2048x2048x1x1),
    TRef.binary (TRef.of (T := ⟨S2048x2048x1x1, .i32⟩) main_call3_v5) (TRef.of (T := ⟨S2048x2048x1x1, .i32⟩) main_call3_v6) (TRef.of (T := ⟨S2048x2048x1x1, .i1⟩) main_call3_v7) (cmpi .sge),
    TRef.unary (TRef.of (T := ⟨S1, .i32⟩) main_call3_c_1) (TRef.of (T := ⟨S1x1x1x1, .i32⟩) main_call3_v8) (broadcastInDim S1x1x1x1 ![3] bcast_S1_S1x1x1x1_3),
    TRef.unary (TRef.of (T := ⟨S1x1x1x1, .i32⟩) main_call3_v8) (TRef.of (T := ⟨S2048x2048x1x1, .i32⟩) main_call3_v9) (broadcastInDim S2048x2048x1x1 ![0, 1, 2, 3] bcast_S1x1x1x1_S2048x2048x1x1_0_1_2_3),
    TRef.binary (TRef.of (T := ⟨S2048x2048x1x1, .i32⟩) main_call3_v5) (TRef.of (T := ⟨S2048x2048x1x1, .i32⟩) main_call3_v9) (TRef.of (T := ⟨S2048x2048x1x1, .i1⟩) main_call3_v10) (cmpi .sle),
    TRef.binary (TRef.of (T := ⟨S2048x2048x1x1, .i1⟩) main_call3_v7) (TRef.of (T := ⟨S2048x2048x1x1, .i1⟩) main_call3_v10) (TRef.of (T := ⟨S2048x2048x1x1, .i1⟩) main_call3_v11) andi,
    TRef.nullary (TRef.of (T := ⟨S_, .i1⟩) main_call3_c_3) (constantI S_ 1 1#1),
    TRef.binary (TRef.of (T := ⟨S2048x2048x1x1, .i1⟩) main_call3_v11) (TRef.of (T := ⟨S_, .i1⟩) main_call3_c_3) (TRef.of (T := ⟨S2048x2048x1, .i1⟩) main_call3_v12) (fun x v => Host.reduce IntOp.andi x v reducesTo_S2048x2048x1x1_S2048x2048x1_d3 h_S_),
    TRef.binary (TRef.of (T := ⟨S2048x2048x10, .f32⟩) main_v32) (TRef.of (T := ⟨S2048x2048x1x1, .i32⟩) main_call3_v5) (TRef.of (T := ⟨S2048x2048x1, .f32⟩) main_call3_v13) (fun x i => Host.gather gather_S2048x2048x10_S2048x2048x1x1_S2048x2048x1_n_2_01_01_2_3_111 x i),
    TRef.nullary (TRef.of (T := ⟨S_, .f32⟩) main_call3_cst) (constant S_ .f32 0x7FC00000#32),
    TRef.unary (TRef.of (T := ⟨S_, .f32⟩) main_call3_cst) (TRef.of (T := ⟨S2048x2048x1, .f32⟩) main_call3_v14) (broadcastInDim S2048x2048x1 ![] bcast_S_S2048x2048x1),
    TRef.ternary (TRef.of (T := ⟨S2048x2048x1, .i1⟩) main_call3_v12) (TRef.of (T := ⟨S2048x2048x1, .f32⟩) main_call3_v13) (TRef.of (T := ⟨S2048x2048x1, .f32⟩) main_call3_v14) (TRef.of (T := ⟨S2048x2048x1, .f32⟩) main_v33) select,
    reshape main_v33 main_v34 rfl shapeCasts_S2048x2048x1_S2048x2048,
    unary main_v34 main_v35 (Host.negf : (⟨S2048x2048, .f32⟩ : BufTy).Contents (Elt F) → (⟨S2048x2048, .f32⟩ : BufTy).Contents (Elt F)) ]

/-- The buffers window F writes. -/
abbrev opsF_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v33, main_v34, main_v35]

theorem opsF_writes : (opsF : List (HloOp τ sig (Elt F))).Forall fun op =>
    op.writes ⊆ (opsF_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes,
      Finset.singleton_subset_iff, List.mem_toFinset]; exact List.mem_map_of_mem (by decide))

/-- The contents after windows A to F. -/
def stF (V0 : Valuation τ sig (Elt F)) : Valuation τ sig (Elt F) := after opsF (stE V0)

/-- A buffer window F does not write keeps its contents. -/
theorem stF_keep (V0 : Valuation τ sig (Elt F)) (r : Ref sig .tc) (h : r ∉ opsF_W) :
    stF V0 (Proc.devRef .tc r) = stE V0 (Proc.devRef .tc r) :=
  after_of_writes_sub opsF _ opsF_writes h

theorem stF_v3 (V0 : Valuation τ sig (Elt F)) :
    stF V0 (no_index (Proc.devRef .tc main_v3)) = ReadP.val_main_v3 (F := F) (V0 (Proc.devRef .tc main_arg6)) :=
  (stF_keep V0 main_v3 (by decide)).trans (stE_v3 V0)

theorem stF_v19 (V0 : Valuation τ sig (Elt F)) :
    stF V0 (no_index (Proc.devRef .tc main_v19))
      = ReadP.val_main_v19 (F := F) (V0 (Proc.devRef .tc main_arg0)) (V0 (Proc.devRef .tc main_arg1))
          (V0 (Proc.devRef .tc main_arg2)) (V0 (Proc.devRef .tc main_arg3)) (V0 (Proc.devRef .tc main_arg6)) :=
  (stF_keep V0 main_v19 (by decide)).trans (stE_v19 V0)

theorem stF_v32 (V0 : Valuation τ sig (Elt F)) :
    stF V0 (no_index (Proc.devRef .tc main_v32))
      = ReadP.val_main_v32 (F := F) (V0 (Proc.devRef .tc main_arg0)) (V0 (Proc.devRef .tc main_arg1))
          (V0 (Proc.devRef .tc main_arg4)) (V0 (Proc.devRef .tc main_arg5)) :=
  (stF_keep V0 main_v32 (by decide)).trans (stE_v32 V0)

theorem ofBuf_v32 (u : (main_v32 : Ref sig .tc).ty.Contents (Elt F)) :
    (TRef.of (T := ⟨S2048x2048x10, .f32⟩) main_v32).ofBuf u = u := rfl

theorem toBuf_call3_v4 (u : (⟨S2048x2048x1, .i32⟩ : BufTy).Contents (Elt F)) :
    (TRef.of (T := ⟨S2048x2048x1, .i32⟩) main_call3_v4).toBuf u = u := rfl

theorem ofBuf_call3_v5 (u : (main_call3_v5 : Ref sig .tc).ty.Contents (Elt F)) :
    (TRef.of (T := ⟨S2048x2048x1x1, .i32⟩) main_call3_v5).ofBuf u = u := rfl

theorem toBuf_v33 (u : (⟨S2048x2048x1, .f32⟩ : BufTy).Contents (Elt F)) :
    (TRef.of (T := ⟨S2048x2048x1, .f32⟩) main_v33).toBuf u = u := rfl

attribute [local irreducible] Host.reduce Host.gather in
set_option maxRecDepth 8192 in
set_option maxHeartbeats 2000000 in
/-- The reduction and the gather are kept folded while the two sides are compared. -/
theorem stF_v35 (V0 : Valuation τ sig (Elt F)) :
    stF V0 (no_index (Proc.devRef .tc main_v35))
      = ReadP.val_main_v35 (F := F) (V0 (Proc.devRef .tc main_arg0)) (V0 (Proc.devRef .tc main_arg1))
          (V0 (Proc.devRef .tc main_arg4)) (V0 (Proc.devRef .tc main_arg5)) (V0 (Proc.devRef .tc main_arg6)) := by
  unfold stF
  simp only [opsF]
  after_results_simp
  simp only [ofBuf_toBuf, ofBuf_v1, ofBuf_v32, toBuf_call3_v4, ofBuf_call3_v5, toBuf_v33, stE_v1, stE_v32]
  rfl

/-! ## Window G: the second head's log-probability at the other row's label -/

/-- The twenty-two operations of the third gather (at the column's label), then the unit axis dropped. -/
abbrev opsG : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S2048x2048x1, .i32⟩) main_call4_v0) (broadcastInDim S2048x2048x1 ![] bcast_S_S2048x2048x1),
    TRef.binary (TRef.of (T := ⟨S2048x2048x1, .i32⟩) main_v3) (TRef.of (T := ⟨S2048x2048x1, .i32⟩) main_call4_v0) (TRef.of (T := ⟨S2048x2048x1, .i1⟩) main_call4_v1) (cmpi .slt),
    TRef.nullary (TRef.of (T := ⟨S_, .i32⟩) main_call4_c_0) (constantI S_ 32 10#32),
    TRef.unary (TRef.of (T := ⟨S_, .i32⟩) main_call4_c_0) (TRef.of (T := ⟨S2048x2048x1, .i32⟩) main_call4_v2) (broadcastInDim S2048x2048x1 ![] bcast_S_S2048x2048x1),
    TRef.binary (TRef.of (T := ⟨S2048x2048x1, .i32⟩) main_v3) (TRef.of (T := ⟨S2048x2048x1, .i32⟩) main_call4_v2) (TRef.of (T := ⟨S2048x2048x1, .i32⟩) main_call4_v3) addi,
    TRef.ternary (TRef.of (T := ⟨S2048x2048x1, .i1⟩) main_call4_v1) (TRef.of (T := ⟨S2048x2048x1, .i32⟩) main_call4_v3) (TRef.of (T := ⟨S2048x2048x1, .i32⟩) main_v3) (TRef.of (T := ⟨S2048x2048x1, .i32⟩) main_call4_v4) select,
    TRef.reshape (TRef.of (T := ⟨S2048x2048x1, .i32⟩) main_call4_v4) (TRef.of (T := ⟨S2048x2048x1x1, .i32⟩) main_call4_v5) rfl shapeCasts_S2048x2048x1_S2048x2048x1x1,
    TRef.nullary (TRef.of (T := ⟨S1, .i32⟩) main_call4_c_1) (constantI S1 32 9#32),
    TRef.nullary (TRef.of (T := ⟨S_, .i32⟩) main_call4_c_2) (constantI S_ 32 0#32),
    TRef.unary (TRef.of (T := ⟨S_, .i32⟩) main_call4_c_2) (TRef.of (T := ⟨S2048x2048x1x1, .i32⟩) main_call4_v6) (broadcastInDim S2048x2048x1x1 ![] bcast_S_S2048x2048x1x1),
    TRef.binary (TRef.of (T := ⟨S2048x2048x1x1, .i32⟩) main_call4_v5) (TRef.of (T := ⟨S2048x2048x1x1, .i32⟩) main_call4_v6) (TRef.of (T := ⟨S2048x2048x1x1, .i1⟩) main_call4_v7) (cmpi .sge),
    TRef.unary (TRef.of (T := ⟨S1, .i32⟩) main_call4_c_1) (TRef.of (T := ⟨S1x1x1x1, .i32⟩) main_call4_v8) (broadcastInDim S1x1x1x1 ![3] bcast_S1_S1x1x1x1_3),
    TRef.unary (TRef.of (T := ⟨S1x1x1x1, .i32⟩) main_call4_v8) (TRef.of (T := ⟨S2048x2048x1x1, .i32⟩) main_call4_v9) (broadcastInDim S2048x2048x1x1 ![0, 1, 2, 3] bcast_S1x1x1x1_S2048x2048x1x1_0_1_2_3),
    TRef.binary (TRef.of (T := ⟨S2048x2048x1x1, .i32⟩) main_call4_v5) (TRef.of (T := ⟨S2048x2048x1x1, .i32⟩) main_call4_v9) (TRef.of (T := ⟨S2048x2048x1x1, .i1⟩) main_call4_v10) (cmpi .sle),
    TRef.binary (TRef.of (T := ⟨S2048x2048x1x1, .i1⟩) main_call4_v7) (TRef.of (T := ⟨S2048x2048x1x1, .i1⟩) main_call4_v10) (TRef.of (T := ⟨S2048x2048x1x1, .i1⟩) main_call4_v11) andi,
    TRef.nullary (TRef.of (T := ⟨S_, .i1⟩) main_call4_c_3) (constantI S_ 1 1#1),
    TRef.binary (TRef.of (T := ⟨S2048x2048x1x1, .i1⟩) main_call4_v11) (TRef.of (T := ⟨S_, .i1⟩) main_call4_c_3) (TRef.of (T := ⟨S2048x2048x1, .i1⟩) main_call4_v12) (fun x v => Host.reduce IntOp.andi x v reducesTo_S2048x2048x1x1_S2048x2048x1_d3 h_S_),
    TRef.binary (TRef.of (T := ⟨S2048x2048x10, .f32⟩) main_v32) (TRef.of (T := ⟨S2048x2048x1x1, .i32⟩) main_call4_v5) (TRef.of (T := ⟨S2048x2048x1, .f32⟩) main_call4_v13) (fun x i => Host.gather gather_S2048x2048x10_S2048x2048x1x1_S2048x2048x1_n_2_01_01_2_3_111 x i),
    TRef.nullary (TRef.of (T := ⟨S_, .f32⟩) main_call4_cst) (constant S_ .f32 0x7FC00000#32),
    TRef.unary (TRef.of (T := ⟨S_, .f32⟩) main_call4_cst) (TRef.of (T := ⟨S2048x2048x1, .f32⟩) main_call4_v14) (broadcastInDim S2048x2048x1 ![] bcast_S_S2048x2048x1),
    TRef.ternary (TRef.of (T := ⟨S2048x2048x1, .i1⟩) main_call4_v12) (TRef.of (T := ⟨S2048x2048x1, .f32⟩) main_call4_v13) (TRef.of (T := ⟨S2048x2048x1, .f32⟩) main_call4_v14) (TRef.of (T := ⟨S2048x2048x1, .f32⟩) main_v36) select,
    reshape main_v36 main_v37 rfl shapeCasts_S2048x2048x1_S2048x2048 ]

/-- The buffers window G writes. -/
abbrev opsG_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v36, main_v37]

theorem opsG_writes : (opsG : List (HloOp τ sig (Elt F))).Forall fun op =>
    op.writes ⊆ (opsG_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes,
      Finset.singleton_subset_iff, List.mem_toFinset]; exact List.mem_map_of_mem (by decide))

/-- The contents after windows A to G. -/
def stG (V0 : Valuation τ sig (Elt F)) : Valuation τ sig (Elt F) := after opsG (stF V0)

/-- A buffer window G does not write keeps its contents. -/
theorem stG_keep (V0 : Valuation τ sig (Elt F)) (r : Ref sig .tc) (h : r ∉ opsG_W) :
    stG V0 (Proc.devRef .tc r) = stF V0 (Proc.devRef .tc r) :=
  after_of_writes_sub opsG _ opsG_writes h

theorem stG_v19 (V0 : Valuation τ sig (Elt F)) :
    stG V0 (no_index (Proc.devRef .tc main_v19))
      = ReadP.val_main_v19 (F := F) (V0 (Proc.devRef .tc main_arg0)) (V0 (Proc.devRef .tc main_arg1))
          (V0 (Proc.devRef .tc main_arg2)) (V0 (Proc.devRef .tc main_arg3)) (V0 (Proc.devRef .tc main_arg6)) :=
  (stG_keep V0 main_v19 (by decide)).trans (stF_v19 V0)

theorem stG_v35 (V0 : Valuation τ sig (Elt F)) :
    stG V0 (no_index (Proc.devRef .tc main_v35))
      = ReadP.val_main_v35 (F := F) (V0 (Proc.devRef .tc main_arg0)) (V0 (Proc.devRef .tc main_arg1))
          (V0 (Proc.devRef .tc main_arg4)) (V0 (Proc.devRef .tc main_arg5)) (V0 (Proc.devRef .tc main_arg6)) :=
  (stG_keep V0 main_v35 (by decide)).trans (stF_v35 V0)

theorem ofBuf_v3 (u : (main_v3 : Ref sig .tc).ty.Contents (Elt F)) :
    (TRef.of (T := ⟨S2048x2048x1, .i32⟩) main_v3).ofBuf u = u := rfl

theorem toBuf_call4_v4 (u : (⟨S2048x2048x1, .i32⟩ : BufTy).Contents (Elt F)) :
    (TRef.of (T := ⟨S2048x2048x1, .i32⟩) main_call4_v4).toBuf u = u := rfl

theorem ofBuf_call4_v5 (u : (main_call4_v5 : Ref sig .tc).ty.Contents (Elt F)) :
    (TRef.of (T := ⟨S2048x2048x1x1, .i32⟩) main_call4_v5).ofBuf u = u := rfl

theorem toBuf_v36 (u : (⟨S2048x2048x1, .f32⟩ : BufTy).Contents (Elt F)) :
    (TRef.of (T := ⟨S2048x2048x1, .f32⟩) main_v36).toBuf u = u := rfl

attribute [local irreducible] Host.reduce Host.gather in
set_option maxRecDepth 8192 in
set_option maxHeartbeats 2000000 in
/-- The reduction and the gather are kept folded while the two sides are compared. -/
theorem stG_v37 (V0 : Valuation τ sig (Elt F)) :
    stG V0 (no_index (Proc.devRef .tc main_v37))
      = ReadP.val_main_v37 (F := F) (V0 (Proc.devRef .tc main_arg0)) (V0 (Proc.devRef .tc main_arg1))
          (V0 (Proc.devRef .tc main_arg4)) (V0 (Proc.devRef .tc main_arg5)) (V0 (Proc.devRef .tc main_arg6)) := by
  unfold stG
  simp only [opsG]
  after_results_simp
  simp only [ofBuf_toBuf, ofBuf_v3, ofBuf_v32, toBuf_call4_v4, ofBuf_call4_v5, toBuf_v36, stF_v3, stF_v32]
  rfl

/-! ## Window H: the weight of the third term and the closing arithmetic -/

/-- The last seventeen operations: the third log-probability negated and weighted by a power of its
    exponential, the ratio of the second negated log-probability to the sum of the two (a small constant added),
    and the combination of the three terms. -/
abbrev opsH : List (HloOp τ sig (Elt F)) :=
  [ unary main_v37 main_v38 (Host.negf : (⟨S2048x2048, .f32⟩ : BufTy).Contents (Elt F) → (⟨S2048x2048, .f32⟩ : BufTy).Contents (Elt F)),
    unary main_v37 main_v39 (Host.exp : (⟨S2048x2048, .f32⟩ : BufTy).Contents (Elt F) → (⟨S2048x2048, .f32⟩ : BufTy).Contents (Elt F)),
    nullary main_cst (constant S_ .f32 0x3F333333#32),
    unary main_cst main_v40 (broadcastInDim S2048x2048 ![] bcast_S_S2048x2048 : (⟨S_, .f32⟩ : BufTy).Contents (Elt F) → (⟨S2048x2048, .f32⟩ : BufTy).Contents (Elt F)),
    binary main_v39 main_v40 main_v41 (Host.powf : (⟨S2048x2048, .f32⟩ : BufTy).Contents (Elt F) → (⟨S2048x2048, .f32⟩ : BufTy).Contents (Elt F) → (⟨S2048x2048, .f32⟩ : BufTy).Contents (Elt F)),
    binary main_v38 main_v41 main_v42 (mulf : (⟨S2048x2048, .f32⟩ : BufTy).Contents (Elt F) → (⟨S2048x2048, .f32⟩ : BufTy).Contents (Elt F) → (⟨S2048x2048, .f32⟩ : BufTy).Contents (Elt F)),
    binary main_v19 main_v35 main_v43 (addf : (⟨S2048x2048, .f32⟩ : BufTy).Contents (Elt F) → (⟨S2048x2048, .f32⟩ : BufTy).Contents (Elt F) → (⟨S2048x2048, .f32⟩ : BufTy).Contents (Elt F)),
    nullary main_cst_0 (constant S_ .f32 0x322BCC77#32),
    unary main_cst_0 main_v44 (broadcastInDim S2048x2048 ![] bcast_S_S2048x2048 : (⟨S_, .f32⟩ : BufTy).Contents (Elt F) → (⟨S2048x2048, .f32⟩ : BufTy).Contents (Elt F)),
    binary main_v43 main_v44 main_v45 (addf : (⟨S2048x2048, .f32⟩ : BufTy).Contents (Elt F) → (⟨S2048x2048, .f32⟩ : BufTy).Contents (Elt F) → (⟨S2048x2048, .f32⟩ : BufTy).Contents (Elt F)),
    binary main_v35 main_v45 main_v46 (Host.divf : (⟨S2048x2048, .f32⟩ : BufTy).Contents (Elt F) → (⟨S2048x2048, .f32⟩ : BufTy).Contents (Elt F) → (⟨S2048x2048, .f32⟩ : BufTy).Contents (Elt F)),
    binary main_v46 main_v19 main_v47 (mulf : (⟨S2048x2048, .f32⟩ : BufTy).Contents (Elt F) → (⟨S2048x2048, .f32⟩ : BufTy).Contents (Elt F) → (⟨S2048x2048, .f32⟩ : BufTy).Contents (Elt F)),
    nullary main_cst_1 (constant S_ .f32 0x3F800000#32),
    unary main_cst_1 main_v48 (broadcastInDim S2048x2048 ![] bcast_S_S2048x2048 : (⟨S_, .f32⟩ : BufTy).Contents (Elt F) → (⟨S2048x2048, .f32⟩ : BufTy).Contents (Elt F)),
    binary main_v48 main_v46 main_v49 (subf : (⟨S2048x2048, .f32⟩ : BufTy).Contents (Elt F) → (⟨S2048x2048, .f32⟩ : BufTy).Contents (Elt F) → (⟨S2048x2048, .f32⟩ : BufTy).Contents (Elt F)),
    binary main_v49 main_v42 main_v50 (mulf : (⟨S2048x2048, .f32⟩ : BufTy).Contents (Elt F) → (⟨S2048x2048, .f32⟩ : BufTy).Contents (Elt F) → (⟨S2048x2048, .f32⟩ : BufTy).Contents (Elt F)),
    binary main_v47 main_v50 main_v51 (addf : (⟨S2048x2048, .f32⟩ : BufTy).Contents (Elt F) → (⟨S2048x2048, .f32⟩ : BufTy).Contents (Elt F) → (⟨S2048x2048, .f32⟩ : BufTy).Contents (Elt F)) ]

/-- The buffers window H writes. -/
abbrev opsH_W : List (Ref sig .tc) := [main_v38, main_v39, main_cst, main_v40, main_v41, main_v42, main_v43, main_cst_0, main_v44, main_v45, main_v46, main_v47, main_cst_1, main_v48, main_v49, main_v50, main_v51]

theorem opsH_writes : (opsH : List (HloOp τ sig (Elt F))).Forall fun op =>
    op.writes ⊆ (opsH_W.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, reshape_writes,
      Finset.singleton_subset_iff, List.mem_toFinset]; exact List.mem_map_of_mem (by decide))

/-- The contents after all eight windows. -/
def stH (V0 : Valuation τ sig (Elt F)) : Valuation τ sig (Elt F) := after opsH (stG V0)

/-- A buffer window H does not write keeps its contents. -/
theorem stH_keep (V0 : Valuation τ sig (Elt F)) (r : Ref sig .tc) (h : r ∉ opsH_W) :
    stH V0 (Proc.devRef .tc r) = stG V0 (Proc.devRef .tc r) :=
  after_of_writes_sub opsH _ opsH_writes h

theorem stH_v51 (V0 : Valuation τ sig (Elt F)) :
    stH V0 (no_index (Proc.devRef .tc main_v51))
      = ReadP.val_main_v51 (F := F) (V0 (Proc.devRef .tc main_arg0)) (V0 (Proc.devRef .tc main_arg1))
          (V0 (Proc.devRef .tc main_arg2)) (V0 (Proc.devRef .tc main_arg3)) (V0 (Proc.devRef .tc main_arg4))
          (V0 (Proc.devRef .tc main_arg5)) (V0 (Proc.devRef .tc main_arg6)) := by
  unfold stH
  simp only [opsH]
  after_results_simp
  simp only [stG_v19, stG_v35, stG_v37]
  rfl

/-- A buffer none of the eight windows writes still holds its launch contents at the end. -/
theorem stH_init (V0 : Valuation τ sig (Elt F)) (r : Ref sig .tc)
    (h : r ∉ ((((opsA_W ++ opsB_W) ++ opsC_W) ++ opsD_W) ++ opsE_W) ++ ((opsF_W ++ opsG_W) ++ opsH_W)) :
    stH V0 (Proc.devRef .tc r) = V0 (Proc.devRef .tc r) :=
  have hL : r ∉ (((opsA_W ++ opsB_W) ++ opsC_W) ++ opsD_W) ++ opsE_W := fun m => h (List.mem_append_left _ m)
  have hR : r ∉ (opsF_W ++ opsG_W) ++ opsH_W := fun m => h (List.mem_append_right _ m)
  (stH_keep V0 r fun m => hR (List.mem_append_right _ m)).trans
    ((stG_keep V0 r fun m => hR (List.mem_append_left _ (List.mem_append_right _ m))).trans
      ((stF_keep V0 r fun m => hR (List.mem_append_left _ (List.mem_append_left _ m))).trans
        ((stE_keep V0 r fun m => hL (List.mem_append_right _ m)).trans
          ((stD_keep V0 r fun m => hL (List.mem_append_left _ (List.mem_append_right _ m))).trans
            (stC_init V0 r fun m => hL (List.mem_append_left _ (List.mem_append_left _ m)))))))

/-! ## The whole line -/

/-- The 146 operations are the eight windows in a row. -/
theorem ops_cut : ValueP.ops (F := F)
    = opsA ++ (opsB ++ (opsC ++ (opsD ++ (opsE ++ (opsF ++ (opsG ++ opsH)))))) := rfl

/-- The contents after the whole line are the contents after the eighth window. -/
theorem after_cut (V0 : Valuation τ sig (Elt F)) : after (ValueP.ops (F := F)) V0 = stH V0 := by
  simp only [ops_cut, StableHlo.after_append]
  rfl

/-- The result buffer after the whole line: the last stage function of the arguments' launch contents. -/
theorem after_ops_v51 (V0 : Valuation τ sig (Elt F)) :
    after (ValueP.ops (F := F)) V0 (Proc.devRef .tc main_v51)
      = ReadP.val_main_v51 (F := F) (V0 (Proc.devRef .tc main_arg0)) (V0 (Proc.devRef .tc main_arg1))
          (V0 (Proc.devRef .tc main_arg2)) (V0 (Proc.devRef .tc main_arg3)) (V0 (Proc.devRef .tc main_arg4))
          (V0 (Proc.devRef .tc main_arg5)) (V0 (Proc.devRef .tc main_arg6)) := by
  rw [after_cut]
  exact stH_v51 V0

/-- No operation writes an argument: each holds its launch contents after the whole line. -/
theorem after_ops_arg0 (V0 : Valuation τ sig (Elt F)) :
    after (ValueP.ops (F := F)) V0 (Proc.devRef .tc main_arg0) = V0 (Proc.devRef .tc main_arg0) := by
  rw [after_cut]; exact stH_init V0 main_arg0 (by decide)
theorem after_ops_arg1 (V0 : Valuation τ sig (Elt F)) :
    after (ValueP.ops (F := F)) V0 (Proc.devRef .tc main_arg1) = V0 (Proc.devRef .tc main_arg1) := by
  rw [after_cut]; exact stH_init V0 main_arg1 (by decide)
theorem after_ops_arg2 (V0 : Valuation τ sig (Elt F)) :
    after (ValueP.ops (F := F)) V0 (Proc.devRef .tc main_arg2) = V0 (Proc.devRef .tc main_arg2) := by
  rw [after_cut]; exact stH_init V0 main_arg2 (by decide)
theorem after_ops_arg3 (V0 : Valuation τ sig (Elt F)) :
    after (ValueP.ops (F := F)) V0 (Proc.devRef .tc main_arg3) = V0 (Proc.devRef .tc main_arg3) := by
  rw [after_cut]; exact stH_init V0 main_arg3 (by decide)
theorem after_ops_arg4 (V0 : Valuation τ sig (Elt F)) :
    after (ValueP.ops (F := F)) V0 (Proc.devRef .tc main_arg4) = V0 (Proc.devRef .tc main_arg4) := by
  rw [after_cut]; exact stH_init V0 main_arg4 (by decide)
theorem after_ops_arg5 (V0 : Valuation τ sig (Elt F)) :
    after (ValueP.ops (F := F)) V0 (Proc.devRef .tc main_arg5) = V0 (Proc.devRef .tc main_arg5) := by
  rw [after_cut]; exact stH_init V0 main_arg5 (by decide)
theorem after_ops_arg6 (V0 : Valuation τ sig (Elt F)) :
    after (ValueP.ops (F := F)) V0 (Proc.devRef .tc main_arg6) = V0 (Proc.devRef .tc main_arg6) := by
  rw [after_cut]; exact stH_init V0 main_arg6 (by decide)

end Cert.ReferenceIdeal.RefStages

end
-- ==== Proof.RefLogSoftmax.lean ====
/-
  The reference's log-softmax stage, read at one index.

  For each of the two heads the reference forms the logits
      l k = ((z_c W^T)[i,k] + (z_b W^T)[j,k]) + b[k]
  as a [2048, 2048, 10] array, and then the shifted log-softmax
      (l k - M) - log (sum_k' exp (l k' - M)),   M = max_k' l k'  (the fold of max from the bottom element).
  This module reads both stages at the index (i, j, k).
-/
import proofs.«430662_j81965155877006_3_alg».proof.Proof.Spec
import proofs.«430662_j81965155877006_3_alg».proof.Proof.RefRead

noncomputable section

open scoped BigOperators
open Cert.ReferenceIdeal Cert.ReferenceIdeal.Gen Idealize.ShloMosaic Idealize.ShloMosaic.ValueIdx Idealize.SL.Sem

namespace Cert.ReferenceIdeal.RefValue

/-! ## Shared facts -/

/-- The class axis is the one reduced. -/
theorem reduces_d2 : S2048x2048x10.Reduces [2] S2048x2048 := by decide

/-- The index over (i, j) with class k put back on the reduced axis is (i, j, k). -/
theorem lift_ix3 (i j : Fin 2048) (k : Fin (S2048x2048x10.size 2)) :
    reduces_d2.lift (ix2 i j) k = ix3 i j (⟨k.val, k.isLt⟩ : Fin 10) := by
  funext c; apply Fin.ext
  match c with
  | ⟨0, _⟩ => rfl
  | ⟨1, _⟩ => rfl
  | ⟨2, _⟩ => rfl

/-- The bit pattern of minus infinity is the bottom element. -/
theorem ofBits_negInf : Ideal.ofBits .f32 0xFF800000#32 = (⊥ : EReal) := by
  simp [Ideal.ofBits, Ideal.ieee]

/-! ## The first head's logits -/

section Head1
variable (x0 x1 : (⟨S2048x1024, .f32⟩ : BufTy).Contents (Elt Ideal)) (x2 : (⟨S10x1024, .f32⟩ : BufTy).Contents (Elt Ideal))
  (x3 : (⟨S10, .f32⟩ : BufTy).Contents (Elt Ideal))

/-- The product z_c W^T at (i, k): the sum over the 1024 features. -/
theorem v5_at (i : Fin 2048) (k : Fin 10) :
    ReadP.val_main_v5 (F := Ideal) x0 x2 (ix2 i k) = ∑ d : Fin 1024, x0 (ix2 i d) * x2 (ix2 k d) := by
  rw [ReadP.val_main_v5_apply]
  refine Finset.sum_congr rfl fun d _ => ?_
  rw [ReadP.val_main_v4_apply]
  have e1 : ReadP.lidx_main_v5 (ix2 i k) d = ix2 i d :=
    funext fun a => Fin.ext (by match a with | ⟨0, _⟩ => rfl | ⟨1, _⟩ => rfl)
  have e2 : ReadP.idx_main_v4 (ReadP.ridx_main_v5 (ix2 i k) d) = ix2 k d :=
    funext fun a => Fin.ext (by match a with | ⟨0, _⟩ => rfl | ⟨1, _⟩ => rfl)
  rw [e1, e2]

/-- The product z_b W^T at (j, k). -/
theorem v8_at (j : Fin 2048) (k : Fin 10) :
    ReadP.val_main_v8 (F := Ideal) x1 x2 (ix2 j k) = ∑ d : Fin 1024, x1 (ix2 j d) * x2 (ix2 k d) := by
  rw [ReadP.val_main_v8_apply]
  refine Finset.sum_congr rfl fun d _ => ?_
  rw [ReadP.val_main_v7_apply]
  have e1 : ReadP.lidx_main_v8 (ix2 j k) d = ix2 j d :=
    funext fun a => Fin.ext (by match a with | ⟨0, _⟩ => rfl | ⟨1, _⟩ => rfl)
  have e2 : ReadP.idx_main_v7 (ReadP.ridx_main_v8 (ix2 j k) d) = ix2 k d :=
    funext fun a => Fin.ext (by match a with | ⟨0, _⟩ => rfl | ⟨1, _⟩ => rfl)
  rw [e1, e2]

/-- The logits at (i, j, k). -/
theorem v15_at (i j : Fin 2048) (k : Fin 10) :
    ReadP.val_main_v15 (F := Ideal) x0 x1 x2 x3 (ix3 i j k) = PairLoss.logitsRef x0 x1 x2 x3 i j k := by
  rw [ReadP.val_main_v15_apply, ReadP.val_main_v12_apply, ReadP.val_main_v10_apply, ReadP.val_main_v6_apply,
    ReadP.val_main_v11_apply, ReadP.val_main_v9_apply, ReadP.val_main_v14_apply, ReadP.val_main_v13_apply]
  have e1 : ReadP.idx_main_v6 (ReadP.idx_main_v10 (ix3 i j k)) = ix2 i k :=
    funext fun a => Fin.ext (by match a with | ⟨0, _⟩ => rfl | ⟨1, _⟩ => rfl)
  have e2 : ReadP.idx_main_v9 (ReadP.idx_main_v11 (ix3 i j k)) = ix2 j k :=
    funext fun a => Fin.ext (by match a with | ⟨0, _⟩ => rfl | ⟨1, _⟩ => rfl)
  have e3 : ReadP.idx_main_v13 (ReadP.idx_main_v14 (ix3 i j k)) = ix1 k :=
    funext fun a => Fin.ext (by match a with | ⟨0, _⟩ => rfl)
  rw [e1, e2, e3, v5_at, v8_at]
  rfl

/-! ## The first head's log-softmax -/

/-- The maximum over the classes at (i, j), from minus infinity. -/
theorem call0_v0_at (i j : Fin 2048) :
    ReadP.val_main_call0_v0 (F := Ideal) x0 x1 x2 x3 (ix2 i j) = PairLoss.rowMax (PairLoss.logitsRef x0 x1 x2 x3 i j) := by
  unfold ReadP.val_main_call0_v0
  rw [Host.reduce_eq_fold_single FloatOps.maximumf _ _ reducesTo_S2048x2048x10_S2048x2048_d2 reduces_d2 h_S_]
  have hf : (ReadP.val_main_v15 (F := Ideal) x0 x1 x2 x3 ∘ reduces_d2.lift (ix2 i j)) = PairLoss.logitsRef x0 x1 x2 x3 i j :=
    funext fun k => by
      show ReadP.val_main_v15 (F := Ideal) x0 x1 x2 x3 (reduces_d2.lift (ix2 i j) k) = _
      rw [lift_ix3, v15_at]
      rfl
  have hi : ReadP.val_main_call0_cst (F := Ideal) (Shape.Idx.first h_S_) = (⊥ : EReal) := by
    rw [ReadP.val_main_call0_cst_apply]; exact ofBits_negInf
  rw [hf, hi]
  rfl

/-- The maximum with the broadcast minus infinity changes nothing. -/
theorem call0_v2_at (i j : Fin 2048) :
    ReadP.val_main_call0_v2 (F := Ideal) x0 x1 x2 x3 (ix2 i j) = PairLoss.rowMax (PairLoss.logitsRef x0 x1 x2 x3 i j) := by
  rw [ReadP.val_main_call0_v2_apply, ReadP.val_main_call0_v1_apply, ReadP.val_main_call0_cst_0_apply, call0_v0_at]
  show max (Ideal.ofBits .f32 0xFF800000#32) _ = _
  rw [ofBits_negInf]
  exact max_eq_right bot_le

/-- The shifted logit at (i, j, k). -/
theorem call0_v5_at (i j : Fin 2048) (k : Fin 10) :
    ReadP.val_main_call0_v5 (F := Ideal) x0 x1 x2 x3 (ix3 i j k)
      = PairLoss.logitsRef x0 x1 x2 x3 i j k - PairLoss.rowMax (PairLoss.logitsRef x0 x1 x2 x3 i j) := by
  rw [ReadP.val_main_call0_v5_apply, ReadP.val_main_call0_v4_apply, ReadP.val_main_call0_v3_apply]
  have e : ReadP.idx_main_call0_v3 (ReadP.idx_main_call0_v4 (ix3 i j k)) = ix2 i j :=
    funext fun a => Fin.ext (by match a with | ⟨0, _⟩ => rfl | ⟨1, _⟩ => rfl)
  rw [e, call0_v2_at, v15_at]
  rfl

/-- The sum over the classes of the exponentials of the shifted logits at (i, j), from zero. -/
theorem call0_v7_at (i j : Fin 2048) :
    ReadP.val_main_call0_v7 (F := Ideal) x0 x1 x2 x3 (ix2 i j)
      = ∑ k : Fin 10, Ideal.exp (PairLoss.logitsRef x0 x1 x2 x3 i j k - PairLoss.rowMax (PairLoss.logitsRef x0 x1 x2 x3 i j)) := by
  rw [ReadP.val_main_call0_v7_apply, ReadP.val_main_call0_cst_1_apply]
  show Ideal.ofBits .f32 0x00000000#32 + _ = _
  rw [Ideal.ofBits_zero_f32, zero_add]
  refine Finset.sum_congr rfl fun k _ => ?_
  rw [ReadP.val_main_call0_v6_apply]
  have e : ReadP.idx_main_call0_v7 (ix2 i j) k = ix3 i j k :=
    funext fun a => Fin.ext (by match a with | ⟨0, _⟩ => rfl | ⟨1, _⟩ => rfl | ⟨2, _⟩ => rfl)
  rw [e, call0_v5_at]
  rfl

/-- The first head's log-softmax at (i, j, k). -/
theorem v16_at (i j : Fin 2048) (k : Fin 10) :
    ReadP.val_main_v16 (F := Ideal) x0 x1 x2 x3 (ix3 i j k) = PairLoss.logSoftmax (PairLoss.logitsRef x0 x1 x2 x3 i j) k := by
  rw [ReadP.val_main_v16_apply, ReadP.val_main_call0_v10_apply, ReadP.val_main_call0_v9_apply, ReadP.val_main_call0_v8_apply]
  have e : ReadP.idx_main_call0_v8 (ReadP.idx_main_call0_v10 (ix3 i j k)) = ix2 i j :=
    funext fun a => Fin.ext (by match a with | ⟨0, _⟩ => rfl | ⟨1, _⟩ => rfl)
  rw [e, call0_v7_at, call0_v5_at]
  rfl

end Head1

/-! ## The second head's logits -/

section Head2
variable (x0 x1 : (⟨S2048x1024, .f32⟩ : BufTy).Contents (Elt Ideal)) (x4 : (⟨S10x1024, .f32⟩ : BufTy).Contents (Elt Ideal))
  (x5 : (⟨S10, .f32⟩ : BufTy).Contents (Elt Ideal))

/-- The product z_c W^T at (i, k): the sum over the 1024 features. -/
theorem v21_at (i : Fin 2048) (k : Fin 10) :
    ReadP.val_main_v21 (F := Ideal) x0 x4 (ix2 i k) = ∑ d : Fin 1024, x0 (ix2 i d) * x4 (ix2 k d) := by
  rw [ReadP.val_main_v21_apply]
  refine Finset.sum_congr rfl fun d _ => ?_
  rw [ReadP.val_main_v20_apply]
  have e1 : ReadP.lidx_main_v21 (ix2 i k) d = ix2 i d :=
    funext fun a => Fin.ext (by match a with | ⟨0, _⟩ => rfl | ⟨1, _⟩ => rfl)
  have e2 : ReadP.idx_main_v20 (ReadP.ridx_main_v21 (ix2 i k) d) = ix2 k d :=
    funext fun a => Fin.ext (by match a with | ⟨0, _⟩ => rfl | ⟨1, _⟩ => rfl)
  rw [e1, e2]

/-- The product z_b W^T at (j, k). -/
theorem v24_at (j : Fin 2048) (k : Fin 10) :
    ReadP.val_main_v24 (F := Ideal) x1 x4 (ix2 j k) = ∑ d : Fin 1024, x1 (ix2 j d) * x4 (ix2 k d) := by
  rw [ReadP.val_main_v24_apply]
  refine Finset.sum_congr rfl fun d _ => ?_
  rw [ReadP.val_main_v23_apply]
  have e1 : ReadP.lidx_main_v24 (ix2 j k) d = ix2 j d :=
    funext fun a => Fin.ext (by match a with | ⟨0, _⟩ => rfl | ⟨1, _⟩ => rfl)
  have e2 : ReadP.idx_main_v23 (ReadP.ridx_main_v24 (ix2 j k) d) = ix2 k d :=
    funext fun a => Fin.ext (by match a with | ⟨0, _⟩ => rfl | ⟨1, _⟩ => rfl)
  rw [e1, e2]

/-- The logits at (i, j, k). -/
theorem v31_at (i j : Fin 2048) (k : Fin 10) :
    ReadP.val_main_v31 (F := Ideal) x0 x1 x4 x5 (ix3 i j k) = PairLoss.logitsRef x0 x1 x4 x5 i j k := by
  rw [ReadP.val_main_v31_apply, ReadP.val_main_v28_apply, ReadP.val_main_v26_apply, ReadP.val_main_v22_apply,
    ReadP.val_main_v27_apply, ReadP.val_main_v25_apply, ReadP.val_main_v30_apply, ReadP.val_main_v29_apply]
  have e1 : ReadP.idx_main_v22 (ReadP.idx_main_v26 (ix3 i j k)) = ix2 i k :=
    funext fun a => Fin.ext (by match a with | ⟨0, _⟩ => rfl | ⟨1, _⟩ => rfl)
  have e2 : ReadP.idx_main_v25 (ReadP.idx_main_v27 (ix3 i j k)) = ix2 j k :=
    funext fun a => Fin.ext (by match a with | ⟨0, _⟩ => rfl | ⟨1, _⟩ => rfl)
  have e3 : ReadP.idx_main_v29 (ReadP.idx_main_v30 (ix3 i j k)) = ix1 k :=
    funext fun a => Fin.ext (by match a with | ⟨0, _⟩ => rfl)
  rw [e1, e2, e3, v21_at, v24_at]
  rfl

/-! ## The second head's log-softmax -/

/-- The maximum over the classes at (i, j), from minus infinity. -/
theorem call2_v0_at (i j : Fin 2048) :
    ReadP.val_main_call2_v0 (F := Ideal) x0 x1 x4 x5 (ix2 i j) = PairLoss.rowMax (PairLoss.logitsRef x0 x1 x4 x5 i j) := by
  unfold ReadP.val_main_call2_v0
  rw [Host.reduce_eq_fold_single FloatOps.maximumf _ _ reducesTo_S2048x2048x10_S2048x2048_d2 reduces_d2 h_S_]
  have hf : (ReadP.val_main_v31 (F := Ideal) x0 x1 x4 x5 ∘ reduces_d2.lift (ix2 i j)) = PairLoss.logitsRef x0 x1 x4 x5 i j :=
    funext fun k => by
      show ReadP.val_main_v31 (F := Ideal) x0 x1 x4 x5 (reduces_d2.lift (ix2 i j) k) = _
      rw [lift_ix3, v31_at]
      rfl
  have hi : ReadP.val_main_call2_cst (F := Ideal) (Shape.Idx.first h_S_) = (⊥ : EReal) := by
    rw [ReadP.val_main_call2_cst_apply]; exact ofBits_negInf
  rw [hf, hi]
  rfl

/-- The maximum with the broadcast minus infinity changes nothing. -/
theorem call2_v2_at (i j : Fin 2048) :
    ReadP.val_main_call2_v2 (F := Ideal) x0 x1 x4 x5 (ix2 i j) = PairLoss.rowMax (PairLoss.logitsRef x0 x1 x4 x5 i j) := by
  rw [ReadP.val_main_call2_v2_apply, ReadP.val_main_call2_v1_apply, ReadP.val_main_call2_cst_0_apply, call2_v0_at]
  show max (Ideal.ofBits .f32 0xFF800000#32) _ = _
  rw [ofBits_negInf]
  exact max_eq_right bot_le

/-- The shifted logit at (i, j, k). -/
theorem call2_v5_at (i j : Fin 2048) (k : Fin 10) :
    ReadP.val_main_call2_v5 (F := Ideal) x0 x1 x4 x5 (ix3 i j k)
      = PairLoss.logitsRef x0 x1 x4 x5 i j k - PairLoss.rowMax (PairLoss.logitsRef x0 x1 x4 x5 i j) := by
  rw [ReadP.val_main_call2_v5_apply, ReadP.val_main_call2_v4_apply, ReadP.val_main_call2_v3_apply]
  have e : ReadP.idx_main_call2_v3 (ReadP.idx_main_call2_v4 (ix3 i j k)) = ix2 i j :=
    funext fun a => Fin.ext (by match a with | ⟨0, _⟩ => rfl | ⟨1, _⟩ => rfl)
  rw [e, call2_v2_at, v31_at]
  rfl

/-- The sum over the classes of the exponentials of the shifted logits at (i, j), from zero. -/
theorem call2_v7_at (i j : Fin 2048) :
    ReadP.val_main_call2_v7 (F := Ideal) x0 x1 x4 x5 (ix2 i j)
      = ∑ k : Fin 10, Ideal.exp (PairLoss.logitsRef x0 x1 x4 x5 i j k - PairLoss.rowMax (PairLoss.logitsRef x0 x1 x4 x5 i j)) := by
  rw [ReadP.val_main_call2_v7_apply, ReadP.val_main_call2_cst_1_apply]
  show Ideal.ofBits .f32 0x00000000#32 + _ = _
  rw [Ideal.ofBits_zero_f32, zero_add]
  refine Finset.sum_congr rfl fun k _ => ?_
  rw [ReadP.val_main_call2_v6_apply]
  have e : ReadP.idx_main_call2_v7 (ix2 i j) k = ix3 i j k :=
    funext fun a => Fin.ext (by match a with | ⟨0, _⟩ => rfl | ⟨1, _⟩ => rfl | ⟨2, _⟩ => rfl)
  rw [e, call2_v5_at]
  rfl

/-- The second head's log-softmax at (i, j, k). -/
theorem v32_at (i j : Fin 2048) (k : Fin 10) :
    ReadP.val_main_v32 (F := Ideal) x0 x1 x4 x5 (ix3 i j k) = PairLoss.logSoftmax (PairLoss.logitsRef x0 x1 x4 x5 i j) k := by
  rw [ReadP.val_main_v32_apply, ReadP.val_main_call2_v10_apply, ReadP.val_main_call2_v9_apply, ReadP.val_main_call2_v8_apply]
  have e : ReadP.idx_main_call2_v8 (ReadP.idx_main_call2_v10 (ix3 i j k)) = ix2 i j :=
    funext fun a => Fin.ext (by match a with | ⟨0, _⟩ => rfl | ⟨1, _⟩ => rfl)
  rw [e, call2_v7_at, call2_v5_at]
  rfl

end Head2

end Cert.ReferenceIdeal.RefValue

end
-- ==== Proof.RefTake.lean ====
/-
  The reference's three picks of a log-softmax entry at a label, and its combination of them.

  Each pick takes an array a : [2048, 2048, 10] and a label array : [2048, 2048, 1]: a label below zero is wrapped by
  ten, the wrapped label is tested for lying in [0, 9], the entry of a at (i, j, clamp(label, 0, 9)) is gathered, and
  the gathered entry is kept where the test holds (a not-a-number fills the rest). When every label word is below ten
  nothing is wrapped, every test holds and the clamp is the identity, so the pick at (i, j, 0) is a at (i, j, label).
  The tail of the program negates two picks, and combines the three into the ratio-weighted loss.
-/
import proofs.«430662_j81965155877006_3_alg».proof.Proof.Spec
import proofs.«430662_j81965155877006_3_alg».proof.Proof.RefRead

noncomputable section

open Idealize.ShloMosaic Idealize.ShloMosaic.ValueIdx Idealize.SL.Sem
open Cert.ReferenceIdeal Cert.ReferenceIdeal.Gen

namespace Cert.ReferenceIdeal.RefValue

/-! ## Words below ten -/

/-- A word below ten read as a signed integer is its natural value. -/
theorem toInt_of_lt_ten (w : BitVec 32) (hw : w.toNat < 10) : w.toInt = (w.toNat : Int) :=
  BitVec.toInt_eq_toNat_of_lt (by omega)

/-- A word below ten is not negative. -/
theorem slt_zero_of_lt_ten (w : BitVec 32) (hw : w.toNat < 10) : IntOp.cmpi .slt w 0#32 = 0#1 := by
  show BitVec.ofBool (w.slt 0#32) = 0#1
  have : w.slt 0#32 = false := by
    rw [BitVec.slt, toInt_of_lt_ten w hw]; simp
  rw [this]; rfl

/-- A word below ten is at least zero. -/
theorem sge_zero_of_lt_ten (w : BitVec 32) (hw : w.toNat < 10) : IntOp.cmpi .sge w 0#32 = 1#1 := by
  show BitVec.ofBool ((0#32).sle w) = 1#1
  have : (0#32).sle w = true := by
    rw [BitVec.sle, toInt_of_lt_ten w hw]; simp
  rw [this]; rfl

/-- A word below ten is at most nine. -/
theorem sle_nine_of_lt_ten (w : BitVec 32) (hw : w.toNat < 10) : IntOp.cmpi .sle w 9#32 = 1#1 := by
  show BitVec.ofBool (w.sle 9#32) = 1#1
  have : w.sle 9#32 = true := by
    rw [BitVec.sle, toInt_of_lt_ten w hw]; simp; omega
  rw [this]; rfl

/-- The clamp of a word below ten into [0, 9] is the class it names. -/
theorem clamp_of_lt_ten (w : BitVec 32) (hw : w.toNat < 10) : min w.toInt.toNat (10 - 1) = (PairLoss.label w).val := by
  rw [toInt_of_lt_ten w hw]
  show min ((w.toNat : Int).toNat) (10 - 1) = w.toNat % 10
  rw [Int.toNat_natCast, Nat.mod_eq_of_lt hw]; omega

/-! ## The labels and the range test, at every index -/

section Labels
variable (x6 : (⟨S2048, .i32⟩ : BufTy).Contents (Elt Ideal)) (hy : ∀ n : Fin 2048, (x6 (ix1 n)).toNat < 10)
include hy

/-- Every label word is below ten, at an index of any form. -/
theorem label_lt (p : S2048.Idx) : (x6 p).toNat < 10 := by
  rw [eq_ix1 p]; exact hy _

/-- The labels broadcast along the second axis are below ten. -/
theorem v1_lt (k : S2048x2048x1.Idx) : (ReadP.val_main_v1 (F := Ideal) x6 k).toNat < 10 := by
  rw [ReadP.val_main_v1_apply, ReadP.val_main_v0_apply]; exact label_lt x6 hy _

/-- The labels broadcast along the first axis are below ten. -/
theorem v3_lt (k : S2048x2048x1.Idx) : (ReadP.val_main_v3 (F := Ideal) x6 k).toNat < 10 := by
  rw [ReadP.val_main_v3_apply, ReadP.val_main_v2_apply]; exact label_lt x6 hy _

end Labels

/-! ## The test reduced over its unit axis -/

/-- A left fold by `and` from 1 over 1s is 1. -/
theorem foldl_andi_ones {ι : Type} (x : ι → BitVec 1) (hx : ∀ i, x i = 1#1) :
    ∀ l : List ι, l.foldl (fun r i => IntOp.andi r (x i)) 1#1 = 1#1
  | [] => rfl
  | a :: l => by
    have e : IntOp.andi 1#1 1#1 = 1#1 := by decide
    rw [List.foldl_cons, hx a, e]
    exact foldl_andi_ones x hx l

/-- A reduce by `and` from 1 of an array of 1s is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ p, init p = 1#1) (j : t.Idx) :
    Host.reduce IntOp.andi x init h hu j = 1#1 := by
  rw [Host.reduce_eq_foldl, hi]
  exact foldl_andi_ones x hx _

/-! ## The gather at an index -/

/-- The picks' dimension numbers: batching axes 0 and 1 on both sides, the collapsed operand axis 2 the one the start
    index names, the index vector on the start indices' last axis. -/
abbrev gd : GatherDims S2048x2048x10 S2048x2048x1x1 S2048x2048x1 :=
  gather_S2048x2048x10_S2048x2048x1x1_S2048x2048x1_n_2_01_01_2_3_111

/-- On the first batching axis the operand index is the result's first coordinate. -/
theorem gd_coord0 (p : S2048x2048x1.Idx) (idx : IVec S2048x2048x1x1 32) :
    gd.start p idx (0 : Fin S2048x2048x10.rank) + gd.batchCoord p (0 : Fin S2048x2048x10.rank)
      + gd.offCoord p (0 : Fin S2048x2048x10.rank) = (p 0).val := by
  rw [GatherDims.start_batching _ _ _ _ (show (0 : Fin S2048x2048x10.rank) ∈ gd.operandBatchingDims by decide),
    GatherDims.offCoord_eq_zero _ _ _ (show (0 : Fin S2048x2048x10.rank) ∉ gd.sKept by decide), Nat.zero_add, Nat.add_zero]
  unfold GatherDims.batchCoord
  rw [dif_pos (show (0 : Fin S2048x2048x10.rank) ∈ gd.operandBatchingDims by decide)]
  rfl

/-- On the second batching axis the operand index is the result's second coordinate. -/
theorem gd_coord1 (p : S2048x2048x1.Idx) (idx : IVec S2048x2048x1x1 32) :
    gd.start p idx (1 : Fin S2048x2048x10.rank) + gd.batchCoord p (1 : Fin S2048x2048x10.rank)
      + gd.offCoord p (1 : Fin S2048x2048x10.rank) = (p 1).val := by
  rw [GatherDims.start_batching _ _ _ _ (show (1 : Fin S2048x2048x10.rank) ∈ gd.operandBatchingDims by decide),
    GatherDims.offCoord_eq_zero _ _ _ (show (1 : Fin S2048x2048x10.rank) ∉ gd.sKept by decide), Nat.zero_add, Nat.add_zero]
  unfold GatherDims.batchCoord
  rw [dif_pos (show (1 : Fin S2048x2048x10.rank) ∈ gd.operandBatchingDims by decide)]
  rfl

/-- On the collapsed axis the operand index is the start index at (i, j, 0, 0), read signed and clamped into [0, 9]. -/
theorem gd_coord2 (i j : Fin 2048) (idx : IVec S2048x2048x1x1 32) :
    gd.start (ix3 i j (0 : Fin 1)) idx (2 : Fin S2048x2048x10.rank) + gd.batchCoord (ix3 i j (0 : Fin 1)) (2 : Fin S2048x2048x10.rank)
      + gd.offCoord (ix3 i j (0 : Fin 1)) (2 : Fin S2048x2048x10.rank)
      = min (idx (ix4 i j (0 : Fin 1) (0 : Fin 1))).toInt.toNat (10 - 1) := by
  rw [GatherDims.batchCoord_eq_zero _ _ _ (show (2 : Fin S2048x2048x10.rank) ∉ gd.operandBatchingDims by decide),
    GatherDims.offCoord_eq_zero _ _ _ (show (2 : Fin S2048x2048x10.rank) ∉ gd.sKept by decide)]
  simp only [Nat.add_zero]
  unfold GatherDims.start
  rw [dif_pos (show (2 : Fin S2048x2048x10.rank) ∈ gd.startIndexMap by decide)]
  have hsi : gd.siIdx (ix3 i j (0 : Fin 1)) ⟨List.idxOf (2 : Fin S2048x2048x10.rank) gd.startIndexMap,
      List.idxOf_lt_length_iff.2 (show (2 : Fin S2048x2048x10.rank) ∈ gd.startIndexMap by decide)⟩
      = ix4 i j (0 : Fin 1) (0 : Fin 1) := by
    funext b; refine Fin.ext ?_
    match b with
    | ⟨0, _⟩ => rfl
    | ⟨1, _⟩ => rfl
    | ⟨2, _⟩ => rfl
    | ⟨3, _⟩ => rfl
  rw [hsi]
  rfl

/-- THE GATHER READ AT (i, j, 0): the operand at (i, j, c), c the start index at (i, j, 0, 0) read signed and clamped
    into [0, 9]. -/
theorem gather_at {α : Type} (a : S2048x2048x10.Idx → α) (idx : IVec S2048x2048x1x1 32) (i j : Fin 2048) :
    Host.gather gd a idx (ix3 i j (0 : Fin 1))
      = a (ix3 i j (⟨min (idx (ix4 i j (0 : Fin 1) (0 : Fin 1))).toInt.toNat (10 - 1), by omega⟩ : Fin 10)) := by
  unfold Host.gather
  congr 1
  funext c
  refine Fin.ext ?_
  match c with
  | ⟨0, _⟩ => exact gd_coord0 (ix3 i j (0 : Fin 1)) idx
  | ⟨1, _⟩ => exact gd_coord1 (ix3 i j (0 : Fin 1)) idx
  | ⟨2, _⟩ => exact gd_coord2 i j idx

/-! ## The first pick (the program's main_call1; its result is v17) -/

section Pick_call1
variable (x6 : (⟨S2048, .i32⟩ : BufTy).Contents (Elt Ideal)) (hy : ∀ n : Fin 2048, (x6 (ix1 n)).toNat < 10)
include hy

/-- No label is wrapped. -/
theorem call1_v4_eq (k : S2048x2048x1.Idx) :
    ReadP.val_main_call1_v4 (F := Ideal) x6 k = ReadP.val_main_v1 (F := Ideal) x6 k := by
  rw [ReadP.val_main_call1_v4_apply, ReadP.val_main_call1_v1_apply, ReadP.val_main_call1_v0_apply,
    ReadP.val_main_call1_c_apply, slt_zero_of_lt_ten _ (v1_lt x6 hy k)]
  exact select_zero _ _

/-- The reshaped labels are below ten. -/
theorem call1_v5_lt (q : S2048x2048x1x1.Idx) : (ReadP.val_main_call1_v5 (F := Ideal) x6 q).toNat < 10 := by
  rw [ReadP.val_main_call1_v5_apply, call1_v4_eq x6 hy]; exact v1_lt x6 hy _

/-- The range test holds at every index. -/
theorem call1_v11_one (q : S2048x2048x1x1.Idx) : ReadP.val_main_call1_v11 (F := Ideal) x6 q = 1#1 := by
  rw [ReadP.val_main_call1_v11_apply, ReadP.val_main_call1_v7_apply, ReadP.val_main_call1_v10_apply,
    ReadP.val_main_call1_v6_apply, ReadP.val_main_call1_c_2_apply, ReadP.val_main_call1_v9_apply,
    ReadP.val_main_call1_v8_apply, ReadP.val_main_call1_c_1_apply,
    sge_zero_of_lt_ten _ (call1_v5_lt x6 hy q), sle_nine_of_lt_ten _ (call1_v5_lt x6 hy q)]
  rfl

/-- The test reduced over its unit axis holds at every index. -/
theorem call1_v12_one (k : S2048x2048x1.Idx) : ReadP.val_main_call1_v12 (F := Ideal) x6 k = 1#1 := by
  unfold ReadP.val_main_call1_v12
  exact reduce_andi_ones _ _ _ _ (call1_v11_one x6 hy) (fun _ => rfl) k

/-- The start index at (i, j, 0, 0) is the label of row i. -/
theorem call1_v5_at (i j : Fin 2048) :
    ReadP.val_main_call1_v5 (F := Ideal) x6 (ix4 i j (0 : Fin 1) (0 : Fin 1)) = x6 (ix1 i) := by
  rw [ReadP.val_main_call1_v5_apply, call1_v4_eq x6 hy, ReadP.val_main_v1_apply, ReadP.val_main_v0_apply]
  congr 1
  funext a
  match a with
  | ⟨0, _⟩ =>
    refine Fin.ext ?_
    have hi := i.isLt
    have hj := j.isLt
    show (((i.val * 2048 + j.val) * 1 + 0) * 1 + 0) / 2048 = i.val
    omega

/-- The gathered entry at (i, j, 0) is the array's at (i, j, label of row i). -/
theorem call1_v13_at (x0 x1 : (⟨S2048x1024, .f32⟩ : BufTy).Contents (Elt Ideal)) (x2 : (⟨S10x1024, .f32⟩ : BufTy).Contents (Elt Ideal)) (x3 : (⟨S10, .f32⟩ : BufTy).Contents (Elt Ideal)) (i j : Fin 2048) :
    ReadP.val_main_call1_v13 (F := Ideal) x0 x1 x2 x3 x6 (ix3 i j (0 : Fin 1))
      = ReadP.val_main_v16 (F := Ideal) x0 x1 x2 x3 (ix3 i j (PairLoss.label (x6 (ix1 i)))) := by
  unfold ReadP.val_main_call1_v13
  rw [show gather_S2048x2048x10_S2048x2048x1x1_S2048x2048x1_n_2_01_01_2_3_111 = gd from rfl, gather_at]
  refine congrArg (ReadP.val_main_v16 (F := Ideal) x0 x1 x2 x3) (congrArg (ix3 i j) (Fin.ext ?_))
  show min (ReadP.val_main_call1_v5 (F := Ideal) x6 (ix4 i j (0 : Fin 1) (0 : Fin 1))).toInt.toNat (10 - 1)
    = (PairLoss.label (x6 (ix1 i))).val
  rw [call1_v5_at x6 hy i j]
  exact clamp_of_lt_ten _ (hy i)

end Pick_call1

/-- THE PICK at (i, j, 0): the array at (i, j, label of row i). -/
theorem v17_at (x0 x1 : (⟨S2048x1024, .f32⟩ : BufTy).Contents (Elt Ideal)) (x2 : (⟨S10x1024, .f32⟩ : BufTy).Contents (Elt Ideal)) (x3 : (⟨S10, .f32⟩ : BufTy).Contents (Elt Ideal))
    (x6 : (⟨S2048, .i32⟩ : BufTy).Contents (Elt Ideal)) (hy : ∀ n : Fin 2048, (x6 (ix1 n)).toNat < 10) (i j : Fin 2048) :
    ReadP.val_main_v17 (F := Ideal) x0 x1 x2 x3 x6 (ix3 i j (0 : Fin 1))
      = ReadP.val_main_v16 (F := Ideal) x0 x1 x2 x3 (ix3 i j (PairLoss.label (x6 (ix1 i)))) := by
  rw [ReadP.val_main_v17_apply, call1_v12_one x6 hy, select_one, call1_v13_at x6 hy]

/-! ## The second pick (the program's main_call3; its result is v33) -/

section Pick_call3
variable (x6 : (⟨S2048, .i32⟩ : BufTy).Contents (Elt Ideal)) (hy : ∀ n : Fin 2048, (x6 (ix1 n)).toNat < 10)
include hy

/-- No label is wrapped. -/
theorem call3_v4_eq (k : S2048x2048x1.Idx) :
    ReadP.val_main_call3_v4 (F := Ideal) x6 k = ReadP.val_main_v1 (F := Ideal) x6 k := by
  rw [ReadP.val_main_call3_v4_apply, ReadP.val_main_call3_v1_apply, ReadP.val_main_call3_v0_apply,
    ReadP.val_main_call3_c_apply, slt_zero_of_lt_ten _ (v1_lt x6 hy k)]
  exact select_zero _ _

/-- The reshaped labels are below ten. -/
theorem call3_v5_lt (q : S2048x2048x1x1.Idx) : (ReadP.val_main_call3_v5 (F := Ideal) x6 q).toNat < 10 := by
  rw [ReadP.val_main_call3_v5_apply, call3_v4_eq x6 hy]; exact v1_lt x6 hy _

/-- The range test holds at every index. -/
theorem call3_v11_one (q : S2048x2048x1x1.Idx) : ReadP.val_main_call3_v11 (F := Ideal) x6 q = 1#1 := by
  rw [ReadP.val_main_call3_v11_apply, ReadP.val_main_call3_v7_apply, ReadP.val_main_call3_v10_apply,
    ReadP.val_main_call3_v6_apply, ReadP.val_main_call3_c_2_apply, ReadP.val_main_call3_v9_apply,
    ReadP.val_main_call3_v8_apply, ReadP.val_main_call3_c_1_apply,
    sge_zero_of_lt_ten _ (call3_v5_lt x6 hy q), sle_nine_of_lt_ten _ (call3_v5_lt x6 hy q)]
  rfl

/-- The test reduced over its unit axis holds at every index. -/
theorem call3_v12_one (k : S2048x2048x1.Idx) : ReadP.val_main_call3_v12 (F := Ideal) x6 k = 1#1 := by
  unfold ReadP.val_main_call3_v12
  exact reduce_andi_ones _ _ _ _ (call3_v11_one x6 hy) (fun _ => rfl) k

/-- The start index at (i, j, 0, 0) is the label of row i. -/
theorem call3_v5_at (i j : Fin 2048) :
    ReadP.val_main_call3_v5 (F := Ideal) x6 (ix4 i j (0 : Fin 1) (0 : Fin 1)) = x6 (ix1 i) := by
  rw [ReadP.val_main_call3_v5_apply, call3_v4_eq x6 hy, ReadP.val_main_v1_apply, ReadP.val_main_v0_apply]
  congr 1
  funext a
  match a with
  | ⟨0, _⟩ =>
    refine Fin.ext ?_
    have hi := i.isLt
    have hj := j.isLt
    show (((i.val * 2048 + j.val) * 1 + 0) * 1 + 0) / 2048 = i.val
    omega

/-- The gathered entry at (i, j, 0) is the array's at (i, j, label of row i). -/
theorem call3_v13_at (x0 x1 : (⟨S2048x1024, .f32⟩ : BufTy).Contents (Elt Ideal)) (x4 : (⟨S10x1024, .f32⟩ : BufTy).Contents (Elt Ideal)) (x5 : (⟨S10, .f32⟩ : BufTy).Contents (Elt Ideal)) (i j : Fin 2048) :
    ReadP.val_main_call3_v13 (F := Ideal) x0 x1 x4 x5 x6 (ix3 i j (0 : Fin 1))
      = ReadP.val_main_v32 (F := Ideal) x0 x1 x4 x5 (ix3 i j (PairLoss.label (x6 (ix1 i)))) := by
  unfold ReadP.val_main_call3_v13
  rw [show gather_S2048x2048x10_S2048x2048x1x1_S2048x2048x1_n_2_01_01_2_3_111 = gd from rfl, gather_at]
  refine congrArg (ReadP.val_main_v32 (F := Ideal) x0 x1 x4 x5) (congrArg (ix3 i j) (Fin.ext ?_))
  show min (ReadP.val_main_call3_v5 (F := Ideal) x6 (ix4 i j (0 : Fin 1) (0 : Fin 1))).toInt.toNat (10 - 1)
    = (PairLoss.label (x6 (ix1 i))).val
  rw [call3_v5_at x6 hy i j]
  exact clamp_of_lt_ten _ (hy i)

end Pick_call3

/-- THE PICK at (i, j, 0): the array at (i, j, label of row i). -/
theorem v33_at (x0 x1 : (⟨S2048x1024, .f32⟩ : BufTy).Contents (Elt Ideal)) (x4 : (⟨S10x1024, .f32⟩ : BufTy).Contents (Elt Ideal)) (x5 : (⟨S10, .f32⟩ : BufTy).Contents (Elt Ideal))
    (x6 : (⟨S2048, .i32⟩ : BufTy).Contents (Elt Ideal)) (hy : ∀ n : Fin 2048, (x6 (ix1 n)).toNat < 10) (i j : Fin 2048) :
    ReadP.val_main_v33 (F := Ideal) x0 x1 x4 x5 x6 (ix3 i j (0 : Fin 1))
      = ReadP.val_main_v32 (F := Ideal) x0 x1 x4 x5 (ix3 i j (PairLoss.label (x6 (ix1 i)))) := by
  rw [ReadP.val_main_v33_apply, call3_v12_one x6 hy, select_one, call3_v13_at x6 hy]

/-! ## The third pick (the program's main_call4; its result is v36) -/

section Pick_call4
variable (x6 : (⟨S2048, .i32⟩ : BufTy).Contents (Elt Ideal)) (hy : ∀ n : Fin 2048, (x6 (ix1 n)).toNat < 10)
include hy

/-- No label is wrapped. -/
theorem call4_v4_eq (k : S2048x2048x1.Idx) :
    ReadP.val_main_call4_v4 (F := Ideal) x6 k = ReadP.val_main_v3 (F := Ideal) x6 k := by
  rw [ReadP.val_main_call4_v4_apply, ReadP.val_main_call4_v1_apply, ReadP.val_main_call4_v0_apply,
    ReadP.val_main_call4_c_apply, slt_zero_of_lt_ten _ (v3_lt x6 hy k)]
  exact select_zero _ _

/-- The reshaped labels are below ten. -/
theorem call4_v5_lt (q : S2048x2048x1x1.Idx) : (ReadP.val_main_call4_v5 (F := Ideal) x6 q).toNat < 10 := by
  rw [ReadP.val_main_call4_v5_apply, call4_v4_eq x6 hy]; exact v3_lt x6 hy _

/-- The range test holds at every index. -/
theorem call4_v11_one (q : S2048x2048x1x1.Idx) : ReadP.val_main_call4_v11 (F := Ideal) x6 q = 1#1 := by
  rw [ReadP.val_main_call4_v11_apply, ReadP.val_main_call4_v7_apply, ReadP.val_main_call4_v10_apply,
    ReadP.val_main_call4_v6_apply, ReadP.val_main_call4_c_2_apply, ReadP.val_main_call4_v9_apply,
    ReadP.val_main_call4_v8_apply, ReadP.val_main_call4_c_1_apply,
    sge_zero_of_lt_ten _ (call4_v5_lt x6 hy q), sle_nine_of_lt_ten _ (call4_v5_lt x6 hy q)]
  rfl

/-- The test reduced over its unit axis holds at every index. -/
theorem call4_v12_one (k : S2048x2048x1.Idx) : ReadP.val_main_call4_v12 (F := Ideal) x6 k = 1#1 := by
  unfold ReadP.val_main_call4_v12
  exact reduce_andi_ones _ _ _ _ (call4_v11_one x6 hy) (fun _ => rfl) k

/-- The start index at (i, j, 0, 0) is the label of column j. -/
theorem call4_v5_at (i j : Fin 2048) :
    ReadP.val_main_call4_v5 (F := Ideal) x6 (ix4 i j (0 : Fin 1) (0 : Fin 1)) = x6 (ix1 j) := by
  rw [ReadP.val_main_call4_v5_apply, call4_v4_eq x6 hy, ReadP.val_main_v3_apply, ReadP.val_main_v2_apply]
  congr 1
  funext a
  match a with
  | ⟨0, _⟩ =>
    refine Fin.ext ?_
    have hi := i.isLt
    have hj := j.isLt
    show (((i.val * 2048 + j.val) * 1 + 0) * 1 + 0) / 1 % 2048 = j.val
    omega

/-- The gathered entry at (i, j, 0) is the array's at (i, j, label of column j). -/
theorem call4_v13_at (x0 x1 : (⟨S2048x1024, .f32⟩ : BufTy).Contents (Elt Ideal)) (x4 : (⟨S10x1024, .f32⟩ : BufTy).Contents (Elt Ideal)) (x5 : (⟨S10, .f32⟩ : BufTy).Contents (Elt Ideal)) (i j : Fin 2048) :
    ReadP.val_main_call4_v13 (F := Ideal) x0 x1 x4 x5 x6 (ix3 i j (0 : Fin 1))
      = ReadP.val_main_v32 (F := Ideal) x0 x1 x4 x5 (ix3 i j (PairLoss.label (x6 (ix1 j)))) := by
  unfold ReadP.val_main_call4_v13
  rw [show gather_S2048x2048x10_S2048x2048x1x1_S2048x2048x1_n_2_01_01_2_3_111 = gd from rfl, gather_at]
  refine congrArg (ReadP.val_main_v32 (F := Ideal) x0 x1 x4 x5) (congrArg (ix3 i j) (Fin.ext ?_))
  show min (ReadP.val_main_call4_v5 (F := Ideal) x6 (ix4 i j (0 : Fin 1) (0 : Fin 1))).toInt.toNat (10 - 1)
    = (PairLoss.label (x6 (ix1 j))).val
  rw [call4_v5_at x6 hy i j]
  exact clamp_of_lt_ten _ (hy j)

end Pick_call4

/-- THE PICK at (i, j, 0): the array at (i, j, label of column j). -/
theorem v36_at (x0 x1 : (⟨S2048x1024, .f32⟩ : BufTy).Contents (Elt Ideal)) (x4 : (⟨S10x1024, .f32⟩ : BufTy).Contents (Elt Ideal)) (x5 : (⟨S10, .f32⟩ : BufTy).Contents (Elt Ideal))
    (x6 : (⟨S2048, .i32⟩ : BufTy).Contents (Elt Ideal)) (hy : ∀ n : Fin 2048, (x6 (ix1 n)).toNat < 10) (i j : Fin 2048) :
    ReadP.val_main_v36 (F := Ideal) x0 x1 x4 x5 x6 (ix3 i j (0 : Fin 1))
      = ReadP.val_main_v32 (F := Ideal) x0 x1 x4 x5 (ix3 i j (PairLoss.label (x6 (ix1 j)))) := by
  rw [ReadP.val_main_v36_apply, call4_v12_one x6 hy, select_one, call4_v13_at x6 hy]

/-! ## The combination -/

/-- The flattened pair index (i, j) read back as (i, j, 0). -/
theorem idx_v18_ix2 (i j : Fin 2048) : ReadP.idx_main_v18 (ix2 i j) = ix3 i j (0 : Fin 1) := by
  funext a
  have hi := i.isLt
  have hj := j.isLt
  match a with
  | ⟨0, _⟩ => exact Fin.ext (by show (i.val * 2048 + j.val) / 2048 = i.val; omega)
  | ⟨1, _⟩ => exact Fin.ext (by show (i.val * 2048 + j.val) / 1 % 2048 = j.val; omega)
  | ⟨2, _⟩ => rfl

theorem idx_v34_ix2 (i j : Fin 2048) : ReadP.idx_main_v34 (ix2 i j) = ix3 i j (0 : Fin 1) := idx_v18_ix2 i j

theorem idx_v37_ix2 (i j : Fin 2048) : ReadP.idx_main_v37 (ix2 i j) = ix3 i j (0 : Fin 1) := idx_v18_ix2 i j

/-- THE REFERENCE'S LOSS at (i, j): the ratio-weighted combination of the causal head's entry at the label of row i
    negated, the bias head's entry there negated, and the bias head's entry at the label of column j. -/
theorem v51_at (x0 x1 : (⟨S2048x1024, .f32⟩ : BufTy).Contents (Elt Ideal)) (x2 : (⟨S10x1024, .f32⟩ : BufTy).Contents (Elt Ideal))
    (x3 : (⟨S10, .f32⟩ : BufTy).Contents (Elt Ideal)) (x4 : (⟨S10x1024, .f32⟩ : BufTy).Contents (Elt Ideal))
    (x5 : (⟨S10, .f32⟩ : BufTy).Contents (Elt Ideal)) (x6 : (⟨S2048, .i32⟩ : BufTy).Contents (Elt Ideal))
    (hy : ∀ n : Fin 2048, (x6 (ix1 n)).toNat < 10) (i j : Fin 2048) :
    ReadP.val_main_v51 (F := Ideal) x0 x1 x2 x3 x4 x5 x6 (ix2 i j)
      = PairLoss.amplified (-(ReadP.val_main_v16 (F := Ideal) x0 x1 x2 x3 (ix3 i j (PairLoss.label (x6 (ix1 i))))))
          (-(ReadP.val_main_v32 (F := Ideal) x0 x1 x4 x5 (ix3 i j (PairLoss.label (x6 (ix1 i))))))
          (ReadP.val_main_v32 (F := Ideal) x0 x1 x4 x5 (ix3 i j (PairLoss.label (x6 (ix1 j))))) := by
  rw [ReadP.val_main_v51_apply, ReadP.val_main_v47_apply, ReadP.val_main_v50_apply, ReadP.val_main_v49_apply,
    ReadP.val_main_v46_apply, ReadP.val_main_v45_apply, ReadP.val_main_v43_apply, ReadP.val_main_v42_apply,
    ReadP.val_main_v41_apply, ReadP.val_main_v39_apply, ReadP.val_main_v38_apply, ReadP.val_main_v37_apply,
    ReadP.val_main_v35_apply, ReadP.val_main_v34_apply, ReadP.val_main_v19_apply, ReadP.val_main_v18_apply,
    ReadP.val_main_v48_apply, ReadP.val_main_cst_1_apply, ReadP.val_main_v44_apply, ReadP.val_main_cst_0_apply,
    ReadP.val_main_v40_apply, ReadP.val_main_cst_apply,
    idx_v18_ix2, idx_v34_ix2, idx_v37_ix2, v17_at x0 x1 x2 x3 x6 hy, v33_at x0 x1 x4 x5 x6 hy, v36_at x0 x1 x4 x5 x6 hy]
  simp only [Ideal.addf_def, Ideal.subf_def, Ideal.mulf_def, Ideal.hostDivf_def, Ideal.hostNegf_def, Ideal.negf_def,
    Ideal.hostUnary_exp_def, Ideal.hostPowf_def, Ideal.ofBits_def]
  rfl

end Cert.ReferenceIdeal.RefValue

end
-- ==== Proof.RefFinal.lean ====
/-
  The reference program's run with its result named, and that result at a pair.

  Every weakly fair execution of the reference's @main ends with the result buffer at the last stage of its host
  operations, a function of the seven arguments (the fold of the 146 operations read back window by window); at the pair
  (i, j), under labels below ten, that stage is the reference-form loss of the specification: the tail of the program
  combines three entries of the two heads' log-softmax arrays picked at the labels y[i], y[i] and y[j], and each
  log-softmax entry is the shifted log-softmax of the head's ten logits at the pair.
-/
import proofs.«430662_j81965155877006_3_alg».proof.Proof.Spec
import proofs.«430662_j81965155877006_3_alg».proof.Proof.RefRun
import proofs.«430662_j81965155877006_3_alg».proof.Proof.RefRead
import proofs.«430662_j81965155877006_3_alg».proof.Proof.RefStages
import proofs.«430662_j81965155877006_3_alg».proof.Proof.RefLogSoftmax
import proofs.«430662_j81965155877006_3_alg».proof.Proof.RefTake

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

/-- The last stage at the pair (i, j) is the reference-form loss there, when every label word is below ten. -/
theorem v51_eq_lossRefAt (x0 x1 : (⟨S2048x1024, .f32⟩ : BufTy).Contents (Elt Ideal)) (x2 : (⟨S10x1024, .f32⟩ : BufTy).Contents (Elt Ideal))
    (x3 : (⟨S10, .f32⟩ : BufTy).Contents (Elt Ideal)) (x4 : (⟨S10x1024, .f32⟩ : BufTy).Contents (Elt Ideal))
    (x5 : (⟨S10, .f32⟩ : BufTy).Contents (Elt Ideal)) (x6 : (⟨S2048, .i32⟩ : BufTy).Contents (Elt Ideal))
    (hy : ∀ n : Fin 2048, (x6 (ix1 n)).toNat < 10) (i j : Fin 2048) :
    ReadP.val_main_v51 (F := Ideal) x0 x1 x2 x3 x4 x5 x6 (ix2 i j) = PairLoss.lossRefAt x0 x1 x2 x3 x4 x5 x6 i j := by
  rw [v51_at x0 x1 x2 x3 x4 x5 x6 hy i j, v16_at, v32_at, v32_at]
  rfl

variable {F : FTy → Type} [FloatOps F]

/-- The run: the result buffer ends at the last stage of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
          = ReadP.val_main_v51 (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v51).trans (RefStages.after_ops_v51 (launchContents m c)),
       (h c main_arg0).trans (RefStages.after_ops_arg0 (launchContents m c)),
       (h c main_arg1).trans (RefStages.after_ops_arg1 (launchContents m c)),
       (h c main_arg2).trans (RefStages.after_ops_arg2 (launchContents m c)),
       (h c main_arg3).trans (RefStages.after_ops_arg3 (launchContents m c)),
       (h c main_arg4).trans (RefStages.after_ops_arg4 (launchContents m c)),
       (h c main_arg5).trans (RefStages.after_ops_arg5 (launchContents m c)),
       (h c main_arg6).trans (RefStages.after_ops_arg6 (launchContents m c))⟩)
    (ValueP.run_after m ρ)

end Cert.ReferenceIdeal.RefValue

end
-- ==== Proof.lean ====
/-
  The pairwise ratio-weighted loss (two linear heads, log-softmax cross entropies at the label of i, a generalized
  cross entropy at the label of j): the tiled kernel against the all-pairs reference, over the extended reals.

  Both programs are the same function of the arguments at every pair (i, j) once every float input is a real number and
  every label is a class:
    * the kernel's result array is, entry by entry, the kernel-form loss of the specification — its first region leaves
      the four projection arrays (rows of z_c and of z_b against the stacked weight rows, the bias added on the z_c
      side), its second region combines, tile by tile, one row of ten of each left array with one column of ten of each
      right array and the two label words;
    * the reference's result is, entry by entry, the reference-form loss: its 146 host operations read back stage by
      stage, the gathers picking the log-softmax entries at the labels;
    * the two forms agree on real logits: sums and products commute and re-associate, the running maximum from the
      bottom element is the maximum, the sum of 0/1 masks times logits is the logit at the label,
      (M + log S) - l = -((l - M) - log S), and exp (lp * q) = (exp lp)^q.
  The frames of the two kernel programs are the generated ones; the reference's frame is its run with the result
  dropped; the idealization's two ledger entries say that the named sentinel denotes the bottom element.
-/
import proofs.«430662_j81965155877006_3_alg».proof.Defs
import proofs.«430662_j81965155877006_3_alg».proof.Proof.Gen.Kernel
import proofs.«430662_j81965155877006_3_alg».proof.Proof.Gen.Kernel.Skeleton
import proofs.«430662_j81965155877006_3_alg».proof.Proof.Gen.Kernel.Launch
import proofs.«430662_j81965155877006_3_alg».proof.Proof.Gen.Kernel.Points
import proofs.«430662_j81965155877006_3_alg».proof.Proof.Gen.Kernel.Frame
import proofs.«430662_j81965155877006_3_alg».proof.Proof.Gen.KernelIdeal
import proofs.«430662_j81965155877006_3_alg».proof.Proof.Gen.KernelIdeal.Skeleton
import proofs.«430662_j81965155877006_3_alg».proof.Proof.Gen.KernelIdeal.Launch
import proofs.«430662_j81965155877006_3_alg».proof.Proof.Gen.KernelIdeal.Points
import proofs.«430662_j81965155877006_3_alg».proof.Proof.Gen.KernelIdeal.Frame
import proofs.«430662_j81965155877006_3_alg».proof.Proof.Gen.ReferenceIdeal
import proofs.«430662_j81965155877006_3_alg».proof.Proof.Gen.Pre_finite_inputs
import proofs.«430662_j81965155877006_3_alg».proof.Proof.Spec
import proofs.«430662_j81965155877006_3_alg».proof.Proof.LossAlgebra
import proofs.«430662_j81965155877006_3_alg».proof.Proof.PreDecode
import proofs.«430662_j81965155877006_3_alg».proof.Proof.KValue
import proofs.«430662_j81965155877006_3_alg».proof.Proof.RefFinal
import Idealize.ShloMosaic.Adequacy
import Idealize.ShloMosaic.Init

noncomputable section

namespace Cert.Proof

open Idealize.ShloMosaic Idealize.SL.Sem Idealize.ShloMosaic.ValueIdx

/-- The word-level kernel program terminates without a fault and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The two ledger entries: the finite sentinel of the two running maxima is named, and the name denotes the bottom
    element of the extended reals. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-- From memories agreeing on the arguments both programs end with the same [2048,2048] array: the kernel-form loss of
    the kernel's arguments, which the reference's last stage equals at every pair under the precondition. -/
theorem algebraic : Cert.algebraic_KernelIdeal_ReferenceIdeal := by
  intro m ρ m' ρ' hpre hagree
  refine ⟨fun c => Cert.KernelIdeal.KValue.lossKerArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5, e6⟩ := hagree c
  rw [e0, e1, e2, e3, e4, e5, e6]
  obtain ⟨h0, h1, h2, h3, h4, h5, hy⟩ := Cert.Pre_finite_inputs.Decode.of_pre _ _ _ _ _ _ _ (hpre c)
  funext p
  obtain ⟨i, j, rfl⟩ : ∃ (i j : Fin 2048), p = ix2 i j := ⟨p 0, p 1, eq_ix2 p⟩
  rw [Cert.ReferenceIdeal.RefValue.v51_eq_lossRefAt _ _ _ _ _ _ _ hy i j]
  exact (PairLoss.lossKerAt_eq_lossRefAt _ _ _ _ _ _ _ h0 h1 h2 h3 h4 h5 hy i j).symm

/-- The certificate's claim. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
